-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_2018" .f32 0x3A01E723#32 ((1 / 2018 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64 : Shape := ⟨2, ![256, 64]⟩
abbrev S100000x64 : Shape := ⟨2, ![100000, 64]⟩
abbrev S128x64 : Shape := ⟨2, ![128, 64]⟩
abbrev S64 : Shape := ⟨1, ![64]⟩
abbrev S64x10 : Shape := ⟨2, ![64, 10]⟩
abbrev S10 : Shape := ⟨1, ![10]⟩
abbrev S65x64 : Shape := ⟨2, ![65, 64]⟩
abbrev S10x64 : Shape := ⟨2, ![10, 64]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S65x64 : S_.BroadcastsInDim S65x64 (![] : Fin 0 → Fin S65x64.rank)
  reducesTo_S65x64_S_d0_1 : S65x64.ReducesTo [0, 1] S_
  bcast_S_S10x64 : S_.BroadcastsInDim S10x64 (![] : Fin 0 → Fin S10x64.rank)
  reducesTo_S10x64_S_d0_1 : S10x64.ReducesTo [0, 1] S_
  bcast_S_S100000 : S_.BroadcastsInDim S100000 (![] : Fin 0 → Fin S100000.rank)
  reducesTo_S100000_S_d0 : S100000.ReducesTo [0] S_
  reducesTo_S_S_d : S_.ReducesTo [] S_

variable [Facts]

def fn_part3 {F : FTy → Type} [FloatOps F] (main_arg12 : FVec F S_ .f32) (main_v48 : IVec S_ 1) (main_v49 : FVec F S100000 .f32) (main_v50 : FVec F S100000 .f32) : IVec S_ 1 :=
  let main_v51 : IVec S100000 1 := cmpf .olt main_v49 main_v50
  let main_c_19 : IVec S_ 1 := constantI S_ 1 1#1
  let main_v52 : IVec S_ 1 := (fun x v => Host.reduce IntOp.andi x v reducesTo_S100000_S_d0 h_S_) main_v51 main_c_19
  let main_v53 : IVec S_ 1 := andi main_v48 main_v52
  let main_v54 : FVec F S_ .f32 := Host.absf main_arg12
  let main_cst_20 : FVec F S_ .f32 := constant S_ .f32 0x7F800000#32
  let main_v55 : IVec S_ 1 := cmpf .olt main_v54 main_cst_20
  let main_c_21 : IVec S_ 1 := constantI S_ 1 1#1
  let main_v56 : IVec S_ 1 := (fun x v => Host.reduce IntOp.andi x v reducesTo_S_S_d h_S_) main_v55 main_c_21
  let main_v57 : IVec S_ 1 := andi main_v53 main_v56
  main_v57

def fn_part2 {F : FTy → Type} [FloatOps F] (main_arg8 : FVec F S64x10 .f32) (main_arg9 : FVec F S10 .f32) (main_arg10 : FVec F S10x64 .f32) (main_arg11 : FVec F S100000 .f32) (main_arg12 : FVec F S_ .f32) (main_v33 : IVec S_ 1) : IVec S_ 1 :=
  let main_v34 : FVec F S64x10 .f32 := Host.absf main_arg8
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S10x64 .f32 := Host.absf main_arg10
  let main_cst_16 : FVec F S_ .f32 := constant S_ .f32 0x7F800000#32
  let main_v45 : FVec F S10x64 .f32 := broadcastInDim S10x64 ![] bcast_S_S10x64 main_cst_16
  let main_v46 : IVec S10x64 1 := cmpf .olt main_v44 main_v45
  let main_c_17 : IVec S_ 1 := constantI S_ 1 1#1
  let main_v47 : IVec S_ 1 := (fun x v => Host.reduce IntOp.andi x v reducesTo_S10x64_S_d0_1 h_S_) main_v46 main_c_17
  let main_v48 : IVec S_ 1 := andi main_v43 main_v47
  let main_v49 : FVec F S100000 .f32 := Host.absf main_arg11
  let main_cst_18 : FVec F S_ .f32 := constant S_ .f32 0x7F800000#32
  let main_v50 : FVec F S100000 .f32 := broadcastInDim S100000 ![] bcast_S_S100000 main_cst_18
  fn_part3 (F := F) main_arg12 main_v48 main_v49 main_v50

def fn_part1 {F : FTy → Type} [FloatOps F] (main_arg5 : FVec F S10 .f32) (main_arg6 : FVec F S65x64 .f32) (main_arg7 : FVec F S64 .f32) (main_arg8 : FVec F S64x10 .f32) (main_arg9 : FVec F S10 .f32) (main_arg10 : FVec F S10x64 .f32) (main_arg11 : FVec F S100000 .f32) (main_arg12 : FVec F S_ .f32) (main_v13 : IVec S_ 1) (main_v16 : IVec S64x10 1) : IVec S_ 1 :=
  let main_c_5 : IVec S_ 1 := constantI S_ 1 1#1
  let main_v17 : IVec S_ 1 := (fun x v => Host.reduce IntOp.andi x v reducesTo_S64x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S65x64 .f32 := Host.absf main_arg6
  let main_cst_8 : FVec F S_ .f32 := constant S_ .f32 0x7F800000#32
  let main_v25 : FVec F S65x64 .f32 := broadcastInDim S65x64 ![] bcast_S_S65x64 main_cst_8
  let main_v26 : IVec S65x64 1 := cmpf .olt main_v24 main_v25
  let main_c_9 : IVec S_ 1 := constantI S_ 1 1#1
  let main_v27 : IVec S_ 1 := (fun x v => Host.reduce IntOp.andi x v reducesTo_S65x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S256x64 32) (main_arg1 : FVec F S100000x64 .f32) (main_arg2 : FVec F S128x64 .f32) (main_arg3 : FVec F S64 .f32) (main_arg4 : FVec F S64x10 .f32) (main_arg5 : FVec F S10 .f32) (main_arg6 : FVec F S65x64 .f32) (main_arg7 : FVec F S64 .f32) (main_arg8 : FVec F S64x10 .f32) (main_arg9 : FVec F S10 .f32) (main_arg10 : FVec F S10x64 .f32) (main_arg11 : FVec F S100000 .f32) (main_arg12 : FVec F S_ .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x10 .f32 := Host.absf main_arg4
  let main_cst_4 : FVec F S_ .f32 := constant S_ .f32 0x7F800000#32
  let main_v15 : FVec F S64x10 .f32 := broadcastInDim S64x10 ![] bcast_S_S64x10 main_cst_4
  let main_v16 : IVec S64x10 1 := cmpf .olt main_v14 main_v15
  fn_part1 (F := F) main_arg5 main_arg6 main_arg7 main_arg8 main_arg9 main_arg10 main_arg11 main_arg12 main_v13 main_v16
-- ==== Kernel.lean ====
abbrev S256x64 : Shape := ⟨2, ![256, 64]⟩
abbrev S100000x64 : Shape := ⟨2, ![100000, 64]⟩
abbrev S128x64 : Shape := ⟨2, ![128, 64]⟩
abbrev S64 : Shape := ⟨1, ![64]⟩
abbrev S64x10 : Shape := ⟨2, ![64, 10]⟩
abbrev S10 : Shape := ⟨1, ![10]⟩
abbrev S65x64 : Shape := ⟨2, ![65, 64]⟩
abbrev S10x64 : Shape := ⟨2, ![10, 64]⟩
abbrev S100000 : Shape := ⟨1, ![100000]⟩
abbrev S_ : Shape := ⟨0, ![]⟩
abbrev S256x64x1 : Shape := ⟨3, ![256, 64, 1]⟩
abbrev S256x64x64 : Shape := ⟨3, ![256, 64, 64]⟩
abbrev S1x64 : Shape := ⟨2, ![1, 64]⟩
abbrev S1x10 : Shape := ⟨2, ![1, 10]⟩
abbrev S256x64x10 : Shape := ⟨3, ![256, 64, 10]⟩
abbrev S8x64x64 : Shape := ⟨3, ![8, 64, 64]⟩
abbrev S8x64 : Shape := ⟨2, ![8, 64]⟩
abbrev S8x64x10 : Shape := ⟨3, ![8, 64, 10]⟩
abbrev S512x64 : Shape := ⟨2, ![512, 64]⟩
abbrev S64x64 : Shape := ⟨2, ![64, 64]⟩
abbrev S8x10 : Shape := ⟨2, ![8, 10]⟩
abbrev S8x8x64 : Shape := ⟨3, ![8, 8, 64]⟩
abbrev S8x8x1x64 : Shape := ⟨4, ![8, 8, 1, 64]⟩
abbrev S8x1x64x64 : Shape := ⟨4, ![8, 1, 64, 64]⟩
abbrev S8x8x64x64 : Shape := ⟨4, ![8, 8, 64, 64]⟩
abbrev S1x1x1x64 : Shape := ⟨4, ![1, 1, 1, 64]⟩
abbrev S4096x64 : Shape := ⟨2, ![4096, 64]⟩
abbrev S4096x10 : Shape := ⟨2, ![4096, 10]⟩
abbrev S8x8x64x10 : Shape := ⟨4, ![8, 8, 64, 10]⟩
abbrev S1x8x64x1 : Shape := ⟨4, ![1, 8, 64, 1]⟩
abbrev S8x8x10 : Shape := ⟨3, ![8, 8, 10]⟩
abbrev S8x64x1 : Shape := ⟨3, ![8, 64, 1]⟩
abbrev S1x1x64 : Shape := ⟨3, ![1, 1, 64]⟩
abbrev S512x10 : Shape := ⟨2, ![512, 10]⟩
abbrev S1x1x10 : Shape := ⟨3, ![1, 1, 10]⟩
abbrev S8x1x10 : Shape := ⟨3, ![8, 1, 10]⟩

abbrev nBuf : Space → Nat
  | .hbm => 39
  | .vmem => 15
  | .smem => 0
  | _ => 0

abbrev bufTy : (tb : Table) → Fin (tcTables nBuf tb) → BufTy
  | .hbm, ⟨0, _⟩ => ⟨S256x64, .i32⟩
  | .hbm, ⟨1, _⟩ => ⟨S100000x64, .f32⟩
  | .hbm, ⟨2, _⟩ => ⟨S128x64, .f32⟩
  | .hbm, ⟨3, _⟩ => ⟨S64, .f32⟩
  | .hbm, ⟨4, _⟩ => ⟨S64x10, .f32⟩
  | .hbm, ⟨5, _⟩ => ⟨S10, .f32⟩
  | .hbm, ⟨6, _⟩ => ⟨S65x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S10x64, .f32⟩
  | .hbm, ⟨11, _⟩ => ⟨S100000, .f32⟩
  | .hbm, ⟨12, _⟩ => ⟨S_, .f32⟩
  | .hbm, ⟨13, _⟩ => ⟨S_, .i32⟩
  | .hbm, ⟨14, _⟩ => ⟨S256x64, .i32⟩
  | .hbm, ⟨15, _⟩ => ⟨S256x64, .i1⟩
  | .hbm, ⟨16, _⟩ => ⟨S_, .i32⟩
  | .hbm, ⟨17, _⟩ => ⟨S256x64, .i32⟩
  | .hbm, ⟨18, _⟩ => ⟨S256x64, .i32⟩
  | .hbm, ⟨19, _⟩ => ⟨S256x64, .i32⟩
  | .hbm, ⟨20, _⟩ => ⟨S256x64x1, .i32⟩
  | .hbm, ⟨21, _⟩ => ⟨S256x64x64, .f32⟩
  | .hbm, ⟨22, _⟩ => ⟨S_, .i32⟩
  | .hbm, ⟨23, _⟩ => ⟨S256x64, .i32⟩
  | .hbm, ⟨24, _⟩ => ⟨S256x64, .i1⟩
  | .hbm, ⟨25, _⟩ => ⟨S_, .i32⟩
  | .hbm, ⟨26, _⟩ => ⟨S256x64, .i32⟩
  | .hbm, ⟨27, _⟩ => ⟨S256x64, .i32⟩
  | .hbm, ⟨28, _⟩ => ⟨S256x64, .i32⟩
  | .hbm, ⟨29, _⟩ => ⟨S256x64x1, .i32⟩
  | .hbm, ⟨30, _⟩ => ⟨S256x64, .f32⟩
  | .hbm, ⟨31, _⟩ => ⟨S256x64, .f32⟩
  | .hbm, ⟨32, _⟩ => ⟨S256x64, .f32⟩
  | .hbm, ⟨33, _⟩ => ⟨S1x64, .f32⟩
  | .hbm, ⟨34, _⟩ => ⟨S1x10, .f32⟩
  | .hbm, ⟨35, _⟩ => ⟨S1x64, .f32⟩
  | .hbm, ⟨36, _⟩ => ⟨S1x10, .f32⟩
  | .hbm, ⟨37, _⟩ => ⟨S64x10, .f32⟩
  | .hbm, ⟨38, _⟩ => ⟨S256x64x10, .f32⟩
  | .local _ .vmem, ⟨0, _⟩ => ⟨S8x64x64, .f32⟩
  | .local _ .vmem, ⟨1, _⟩ => ⟨S8x64x64, .f32⟩
  | .local _ .vmem, ⟨2, _⟩ => ⟨S8x64, .f32⟩
  | .local _ .vmem, ⟨3, _⟩ => ⟨S8x64, .f32⟩
  | .local _ .vmem, ⟨4, _⟩ => ⟨S128x64, .f32⟩
  | .local _ .vmem, ⟨5, _⟩ => ⟨S1x64, .f32⟩
  | .local _ .vmem, ⟨6, _⟩ => ⟨S64x10, .f32⟩
  | .local _ .vmem, ⟨7, _⟩ => ⟨S1x10, .f32⟩
  | .local _ .vmem, ⟨8, _⟩ => ⟨S65x64, .f32⟩
  | .local _ .vmem, ⟨9, _⟩ => ⟨S1x64, .f32⟩
  | .local _ .vmem, ⟨10, _⟩ => ⟨S64x10, .f32⟩
  | .local _ .vmem, ⟨11, _⟩ => ⟨S1x10, .f32⟩
  | .local _ .vmem, ⟨12, _⟩ => ⟨S64x10, .f32⟩
  | .local _ .vmem, ⟨13, _⟩ => ⟨S8x64x10, .f32⟩
  | .local _ .vmem, ⟨14, _⟩ => ⟨S8x64x10, .f32⟩
  | _, _ => ⟨S256x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S65x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x64x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S256x64 : S_.BroadcastsInDim S256x64 (![] : Fin 0 → Fin S256x64.rank)
  bcast_S256x64_S256x64x1_0_1 : S256x64.BroadcastsInDim S256x64x1 (![0, 1] : Fin 2 → Fin S256x64x1.rank)
  shapeCasts_S64_S1x64 : S64.ShapeCasts S1x64
  shapeCasts_S10_S1x10 : S10.ShapeCasts S1x10
  transposes_S10x64_S64x10_1_0 : S10x64.Transposes [1, 0] S64x10
  inb_S8x64x64_S8x64x64_0_0_0 : ∀ a, (![0, 0, 0] : Fin 3 → Nat) a + S8x64x64.size a ≤ S8x64x64.size a
  h_S8x64x64 : 0 < S8x64x64.numel
  shapeCasts_S8x64x64_S8x64x64 : S8x64x64.ShapeCasts S8x64x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  shapeCasts_S8x64x64_S512x64 : S8x64x64.ShapeCasts S512x64
  inb_S128x64_S64x64_0_0 : ∀ a, (![0, 0] : Fin 2 → Nat) a + S64x64.size a ≤ S128x64.size a
  h_S64x64 : 0 < S64x64.numel
  inb_S128x64_S64x64_64_0 : ∀ a, (![64, 0] : Fin 2 → Nat) a + S64x64.size a ≤ S128x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  bitsLt_bf16_f32 : FTy.bits .bf16 < FTy.bits .f32
  shapeCasts_S512x64_S8x64x64 : S512x64.ShapeCasts S8x64x64
  slices_S8x64x64_o0_0_0_S8x8x64 : S8x64x64.Slices ![0, 0, 0] S8x8x64
  shapeCasts_S8x8x64_S8x8x1x64 : S8x8x64.ShapeCasts S8x8x1x64
  shapeCasts_S8x64x64_S8x1x64x64 : S8x64x64.ShapeCasts S8x1x64x64
  broadcasts_S8x8x1x64_S8x8x64x64 : S8x8x1x64.Broadcasts S8x8x64x64
  broadcasts_S8x1x64x64_S8x8x64x64 : S8x1x64x64.Broadcasts S8x8x64x64
  shapeCasts_S1x64_S64 : S1x64.ShapeCasts S64
  shapeCasts_S64_S1x1x1x64 : S64.ShapeCasts S1x1x1x64
  broadcasts_S1x1x1x64_S8x8x64x64 : S1x1x1x64.Broadcasts S8x8x64x64
  shapeCasts_S8x8x64x64_S4096x64 : S8x8x64x64.ShapeCasts S4096x64
  shapeCasts_S1x10_S10 : S1x10.ShapeCasts S10
  broadcasts_S1x10_S4096x10 : S1x10.Broadcasts S4096x10
  shapeCasts_S4096x10_S8x8x64x10 : S4096x10.ShapeCasts S8x8x64x10
  iota_S8x64_d0_w32 : S8x64.Iotas .tc 32 [0]
  iota_S8x64_d1_w32 : S8x64.Iotas .tc 32 [1]
  natLt_1_32 : 1 < 32
  shapeCasts_S8x64_S1x8x64x1 : S8x64.ShapeCasts S1x8x64x1
  broadcasts_S1x8x64x1_S8x8x64x10 : S1x8x64x1.Broadcasts S8x8x64x10
  reduces_S8x8x64x10_S8x8x10 : S8x8x64x10.Reduces [2] S8x8x10
  reduces_S8x8x10_S8x10 : S8x8x10.Reduces [1] S8x10
  slices_S8x64x64_o0_8_0_S8x8x64 : S8x64x64.Slices ![0, 8, 0] S8x8x64
  slices_S8x64x64_o0_16_0_S8x8x64 : S8x64x64.Slices ![0, 16, 0] S8x8x64
  slices_S8x64x64_o0_24_0_S8x8x64 : S8x64x64.Slices ![0, 24, 0] S8x8x64
  slices_S8x64x64_o0_32_0_S8x8x64 : S8x64x64.Slices ![0, 32, 0] S8x8x64
  slices_S8x64x64_o0_40_0_S8x8x64 : S8x64x64.Slices ![0, 40, 0] S8x8x64
  slices_S8x64x64_o0_48_0_S8x8x64 : S8x64x64.Slices ![0, 48, 0] S8x8x64
  slices_S8x64x64_o0_56_0_S8x8x64 : S8x64x64.Slices ![0, 56, 0] S8x8x64
  inb_S65x64_S64x64_0_0 : ∀ a, (![0, 0] : Fin 2 → Nat) a + S64x64.size a ≤ S65x64.size a
  inb_S65x64_S1x64_64_0 : ∀ a, (![64, 0] : Fin 2 → Nat) a + S1x64.size a ≤ S65x64.size a
  shapeCasts_S8x64_S8x64x1 : S8x64.ShapeCasts S8x64x1
  shapeCasts_S64_S1x1x64 : S64.ShapeCasts S1x1x64
  broadcasts_S8x64x1_S8x64x64 : S8x64x1.Broadcasts S8x64x64
  broadcasts_S1x1x64_S8x64x64 : S1x1x64.Broadcasts S8x64x64
  shapeCasts_S512x10_S8x64x10 : S512x10.ShapeCasts S8x64x10
  shapeCasts_S10_S1x1x10 : S10.ShapeCasts S1x1x10
  broadcasts_S1x1x10_S8x64x10 : S1x1x10.Broadcasts S8x64x10
  shapeCasts_S64x10_S64x10 : S64x10.ShapeCasts S64x10
  reduces_S8x64x64_S8x64 : S8x64x64.Reduces [2] S8x64
  reduces_S64x10_S10 : S64x10.Reduces [0] S10
  broadcasts_S8x64x1_S8x64x10 : S8x64x1.Broadcasts S8x64x10
  reduces_S8x64x10_S8x64 : S8x64x10.Reduces [2] S8x64
  shapeCasts_S8x10_S8x1x10 : S8x10.ShapeCasts S8x1x10
  broadcasts_S8x1x10_S8x64x10 : S8x1x10.Broadcasts S8x64x10
  inb_S8x64x10_S8x64x10_0_0_0 : ∀ a, (![0, 0, 0] : Fin 3 → Nat) a + S8x64x10.size a ≤ S8x64x10.size a
  h_S8x64x10 : 0 < S8x64x10.numel
  gather_S100000x64_S256x64x1_S256x64x64_2_0_n_n_0_2_164_wf : GatherDims.WF S100000x64 S256x64x1 S256x64x64 [2] [0] [] [0] [] 2 ![1, 64]
  gather_S100000_S256x64x1_S256x64_n_0_n_n_0_2_1_wf : GatherDims.WF S100000 S256x64x1 S256x64 [] [0] [] [0] [] 2 ![1]
  dot_S512x64_S64x64_S512x64_1_0_0_1_n_n_wf : DotDims.WF S512x64 S64x64 S512x64 [1] [0] [0] [1] [] []
  dot_S4096x64_S64x10_S4096x10_1_0_0_1_n_n_wf : DotDims.WF S4096x64 S64x10 S4096x10 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x64.size a ≤ S256x64x64.size a
  hwx0_0 : ∀ i : grid0.Coords, EltTy.bits .f32 = 32 ∨ (Rect.block (s := S256x64x64) S8x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S256x64.size a
  hwx0_1 : ∀ i : grid0.Coords, EltTy.bits .f32 = 32 ∨ (Rect.block (s := S256x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x10.size a ≤ S64x10.size a
  hwx0_4 : ∀ i : grid0.Coords, EltTy.bits .f32 = 32 ∨ (Rect.block (s := S64x10) S64x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S65x64.size a ≤ S65x64.size a
  hwx0_6 : ∀ i : grid0.Coords, EltTy.bits .f32 = 32 ∨ (Rect.block (s := S65x64) S65x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x10.size a ≤ S64x10.size a
  hwx0_8 : ∀ i : grid0.Coords, EltTy.bits .f32 = 32 ∨ (Rect.block (s := S64x10) S64x10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x10.size a ≤ S1x10.size a
  hwx0_9 : ∀ i : grid0.Coords, EltTy.bits .f32 = 32 ∨ (Rect.block (s := S1x10) S1x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x10.size a ≤ S64x10.size a
  hwx0_10 : ∀ i : grid0.Coords, EltTy.bits .f32 = 32 ∨ (Rect.block (s := S64x10) S64x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x64x10.size a ≤ S256x64x10.size a
  hwx0_11 : ∀ i : grid0.Coords, EltTy.bits .f32 = 32 ∨ (Rect.block (s := S256x64x10) S8x64x10.size (cc0_transform_11 i) (hinb0_11 i)).WholeWords (EltTy.packing .f32)

variable [Facts₀]

def gather_S100000x64_S256x64x1_S256x64x64_2_0_n_n_0_2_164 : GatherDims S100000x64 S256x64x1 S256x64x64 where
  offsetDims := [2]
  collapsedSliceDims := [0]
  operandBatchingDims := []
  startIndicesBatchingDims := []
  startIndexMap := [0]
  indexVectorDim := 2
  sliceSizes := ![1, 64]
  wf := gather_S100000x64_S256x64x1_S256x64x64_2_0_n_n_0_2_164_wf
def gather_S100000_S256x64x1_S256x64_n_0_n_n_0_2_1 : GatherDims S100000 S256x64x1 S256x64 where
  offsetDims := []
  collapsedSliceDims := [0]
  operandBatchingDims := []
  startIndicesBatchingDims := []
  startIndexMap := [0]
  indexVectorDim := 2
  sliceSizes := ![1]
  wf := gather_S100000_S256x64x1_S256x64_n_0_n_n_0_2_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S4096x64_S64x10_S4096x10_1_0_0_1_n_n : DotDims S4096x64 S64x10 S4096x10 where
  lhsContracting := [1]
  rhsContracting := [0]
  lhsNonContracting := [0]
  rhsNonContracting := [1]
  lhsBatch := []
  rhsBatch := []
  wf := dot_S4096x64_S64x10_S4096x10_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_v6) S8x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S8x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S65x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S64x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S8x64x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S256x64 : Shape := ⟨2, ![256, 64]⟩
abbrev S100000x64 : Shape := ⟨2, ![100000, 64]⟩
abbrev S128x64 : Shape := ⟨2, ![128, 64]⟩
abbrev S64 : Shape := ⟨1, ![64]⟩
abbrev S64x10 : Shape := ⟨2, ![64, 10]⟩
abbrev S10 : Shape := ⟨1, ![10]⟩
abbrev S65x64 : Shape := ⟨2, ![65, 64]⟩
abbrev S10x64 : Shape := ⟨2, ![10, 64]⟩
abbrev S100000 : Shape := ⟨1, ![100000]⟩
abbrev S_ : Shape := ⟨0, ![]⟩
abbrev S2016 : Shape := ⟨1, ![2016]⟩
abbrev S256x64x1 : Shape := ⟨3, ![256, 64, 1]⟩
abbrev S256x64x64 : Shape := ⟨3, ![256, 64, 64]⟩
abbrev S2016x1 : Shape := ⟨2, ![2016, 1]⟩
abbrev S256x2016x64 : Shape := ⟨3, ![256, 2016, 64]⟩
abbrev S256x2016x128 : Shape := ⟨3, ![256, 2016, 128]⟩
abbrev S1x1x64 : Shape := ⟨3, ![1, 1, 64]⟩
abbrev S256x2016x10 : Shape := ⟨3, ![256, 2016, 10]⟩
abbrev S1x1x10 : Shape := ⟨3, ![1, 1, 10]⟩
abbrev S256x10 : Shape := ⟨2, ![256, 10]⟩
abbrev S256x64x65 : Shape := ⟨3, ![256, 64, 65]⟩
abbrev S256x64x10 : Shape := ⟨3, ![256, 64, 10]⟩
abbrev S256x1x10 : Shape := ⟨3, ![256, 1, 10]⟩

abbrev nBuf : Space → Nat
  | .hbm => 118
  | .vmem => 0
  | .smem => 0
  | _ => 0

abbrev bufTy : (tb : Table) → Fin (tcTables nBuf tb) → BufTy
  | .hbm, ⟨0, _⟩ => ⟨S256x64, .i32⟩
  | .hbm, ⟨1, _⟩ => ⟨S100000x64, .f32⟩
  | .hbm, ⟨2, _⟩ => ⟨S128x64, .f32⟩
  | .hbm, ⟨3, _⟩ => ⟨S64, .f32⟩
  | .hbm, ⟨4, _⟩ => ⟨S64x10, .f32⟩
  | .hbm, ⟨5, _⟩ => ⟨S10, .f32⟩
  | .hbm, ⟨6, _⟩ => ⟨S65x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S10x64, .f32⟩
  | .hbm, ⟨11, _⟩ => ⟨S100000, .f32⟩
  | .hbm, ⟨12, _⟩ => ⟨S_, .f32⟩
  | .hbm, ⟨13, _⟩ => ⟨S2016, .i32⟩
  | .hbm, ⟨14, _⟩ => ⟨S2016, .i1⟩
  | .hbm, ⟨15, _⟩ => ⟨S2016, .i32⟩
  | .hbm, ⟨16, _⟩ => ⟨S2016, .i1⟩
  | .hbm, ⟨17, _⟩ => ⟨S_, .i32⟩
  | .hbm, ⟨18, _⟩ => ⟨S256x64, .i32⟩
  | .hbm, ⟨19, _⟩ => ⟨S256x64, .i1⟩
  | .hbm, ⟨20, _⟩ => ⟨S_, .i32⟩
  | .hbm, ⟨21, _⟩ => ⟨S256x64, .i32⟩
  | .hbm, ⟨22, _⟩ => ⟨S256x64, .i32⟩
  | .hbm, ⟨23, _⟩ => ⟨S256x64, .i32⟩
  | .hbm, ⟨24, _⟩ => ⟨S256x64x1, .i32⟩
  | .hbm, ⟨25, _⟩ => ⟨S256x64x64, .f32⟩
  | .hbm, ⟨26, _⟩ => ⟨S_, .i32⟩
  | .hbm, ⟨27, _⟩ => ⟨S2016, .i32⟩
  | .hbm, ⟨28, _⟩ => ⟨S2016, .i32⟩
  | .hbm, ⟨29, _⟩ => ⟨S2016, .i32⟩
  | .hbm, ⟨30, _⟩ => ⟨S2016x1, .i32⟩
  | .hbm, ⟨31, _⟩ => ⟨S256x2016x64, .f32⟩
  | .hbm, ⟨32, _⟩ => ⟨S_, .i32⟩
  | .hbm, ⟨33, _⟩ => ⟨S2016, .i32⟩
  | .hbm, ⟨34, _⟩ => ⟨S2016, .i32⟩
  | .hbm, ⟨35, _⟩ => ⟨S2016, .i32⟩
  | .hbm, ⟨36, _⟩ => ⟨S2016x1, .i32⟩
  | .hbm, ⟨37, _⟩ => ⟨S256x2016x64, .f32⟩
  | .hbm, ⟨38, _⟩ => ⟨S256x2016x128, .f32⟩
  | .hbm, ⟨39, _⟩ => ⟨S256x2016x64, .f32⟩
  | .hbm, ⟨40, _⟩ => ⟨S1x1x64, .f32⟩
  | .hbm, ⟨41, _⟩ => ⟨S256x2016x64, .f32⟩
  | .hbm, ⟨42, _⟩ => ⟨S256x2016x64, .f32⟩
  | .hbm, ⟨43, _⟩ => ⟨S_, .f32⟩
  | .hbm, ⟨44, _⟩ => ⟨S256x2016x64, .f32⟩
  | .hbm, ⟨45, _⟩ => ⟨S256x2016x64, .f32⟩
  | .hbm, ⟨46, _⟩ => ⟨S256x2016x10, .f32⟩
  | .hbm, ⟨47, _⟩ => ⟨S1x1x10, .f32⟩
  | .hbm, ⟨48, _⟩ => ⟨S256x2016x10, .f32⟩
  | .hbm, ⟨49, _⟩ => ⟨S256x2016x10, .f32⟩
  | .hbm, ⟨50, _⟩ => ⟨S_, .f32⟩
  | .hbm, ⟨51, _⟩ => ⟨S256x10, .f32⟩
  | .hbm, ⟨52, _⟩ => ⟨S_, .i32⟩
  | .hbm, ⟨53, _⟩ => ⟨S256x64, .i32⟩
  | .hbm, ⟨54, _⟩ => ⟨S256x64, .i1⟩
  | .hbm, ⟨55, _⟩ => ⟨S_, .i32⟩
  | .hbm, ⟨56, _⟩ => ⟨S256x64, .i32⟩
  | .hbm, ⟨57, _⟩ => ⟨S256x64, .i32⟩
  | .hbm, ⟨58, _⟩ => ⟨S256x64, .i32⟩
  | .hbm, ⟨59, _⟩ => ⟨S256x64x1, .i32⟩
  | .hbm, ⟨60, _⟩ => ⟨S256x64, .f32⟩
  | .hbm, ⟨61, _⟩ => ⟨S256x64, .f32⟩
  | .hbm, ⟨62, _⟩ => ⟨S256x64, .f32⟩
  | .hbm, ⟨63, _⟩ => ⟨S256x64x1, .f32⟩
  | .hbm, ⟨64, _⟩ => ⟨S256x64x65, .f32⟩
  | .hbm, ⟨65, _⟩ => ⟨S256x64x64, .f32⟩
  | .hbm, ⟨66, _⟩ => ⟨S1x1x64, .f32⟩
  | .hbm, ⟨67, _⟩ => ⟨S256x64x64, .f32⟩
  | .hbm, ⟨68, _⟩ => ⟨S256x64x64, .f32⟩
  | .hbm, ⟨69, _⟩ => ⟨S_, .f32⟩
  | .hbm, ⟨70, _⟩ => ⟨S256x64x64, .f32⟩
  | .hbm, ⟨71, _⟩ => ⟨S256x64x64, .f32⟩
  | .hbm, ⟨72, _⟩ => ⟨S256x64x10, .f32⟩
  | .hbm, ⟨73, _⟩ => ⟨S1x1x10, .f32⟩
  | .hbm, ⟨74, _⟩ => ⟨S256x64x10, .f32⟩
  | .hbm, ⟨75, _⟩ => ⟨S256x64x10, .f32⟩
  | .hbm, ⟨76, _⟩ => ⟨S256x64x64, .f32⟩
  | .hbm, ⟨77, _⟩ => ⟨S_, .f32⟩
  | .hbm, ⟨78, _⟩ => ⟨S256x64, .f32⟩
  | .hbm, ⟨79, _⟩ => ⟨S256x64x1, .f32⟩
  | .hbm, ⟨80, _⟩ => ⟨S10x64, .f32⟩
  | .hbm, ⟨81, _⟩ => ⟨S_, .f32⟩
  | .hbm, ⟨82, _⟩ => ⟨S10, .f32⟩
  | .hbm, ⟨83, _⟩ => ⟨S1x1x10, .f32⟩
  | .hbm, ⟨84, _⟩ => ⟨S256x64x10, .f32⟩
  | .hbm, ⟨85, _⟩ => ⟨S256x64x10, .f32⟩
  | .hbm, ⟨86, _⟩ => ⟨S256x64x10, .f32⟩
  | .hbm, ⟨87, _⟩ => ⟨S256x64x10, .f32⟩
  | .hbm, ⟨88, _⟩ => ⟨S_, .f32⟩
  | .hbm, ⟨89, _⟩ => ⟨S256x64x10, .f32⟩
  | .hbm, ⟨90, _⟩ => ⟨S256x64x10, .f32⟩
  | .hbm, ⟨91, _⟩ => ⟨S256x64x10, .f32⟩
  | .hbm, ⟨92, _⟩ => ⟨S_, .f32⟩
  | .hbm, ⟨93, _⟩ => ⟨S256x64x10, .f32⟩
  | .hbm, ⟨94, _⟩ => ⟨S256x64x10, .f32⟩
  | .hbm, ⟨95, _⟩ => ⟨S256x64x10, .f32⟩
  | .hbm, ⟨96, _⟩ => ⟨S256x64x10, .f32⟩
  | .hbm, ⟨97, _⟩ => ⟨S_, .f32⟩
  | .hbm, ⟨98, _⟩ => ⟨S256x64, .f32⟩
  | .hbm, ⟨99, _⟩ => ⟨S_, .f32⟩
  | .hbm, ⟨100, _⟩ => ⟨S256x64, .f32⟩
  | .hbm, ⟨101, _⟩ => ⟨S256x64, .f32⟩
  | .hbm, ⟨102, _⟩ => ⟨S256x64x1, .f32⟩
  | .hbm, ⟨103, _⟩ => ⟨S256x64x10, .f32⟩
  | .hbm, ⟨104, _⟩ => ⟨S256x64x10, .f32⟩
  | .hbm, ⟨105, _⟩ => ⟨S256x64x10, .f32⟩
  | .hbm, ⟨106, _⟩ => ⟨S_, .f32⟩
  | .hbm, ⟨107, _⟩ => ⟨S256x64, .f32⟩
  | .hbm, ⟨108, _⟩ => ⟨S256x64x1, .f32⟩
  | .hbm, ⟨109, _⟩ => ⟨S256x64x10, .f32⟩
  | .hbm, ⟨110, _⟩ => ⟨S256x64x10, .f32⟩
  | .hbm, ⟨111, _⟩ => ⟨S256x1x10, .f32⟩
  | .hbm, ⟨112, _⟩ => ⟨S256x64x10, .f32⟩
  | .hbm, ⟨113, _⟩ => ⟨S256x64x10, .f32⟩
  | .hbm, ⟨114, _⟩ => ⟨S256x64x10, .f32⟩
  | .hbm, ⟨115, _⟩ => ⟨S_, .f32⟩
  | .hbm, ⟨116, _⟩ => ⟨S256x64x10, .f32⟩
  | .hbm, ⟨117, _⟩ => ⟨S256x64x10, .f32⟩
  | _, _ => ⟨S256x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_c_3 : Ref sig .tc := ⟨.hbm, 17, rfl⟩
abbrev main_v0 : Ref sig .tc := ⟨.hbm, 18, rfl⟩
abbrev main_v1 : Ref sig .tc := ⟨.hbm, 19, rfl⟩
abbrev main_c_4 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_6 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call0_cst : Ref sig .tc := ⟨.hbm, 43, rfl⟩
abbrev main_call0_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_c_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call1_cst : Ref sig .tc := ⟨.hbm, 69, rfl⟩
abbrev main_call1_v0 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_16 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]

class Facts₀ : Prop where
  bcast_S_S256x64 : S_.BroadcastsInDim S256x64 (![] : Fin 0 → Fin S256x64.rank)
  bcast_S256x64_S256x64x1_0_1 : S256x64.BroadcastsInDim S256x64x1 (![0, 1] : Fin 2 → Fin S256x64x1.rank)
  bcast_S_S2016 : S_.BroadcastsInDim S2016 (![] : Fin 0 → Fin S2016.rank)
  bcast_S2016_S2016x1_0 : S2016.BroadcastsInDim S2016x1 (![0] : Fin 1 → Fin S2016x1.rank)
  concatenates_S256x2016x64_S256x2016x64_S256x2016x128_d2 : Shape.Concatenates [S256x2016x64, S256x2016x64] S256x2016x128 2
  bcast_S64_S1x1x64_2 : S64.BroadcastsInDim S1x1x64 (![2] : Fin 1 → Fin S1x1x64.rank)
  bcast_S1x1x64_S256x2016x64_0_1_2 : S1x1x64.BroadcastsInDim S256x2016x64 (![0, 1, 2] : Fin 3 → Fin S256x2016x64.rank)
  bcast_S_S256x2016x64 : S_.BroadcastsInDim S256x2016x64 (![] : Fin 0 → Fin S256x2016x64.rank)
  bcast_S10_S1x1x10_2 : S10.BroadcastsInDim S1x1x10 (![2] : Fin 1 → Fin S1x1x10.rank)
  bcast_S1x1x10_S256x2016x10_0_1_2 : S1x1x10.BroadcastsInDim S256x2016x10 (![0, 1, 2] : Fin 3 → Fin S256x2016x10.rank)
  reducesTo_S256x2016x10_S256x10_d1 : S256x2016x10.ReducesTo [1] S256x10
  h_S_ : 0 < S_.numel
  concatenates_S256x64x64_S256x64x1_S256x64x65_d2 : Shape.Concatenates [S256x64x64, S256x64x1] S256x64x65 2
  bcast_S1x1x64_S256x64x64_0_1_2 : S1x1x64.BroadcastsInDim S256x64x64 (![0, 1, 2] : Fin 3 → Fin S256x64x64.rank)
  bcast_S_S256x64x64 : S_.BroadcastsInDim S256x64x64 (![] : Fin 0 → Fin S256x64x64.rank)
  bcast_S1x1x10_S256x64x10_0_1_2 : S1x1x10.BroadcastsInDim S256x64x10 (![0, 1, 2] : Fin 3 → Fin S256x64x10.rank)
  reducesTo_S256x64x64_S256x64_d2 : S256x64x64.ReducesTo [2] S256x64
  reducesTo_S10x64_S10_d1 : S10x64.ReducesTo [1] S10
  bcast_S256x64x1_S256x64x10_0_1_2 : S256x64x1.BroadcastsInDim S256x64x10 (![0, 1, 2] : Fin 3 → Fin S256x64x10.rank)
  bcast_S_S256x64x10 : S_.BroadcastsInDim S256x64x10 (![] : Fin 0 → Fin S256x64x10.rank)
  reducesTo_S256x64x10_S256x64_d2 : S256x64x10.ReducesTo [2] S256x64
  bcast_S256x10_S256x1x10_0_2 : S256x10.BroadcastsInDim S256x1x10 (![0, 2] : Fin 2 → Fin S256x1x10.rank)
  bcast_S256x1x10_S256x64x10_0_1_2 : S256x1x10.BroadcastsInDim S256x64x10 (![0, 1, 2] : Fin 3 → Fin S256x64x10.rank)
  gather_S100000x64_S256x64x1_S256x64x64_2_0_n_n_0_2_164_wf : GatherDims.WF S100000x64 S256x64x1 S256x64x64 [2] [0] [] [0] [] 2 ![1, 64]
  gather_S256x64x64_S2016x1_S256x2016x64_02_1_n_n_1_1_256164_wf : GatherDims.WF S256x64x64 S2016x1 S256x2016x64 [0, 2] [1] [] [1] [] 1 ![256, 1, 64]
  dot_S256x2016x128_S128x64_S256x2016x64_2_0_01_1_n_n_wf : DotDims.WF S256x2016x128 S128x64 S256x2016x64 [2] [0] [0, 1] [1] [] []
  dot_S256x2016x64_S64x10_S256x2016x10_2_0_01_1_n_n_wf : DotDims.WF S256x2016x64 S64x10 S256x2016x10 [2] [0] [0, 1] [1] [] []
  gather_S100000_S256x64x1_S256x64_n_0_n_n_0_2_1_wf : GatherDims.WF S100000 S256x64x1 S256x64 [] [0] [] [0] [] 2 ![1]
  dot_S256x64x65_S65x64_S256x64x64_2_0_01_1_n_n_wf : DotDims.WF S256x64x65 S65x64 S256x64x64 [2] [0] [0, 1] [1] [] []
  dot_S256x64x64_S64x10_S256x64x10_2_0_01_1_n_n_wf : DotDims.WF S256x64x64 S64x10 S256x64x10 [2] [0] [0, 1] [1] [] []
  dot_S256x64x64_S10x64_S256x64x10_2_1_01_0_n_n_wf : DotDims.WF S256x64x64 S10x64 S256x64x10 [2] [1] [0, 1] [0] [] []

variable [Facts₀]

def gather_S100000x64_S256x64x1_S256x64x64_2_0_n_n_0_2_164 : GatherDims S100000x64 S256x64x1 S256x64x64 where
  offsetDims := [2]
  collapsedSliceDims := [0]
  operandBatchingDims := []
  startIndicesBatchingDims := []
  startIndexMap := [0]
  indexVectorDim := 2
  sliceSizes := ![1, 64]
  wf := gather_S100000x64_S256x64x1_S256x64x64_2_0_n_n_0_2_164_wf
def gather_S256x64x64_S2016x1_S256x2016x64_02_1_n_n_1_1_256164 : GatherDims S256x64x64 S2016x1 S256x2016x64 where
  offsetDims := [0, 2]
  collapsedSliceDims := [1]
  operandBatchingDims := []
  startIndicesBatchingDims := []
  startIndexMap := [1]
  indexVectorDim := 1
  sliceSizes := ![256, 1, 64]
  wf := gather_S256x64x64_S2016x1_S256x2016x64_02_1_n_n_1_1_256164_wf
def dot_S256x2016x128_S128x64_S256x2016x64_2_0_01_1_n_n : DotDims S256x2016x128 S128x64 S256x2016x64 where
  lhsContracting := [2]
  rhsContracting := [0]
  lhsNonContracting := [0, 1]
  rhsNonContracting := [1]
  lhsBatch := []
  rhsBatch := []
  wf := dot_S256x2016x128_S128x64_S256x2016x64_2_0_01_1_n_n_wf
def dot_S256x2016x64_S64x10_S256x2016x10_2_0_01_1_n_n : DotDims S256x2016x64 S64x10 S256x2016x10 where
  lhsContracting := [2]
  rhsContracting := [0]
  lhsNonContracting := [0, 1]
  rhsNonContracting := [1]
  lhsBatch := []
  rhsBatch := []
  wf := dot_S256x2016x64_S64x10_S256x2016x10_2_0_01_1_n_n_wf
def gather_S100000_S256x64x1_S256x64_n_0_n_n_0_2_1 : GatherDims S100000 S256x64x1 S256x64 where
  offsetDims := []
  collapsedSliceDims := [0]
  operandBatchingDims := []
  startIndicesBatchingDims := []
  startIndexMap := [0]
  indexVectorDim := 2
  sliceSizes := ![1]
  wf := gather_S100000_S256x64x1_S256x64_n_0_n_n_0_2_1_wf
def dot_S256x64x65_S65x64_S256x64x64_2_0_01_1_n_n : DotDims S256x64x65 S65x64 S256x64x64 where
  lhsContracting := [2]
  rhsContracting := [0]
  lhsNonContracting := [0, 1]
  rhsNonContracting := [1]
  lhsBatch := []
  rhsBatch := []
  wf := dot_S256x64x65_S65x64_S256x64x64_2_0_01_1_n_n_wf
def dot_S256x64x64_S64x10_S256x64x10_2_0_01_1_n_n : DotDims S256x64x64 S64x10 S256x64x10 where
  lhsContracting := [2]
  rhsContracting := [0]
  lhsNonContracting := [0, 1]
  rhsNonContracting := [1]
  lhsBatch := []
  rhsBatch := []
  wf := dot_S256x64x64_S64x10_S256x64x10_2_0_01_1_n_n_wf
def dot_S256x64x64_S10x64_S256x64x10_2_1_01_0_n_n : DotDims S256x64x64 S10x64 S256x64x10 where
  lhsContracting := [2]
  rhsContracting := [1]
  lhsNonContracting := [0, 1]
  rhsNonContracting := [0]
  lhsBatch := []
  rhsBatch := []
  wf := dot_S256x64x64_S10x64_S256x64x10_2_1_01_0_n_n_wf

class Facts : Prop extends Facts₀ where

variable [Facts]
-- ==== Proof.KerTerms.lean ====
/-
  The kernel body's stored value, cut where its mathematics has joints: the pair feature summed over the
  eight blocks of eight first tokens, and the frequency feature, each as a term of the vectors the body loads.
-/
import proofs.«147268_j1460288880936_1_alg».proof.Proof.Gen.KernelIdeal.Skeleton

noncomputable section

namespace Cert.KernelIdeal.KerTerms

open Cert.KernelIdeal Cert.KernelIdeal.Gen Idealize.ShloMosaic Idealize.SL.Sem

variable {F : FTy → Type} [FloatOps F] [Named F]

/-- The summed pair feature of a block of eight batch rows: from the embeddings `x0`, the two halves `wLo`, `wHi` of
    the first layer, its bias row `b1v`, the second layer `W2v` and its bias row `b2v`. -/
def comboTerm (x0 : Vec F S8x64x64 .f32) (wLo wHi : Vec F S64x64 .f32) (b1v : Vec F S1x64 .f32) (W2v : Vec F S64x10 .f32)
    (b2v : Vec F S1x10 .f32) : FVec F S8x10 .f32 :=
  (k0_pay22 (k0_pay5 b1v) W2v (k0_pay6 b2v) (k0_pay7 x0 wLo) (k0_pay8 x0 wHi) (k0_pay19 (k0_pay5 b1v) W2v (k0_pay6 b2v) (k0_pay16 (k0_pay5 b1v) W2v (k0_pay6 b2v) (k0_pay7 x0 wLo) (k0_pay8 x0 wHi) (k0_pay14 (k0_pay5 b1v) W2v (k0_pay6 b2v) (k0_pay8 x0 wHi) (k0_pay12 (k0_pay5 b1v) W2v (k0_pay6 b2v) (k0_pay7 x0 wLo) (k0_pay8 x0 wHi) (k0_pay9 (F := F)) (k0_pay10 x0 wLo wHi b1v W2v) (k0_pay11 b2v)) (k0_pay13 (k0_pay7 x0 wLo))) (k0_pay15 (k0_pay5 b1v) W2v (k0_pay6 b2v) (k0_pay7 x0 wLo) (k0_pay8 x0 wHi))) (k0_pay17 (k0_pay7 x0 wLo)) (k0_pay18 (k0_pay8 x0 wHi))) (k0_pay20 (k0_pay5 b1v) W2v (k0_pay6 b2v) (k0_pay7 x0 wLo) (k0_pay8 x0 wHi)) (iota .tc S8x64 32 [0] iota_S8x64_d0_w32) k0_pay21)

/-- The frequency feature of a block of eight batch rows: from the frequencies `x1v`, the embeddings `x0`, the first
    layer's 64 embedding rows `wfE` and its frequency row `wffv`, and the biases and second layer. -/
def freqTerm (x0 : Vec F S8x64x64 .f32) (x1v : Vec F S8x64 .f32) (wfE : Vec F S64x64 .f32) (wffv : Vec F S1x64 .f32)
    (fb1v : Vec F S1x64 .f32) (Wf2v : Vec F S64x10 .f32) (fb2v : Vec F S1x10 .f32) : FVec F S8x64x10 .f32 :=
  k0_pay23 (k0_pay3 x1v) (k0_pay4 x0) wfE wffv fb1v Wf2v fb2v

/-- The stored value: the three features of a block averaged, from the summed pair feature `cs`, the frequency
    feature `fr`, the embeddings and the transposed centres `ct`. -/
def outTerm (cs : FVec F S8x10 .f32) (fr : FVec F S8x64x10 .f32) (x0 : Vec F S8x64x64 .f32) (ct : Vec F S64x10 .f32) :
    FVec F S8x64x10 .f32 :=
  k0_pay1 cs fr (k0_pay25 (k0_pay4 x0) ct) (k0_pay26 (k0_pay2 x0) ct) (k0_pay27 (F := F))

end Cert.KernelIdeal.KerTerms

end
-- ==== Proof.Spec.lean ====
/-
  The result of the encoder, as mathematics on the extended reals, for ONE batch row.

  A batch row is 64 tokens, each an embedding `X i : Fin 64 → EReal`, and 64 frequencies `q i`.
  Three features of ten channels each are computed and averaged over the `2016 + 2` stacked
  feature rows:

  * the PAIR feature, summed over the pairs `i < j` of tokens: a two-layer perceptron of the two
    embeddings side by side. Its first layer, a product with a 128 × 64 matrix, splits into the
    product of token `i` with the upper 64 rows and of token `j` with the lower 64 rows;
  * the FREQUENCY feature of token `s`: a two-layer perceptron of the embedding with the frequency
    appended as a 65th input;
  * the CLUSTER feature of token `s`: the softmax over the ten centres of minus the Euclidean
    distance to each, the squared distance expanded as `|x|² + |c|² − 2 x·c` and clipped at zero.

  The arrays are given as functions of their coordinates, so that the same text reads a whole array
  and a block of it. Float literals both programs share are kept as their words.
-/
import Idealize.ShloMosaic.PureOps.Ideal
import Mathlib.Algebra.BigOperators.Fin

noncomputable section

namespace Cert.Enc

open Idealize.ShloMosaic

/-- Token `x` times a 64 × 64 weight matrix, column `d`. -/
def proj (W : Fin 64 → Fin 64 → EReal) (x : Fin 64 → EReal) (d : Fin 64) : EReal :=
  ∑ e : Fin 64, x e * W e d

/-- The pair perceptron of tokens `xi`, `xj`, channel `f`: `WLo`, `WHi` are the upper and the lower 64 rows of
    the first layer. -/
def pairFeat (WLo WHi : Fin 64 → Fin 64 → EReal) (b1 : Fin 64 → EReal) (W2 : Fin 64 → Fin 10 → EReal) (b2 : Fin 10 → EReal)
    (xi xj : Fin 64 → EReal) (f : Fin 10) : EReal :=
  (∑ d : Fin 64, max (proj WLo xi d + proj WHi xj d + b1 d) 0 * W2 d f) + b2 f

/-- The pair feature summed over the pairs `i < j` of the row's tokens. -/
def comboSum (WLo WHi : Fin 64 → Fin 64 → EReal) (b1 : Fin 64 → EReal) (W2 : Fin 64 → Fin 10 → EReal) (b2 : Fin 10 → EReal)
    (X : Fin 64 → Fin 64 → EReal) (f : Fin 10) : EReal :=
  ∑ i : Fin 64, ∑ j : Fin 64, if i < j then pairFeat WLo WHi b1 W2 b2 (X i) (X j) f else 0

/-- The frequency perceptron of a token `x` with frequency `q`, channel `f`: `WfE` is the first layer's 64 rows
    that meet the embedding, `wff` its last row, which meets the frequency. -/
def freqFeat (WfE : Fin 64 → Fin 64 → EReal) (wff : Fin 64 → EReal) (fb1 : Fin 64 → EReal) (Wf2 : Fin 64 → Fin 10 → EReal)
    (fb2 : Fin 10 → EReal) (x : Fin 64 → EReal) (q : EReal) (f : Fin 10) : EReal :=
  (∑ d : Fin 64, max ((proj WfE x d + q * wff d) + fb1 d) 0 * Wf2 d f) + fb2 f

/-- Minus the distance from token `x` to centre `f`. -/
def negDist (C : Fin 10 → Fin 64 → EReal) (x : Fin 64 → EReal) (f : Fin 10) : EReal :=
  -(Ideal.sqrt (max (((∑ e : Fin 64, x e * x e) + (∑ e : Fin 64, C f e * C f e))
      - Ideal.ofBits .f32 0x40000000#32 * (∑ e : Fin 64, x e * C f e)) 0))

/-- The softmax of ten scores, shifted by their maximum taken from minus infinity. -/
def softmaxAt (z : Fin 10 → EReal) (f : Fin 10) : EReal :=
  Ideal.div
    (Ideal.exp (z f - max (Ideal.ofBits .f32 0xFF800000#32) ((Finset.univ : Finset (Fin 10)).fold max (Ideal.ofBits .f32 0xFF800000#32) z)))
    (∑ g : Fin 10, Ideal.exp (z g - max (Ideal.ofBits .f32 0xFF800000#32) ((Finset.univ : Finset (Fin 10)).fold max (Ideal.ofBits .f32 0xFF800000#32) z)))

/-- The cluster feature of token `x`, channel `f`. -/
def clusFeat (C : Fin 10 → Fin 64 → EReal) (x : Fin 64 → EReal) (f : Fin 10) : EReal :=
  softmaxAt (negDist C x) f

/-- The encoder's result for one batch row at token `s`, channel `f`. -/
def rowOut (WLo WHi : Fin 64 → Fin 64 → EReal) (b1 : Fin 64 → EReal) (W2 : Fin 64 → Fin 10 → EReal) (b2 : Fin 10 → EReal)
    (WfE : Fin 64 → Fin 64 → EReal) (wff : Fin 64 → EReal) (fb1 : Fin 64 → EReal) (Wf2 : Fin 64 → Fin 10 → EReal) (fb2 : Fin 10 → EReal)
    (C : Fin 10 → Fin 64 → EReal) (X : Fin 64 → Fin 64 → EReal) (q : Fin 64 → EReal) (s : Fin 64) (f : Fin 10) : EReal :=
  ((freqFeat WfE wff fb1 Wf2 fb2 (X s) (q s) f + comboSum WLo WHi b1 W2 b2 X f) + clusFeat C (X s) f) * ((1 / 2018 : ℝ) : EReal)

end Cert.Enc

end
-- ==== Proof.Consts.lean ====
/-
  The float words the two programs spell, as the extended reals they denote.
-/
import Idealize.ShloMosaic.PureOps.Ideal

noncomputable section

namespace Cert.Enc.Consts

open Idealize.ShloMosaic

/-- The word of `+0.0` denotes `0`. -/
theorem ofBits_zero : Ideal.ofBits .f32 0x00000000#32 = 0 := by
  simp [Ideal.ofBits, Ideal.ieee]

/-- The word of `2018.0`, the reference's divisor, denotes the real `2018`. -/
theorem ofBits_2018 : Ideal.ofBits .f32 0x44FC4000#32 = ((2018 : ℝ) : EReal) := by
  simp [Ideal.ofBits, Ideal.ieee, -EReal.coe_mul]; norm_num

/-- The word of `-inf` denotes the bottom of the extended reals. -/
theorem ofBits_ninf : Ideal.ofBits .f32 0xFF800000#32 = (⊥ : EReal) := by
  simp [Ideal.ofBits, Ideal.ieee]

end Cert.Enc.Consts

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.KerCombo.lean ====
/-
  The kernel's summed pair feature read at a batch row of the block and a channel.
-/
import proofs.«147268_j1460288880936_1_alg».proof.Proof.KerTerms
import proofs.«147268_j1460288880936_1_alg».proof.Proof.Spec
import proofs.«147268_j1460288880936_1_alg».proof.Proof.Consts
import proofs.«147268_j1460288880936_1_alg».proof.Proof.LibPlainMatmul
import Idealize.ShloMosaic.PureOps.Ideal.Laws
import Idealize.ShloMosaic.Lib.ValueIdx
import Idealize.ShloMosaic.Lib.Pipeline.Value

noncomputable section

namespace Cert.KernelIdeal.KerCombo

open Cert.KernelIdeal Cert.KernelIdeal.Gen Cert.KernelIdeal.KerTerms Idealize.ShloMosaic Idealize.ShloMosaic.ValueIdx

section Block
variable {F : FTy → Type} [FloatOps F]

/-- One block of eight first tokens: the rows of `U` from token `st` on against all rows of `V`,
    each pair's perceptron value times the mask "first token's number (`st` plus its place in the block) is
    below the second token's", summed over the second tokens and then over the block's first tokens. -/
def blockTerm (st : Nat) (hs : S8x64x64.Slices ![0, st, 0] S8x8x64)
    (U V : FVec F S8x64x64 .f32) (b1 : FVec F S1x64 .f32) (W2v : Vec F S64x10 .f32) (b2 : FVec F S1x10 .f32) :
    FVec F S8x10 .f32 :=
  have v21 : FVec F S8x8x64 .f32 := extractStridedSlice S8x8x64 ![0, st, 0] U hs
  have v22 : FVec F S8x8x1x64 .f32 := shapeCast S8x8x1x64 v21 shapeCasts_S8x8x64_S8x8x1x64
  have v23 : FVec F S8x1x64x64 .f32 := shapeCast S8x1x64x64 V shapeCasts_S8x64x64_S8x1x64x64
  have v24 : FVec F S8x8x64x64 .f32 := broadcastTo S8x8x64x64 v22 broadcasts_S8x8x1x64_S8x8x64x64
  have v25 : FVec F S8x8x64x64 .f32 := broadcastTo S8x8x64x64 v23 broadcasts_S8x1x64x64_S8x8x64x64
  have v26 : FVec F S8x8x64x64 .f32 := addf v24 v25
  have v27 : FVec F S64 .f32 := shapeCast S64 b1 shapeCasts_S1x64_S64
  have v28 : FVec F S1x1x1x64 .f32 := shapeCast S1x1x1x64 v27 shapeCasts_S64_S1x1x1x64
  have v29 : FVec F S8x8x64x64 .f32 := broadcastTo S8x8x64x64 v28 broadcasts_S1x1x1x64_S8x8x64x64
  have v30 : FVec F S8x8x64x64 .f32 := addf v26 v29
  have cst_15 : F .f32 := Scalar.ofBits .f32 0x00000000#32
  have v31 : FVec F S8x8x64x64 .f32 := broadcast S8x8x64x64 cst_15
  have v32 : FVec F S8x8x64x64 .f32 := maximumf v30 v31
  have v33 : FVec F S4096x64 .f32 := shapeCast S4096x64 v32 shapeCasts_S8x8x64x64_S4096x64
  have v34 : FVec F S4096x64 .bf16 := truncf .bf16 v33 bitsLt_bf16_f32
  have v35 : FVec F S64x10 .bf16 := truncf .bf16 W2v bitsLt_bf16_f32
  have cst_16 : FVec F S4096x10 .f32 := constant S4096x10 .f32 0x00000000#32
  have v36 : FVec F S4096x10 .f32 := matmul dot_S4096x64_S64x10_S4096x10_1_0_0_1_n_n none v34 v35 cst_16
  have v37 : FVec F S10 .f32 := shapeCast S10 b2 shapeCasts_S1x10_S10
  have v38 : FVec F S1x10 .f32 := shapeCast S1x10 v37 shapeCasts_S10_S1x10
  have v39 : FVec F S4096x10 .f32 := broadcastTo S4096x10 v38 broadcasts_S1x10_S4096x10
  have v40 : FVec F S4096x10 .f32 := addf v36 v39
  have v41 : FVec F S8x8x64x10 .f32 := shapeCast S8x8x64x10 v40 shapeCasts_S4096x10_S8x8x64x10
  have v42 : IVec S8x64 32 := iota .tc S8x64 32 [0] iota_S8x64_d0_w32
  have v43 : IVec S8x64 32 := broadcast S8x64 (BitVec.ofNat 32 st)
  have v44 : IVec S8x64 32 := addi v42 v43
  have v45 : IVec S8x64 32 := iota .tc S8x64 32 [1] iota_S8x64_d1_w32
  have v46 : IVec S8x64 1 := cmpi .slt v44 v45
  have v47 : IVec S8x64 32 := extui 32 v46 natLt_1_32
  have v48 : FVec F S8x64 .f32 := sitofp .f32 v47
  have v49 : FVec F S1x8x64x1 .f32 := shapeCast S1x8x64x1 v48 shapeCasts_S8x64_S1x8x64x1
  have v50 : FVec F S8x8x64x10 .f32 := broadcastTo S8x8x64x10 v49 broadcasts_S1x8x64x1_S8x8x64x10
  have v51 : FVec F S8x8x64x10 .f32 := mulf v41 v50
  have v52 : FVec F S8x8x10 .f32 := multiReduction .add [2] S8x8x10 v51 0x00000000#32 reduces_S8x8x64x10_S8x8x10 (.inl rfl) rfl
  have v53 : FVec F S8x10 .f32 := multiReduction .add [1] S8x10 v52 0x00000000#32 reduces_S8x8x10_S8x10 (.inl rfl) rfl
  v53

/-- The kernel's accumulated pair feature is the zero block plus the eight blocks' terms, in the order of the blocks. -/
theorem comboTerm_eq_blocks [Named F] (x0 : Vec F S8x64x64 .f32) (wLo wHi : Vec F S64x64 .f32) (b1v : Vec F S1x64 .f32)
    (W2v : Vec F S64x10 .f32) (b2v : Vec F S1x10 .f32) :
    comboTerm x0 wLo wHi b1v W2v b2v
      = addf (addf (addf (addf (addf (addf (addf (addf (k0_pay9 (F := F))
          (blockTerm 0 slices_S8x64x64_o0_0_0_S8x8x64 (k0_pay7 x0 wLo) (k0_pay8 x0 wHi) (k0_pay5 b1v) W2v (k0_pay6 b2v)))
          (blockTerm 8 slices_S8x64x64_o0_8_0_S8x8x64 (k0_pay7 x0 wLo) (k0_pay8 x0 wHi) (k0_pay5 b1v) W2v (k0_pay6 b2v)))
          (blockTerm 16 slices_S8x64x64_o0_16_0_S8x8x64 (k0_pay7 x0 wLo) (k0_pay8 x0 wHi) (k0_pay5 b1v) W2v (k0_pay6 b2v)))
          (blockTerm 24 slices_S8x64x64_o0_24_0_S8x8x64 (k0_pay7 x0 wLo) (k0_pay8 x0 wHi) (k0_pay5 b1v) W2v (k0_pay6 b2v)))
          (blockTerm 32 slices_S8x64x64_o0_32_0_S8x8x64 (k0_pay7 x0 wLo) (k0_pay8 x0 wHi) (k0_pay5 b1v) W2v (k0_pay6 b2v)))
          (blockTerm 40 slices_S8x64x64_o0_40_0_S8x8x64 (k0_pay7 x0 wLo) (k0_pay8 x0 wHi) (k0_pay5 b1v) W2v (k0_pay6 b2v)))
          (blockTerm 48 slices_S8x64x64_o0_48_0_S8x8x64 (k0_pay7 x0 wLo) (k0_pay8 x0 wHi) (k0_pay5 b1v) W2v (k0_pay6 b2v)))
          (blockTerm 56 slices_S8x64x64_o0_56_0_S8x8x64 (k0_pay7 x0 wLo) (k0_pay8 x0 wHi) (k0_pay5 b1v) W2v (k0_pay6 b2v)) :=
  rfl

end Block

section Reads
variable {α : Type}

/-- The row of the `[4096]` axis that holds batch row `b`, first token `i'` of the block and second token `j`. -/
def row (b i' : Fin 8) (j : Fin 64) : Fin 4096 := ⟨(b.val * 8 + i'.val) * 64 + j.val, by omega⟩

/-- The block's rows of `U`, spread over the second tokens: entry `(b, i', j, d)` is `U`'s at token `st + i'`. -/
theorem firstTok_apply (st : Nat) (hs : S8x64x64.Slices ![0, st, 0] S8x8x64) (hst : st + 8 ≤ 64) (U : S8x64x64.Idx → α)
    (b i' : Fin 8) (j d : Fin 64) :
    broadcastTo S8x8x64x64 (shapeCast S8x8x1x64 (extractStridedSlice S8x8x64 ![0, st, 0] U hs) shapeCasts_S8x8x64_S8x8x1x64)
        broadcasts_S8x8x1x64_S8x8x64x64 (ix4 b i' j d)
      = U (ix3 b ⟨st + i'.val, by omega⟩ d) := by
  refine (broadcastTo_apply _ _ (ix4 b i' j d) (ix4 b i' (0 : Fin 1) d)
    (fun a => match a with | ⟨0, _⟩ => rfl | ⟨1, _⟩ => rfl | ⟨2, _⟩ => rfl | ⟨3, _⟩ => rfl)).trans ?_
  refine (shapeCast_apply _ _ (ix4 b i' (0 : Fin 1) d) (ix3 b i' d)
    (by rw [Shape.rowMajor_val_three, Shape.rowMajor_val_four]
        show (b.val * 8 + i'.val) * 64 + d.val = ((b.val * 8 + i'.val) * 1 + 0) * 64 + d.val
        omega)).trans ?_
  exact extractStridedSlice_apply _ _ _ (ix3 b i' d) (ix3 b ⟨st + i'.val, by omega⟩ d)
    (fun a => match a with
      | ⟨0, _⟩ => by show b.val = 0 + b.val; omega
      | ⟨1, _⟩ => by show st + i'.val = st + i'.val; rfl
      | ⟨2, _⟩ => by show d.val = 0 + d.val; omega)

/-- All rows of `V`, spread over the block's first tokens: entry `(b, i', j, d)` is `V`'s at token `j`. -/
theorem secondTok_apply (V : S8x64x64.Idx → α) (b i' : Fin 8) (j d : Fin 64) :
    broadcastTo S8x8x64x64 (shapeCast S8x1x64x64 V shapeCasts_S8x64x64_S8x1x64x64) broadcasts_S8x1x64x64_S8x8x64x64 (ix4 b i' j d)
      = V (ix3 b j d) := by
  refine (broadcastTo_apply _ _ (ix4 b i' j d) (ix4 b (0 : Fin 1) j d)
    (fun a => match a with | ⟨0, _⟩ => rfl | ⟨1, _⟩ => rfl | ⟨2, _⟩ => rfl | ⟨3, _⟩ => rfl)).trans ?_
  exact shapeCast_apply _ _ (ix4 b (0 : Fin 1) j d) (ix3 b j d)
    (by rw [Shape.rowMajor_val_three, Shape.rowMajor_val_four]
        show (b.val * 64 + j.val) * 64 + d.val = ((b.val * 1 + 0) * 64 + j.val) * 64 + d.val
        omega)

/-- The first layer's bias row spread over batch rows and both tokens: entry `(b, i', j, d)` is the row's at `d`. -/
theorem bias1_apply (b1 : S1x64.Idx → α) (b i' : Fin 8) (j d : Fin 64) :
    broadcastTo S8x8x64x64 (shapeCast S1x1x1x64 (shapeCast S64 b1 shapeCasts_S1x64_S64) shapeCasts_S64_S1x1x1x64)
        broadcasts_S1x1x1x64_S8x8x64x64 (ix4 b i' j d)
      = b1 (ix2 (0 : Fin 1) d) := by
  refine (broadcastTo_apply _ _ (ix4 b i' j d) (ix4 (0 : Fin 1) (0 : Fin 1) (0 : Fin 1) d)
    (fun a => match a with | ⟨0, _⟩ => rfl | ⟨1, _⟩ => rfl | ⟨2, _⟩ => rfl | ⟨3, _⟩ => rfl)).trans ?_
  refine (shapeCast_apply _ _ (ix4 (0 : Fin 1) (0 : Fin 1) (0 : Fin 1) d) (ix1 d)
    (by rw [Shape.rowMajor_val_one, Shape.rowMajor_val_four]
        show d.val = (((0 * 1 + 0) * 1 + 0) * 64 + d.val)
        omega)).trans ?_
  exact shapeCast_apply _ _ (ix1 d) (ix2 (0 : Fin 1) d)
    (by rw [Shape.rowMajor_val_two, Shape.rowMajor_val_one]
        show 0 * 64 + d.val = d.val
        omega)

/-- The second layer's bias row spread over the `[4096]` rows: entry `(r, f)` is the row's at `f`. -/
theorem bias2_apply (b2 : S1x10.Idx → α) (r : Fin 4096) (f : Fin 10) :
    broadcastTo S4096x10 (shapeCast S1x10 (shapeCast S10 b2 shapeCasts_S1x10_S10) shapeCasts_S10_S1x10) broadcasts_S1x10_S4096x10 (ix2 r f)
      = b2 (ix2 (0 : Fin 1) f) := by
  refine (broadcastTo_apply _ _ (ix2 r f) (ix2 (0 : Fin 1) f)
    (fun a => match a with | ⟨0, _⟩ => rfl | ⟨1, _⟩ => rfl)).trans ?_
  refine (shapeCast_apply _ _ (ix2 (0 : Fin 1) f) (ix1 f)
    (by rw [Shape.rowMajor_val_one, Shape.rowMajor_val_two]
        show f.val = 0 * 10 + f.val
        omega)).trans ?_
  exact shapeCast_apply _ _ (ix1 f) (ix2 (0 : Fin 1) f)
    (by rw [Shape.rowMajor_val_two, Shape.rowMajor_val_one]
        show 0 * 10 + f.val = f.val
        omega)

/-- The `[4096, 64]` view of a `[8, 8, 64, 64]` array: row `row b i' j` is entry `(b, i', j, ·)`. -/
theorem rows64_apply (x : S8x8x64x64.Idx → α) (b i' : Fin 8) (j d : Fin 64) :
    shapeCast S4096x64 x shapeCasts_S8x8x64x64_S4096x64 (ix2 (row b i' j) d) = x (ix4 b i' j d) :=
  shapeCast_apply _ _ (ix2 (row b i' j) d) (ix4 b i' j d)
    (by rw [Shape.rowMajor_val_two, Shape.rowMajor_val_four]
        show ((b.val * 8 + i'.val) * 64 + j.val) * 64 + d.val = ((b.val * 8 + i'.val) * 64 + j.val) * 64 + d.val
        rfl)

/-- The `[8, 8, 64, 10]` view of a `[4096, 10]` array: entry `(b, i', j, f)` is row `row b i' j` at `f`. -/
theorem rows10_apply (x : S4096x10.Idx → α) (b i' : Fin 8) (j : Fin 64) (f : Fin 10) :
    shapeCast S8x8x64x10 x shapeCasts_S4096x10_S8x8x64x10 (ix4 b i' j f) = x (ix2 (row b i' j) f) :=
  shapeCast_apply _ _ (ix4 b i' j f) (ix2 (row b i' j) f)
    (by rw [Shape.rowMajor_val_two, Shape.rowMajor_val_four]
        show ((b.val * 8 + i'.val) * 64 + j.val) * 10 + f.val = ((b.val * 8 + i'.val) * 64 + j.val) * 10 + f.val
        rfl)

/-- The `[8, 64]` mask spread over batch rows and channels: entry `(b, i', j, f)` is the mask's at `(i', j)`. -/
theorem mask_spread_apply (m : S8x64.Idx → α) (b i' : Fin 8) (j : Fin 64) (f : Fin 10) :
    broadcastTo S8x8x64x10 (shapeCast S1x8x64x1 m shapeCasts_S8x64_S1x8x64x1) broadcasts_S1x8x64x1_S8x8x64x10 (ix4 b i' j f)
      = m (ix2 i' j) := by
  refine (broadcastTo_apply _ _ (ix4 b i' j f) (ix4 (0 : Fin 1) i' j (0 : Fin 1))
    (fun a => match a with | ⟨0, _⟩ => rfl | ⟨1, _⟩ => rfl | ⟨2, _⟩ => rfl | ⟨3, _⟩ => rfl)).trans ?_
  exact shapeCast_apply _ _ (ix4 (0 : Fin 1) i' j (0 : Fin 1)) (ix2 i' j)
    (by rw [Shape.rowMajor_val_two, Shape.rowMajor_val_four]
        show i'.val * 64 + j.val = ((0 * 8 + i'.val) * 64 + j.val) * 1 + 0
        omega)

end Reads

section Mask

/-- A small number's word, read signed, is the number. -/
theorem toInt_ofNat_small (n : Nat) (hn : n < 2 ^ 31) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- The mask word of first token number `a + st` against second token `c`, as a float: one where the first token
    precedes the second, zero elsewhere. -/
theorem mask_word (a st c : Nat) (ha : a < 64) (hs : st < 64) (hc : c < 64) :
    FloatOps.sitofp (F := Ideal) .f32
        ((IntOp.cmpi .slt (IntOp.addi (BitVec.ofNat 32 a) (BitVec.ofNat 32 st)) (BitVec.ofNat 32 c)).setWidth 32)
      = if st + a < c then (1 : EReal) else 0 := by
  have hadd : IntOp.addi (BitVec.ofNat 32 a) (BitVec.ofNat 32 st) = BitVec.ofNat 32 (a + st) := by
    show BitVec.ofNat 32 a + BitVec.ofNat 32 st = _
    rw [BitVec.ofNat_add]
  rw [hadd]
  have hslt : (BitVec.ofNat 32 (a + st)).slt (BitVec.ofNat 32 c) = decide (st + a < c) := by
    unfold BitVec.slt
    rw [toInt_ofNat_small (a + st) (by omega), toInt_ofNat_small c (by omega)]
    congr 1
    exact propext ⟨fun h => by omega, fun h => by omega⟩
  show ((((BitVec.ofBool ((BitVec.ofNat 32 (a + st)).slt (BitVec.ofNat 32 c))).setWidth 32).toInt : ℝ) : EReal) = _
  rw [hslt]
  by_cases h : st + a < c
  · rw [if_pos h, decide_eq_true h]
    show ((((1#1 : BitVec 1).setWidth 32).toInt : ℝ) : EReal) = 1
    rw [show ((1#1 : BitVec 1).setWidth 32).toInt = 1 from by decide]
    norm_num
  · rw [if_neg h, decide_eq_false h]
    show ((((0#1 : BitVec 1).setWidth 32).toInt : ℝ) : EReal) = 0
    rw [show ((0#1 : BitVec 1).setWidth 32).toInt = 0 from by decide]
    norm_num

/-- The mask array at `(i', j)`. -/
theorem mask_apply (st : Nat) (hst : st + 8 ≤ 64) (i' : Fin 8) (j : Fin 64) :
    sitofp (F := Ideal) .f32 (extui 32 (cmpi .slt (addi (iota .tc S8x64 32 [0] iota_S8x64_d0_w32) (broadcast S8x64 (BitVec.ofNat 32 st)))
        (iota .tc S8x64 32 [1] iota_S8x64_d1_w32)) natLt_1_32) (ix2 i' j)
      = if st + i'.val < j.val then (1 : EReal) else 0 := by
  show FloatOps.sitofp (F := Ideal) .f32 ((IntOp.cmpi .slt (IntOp.addi (iota .tc S8x64 32 [0] iota_S8x64_d0_w32 (ix2 i' j)) (BitVec.ofNat 32 st))
      (iota .tc S8x64 32 [1] iota_S8x64_d1_w32 (ix2 i' j))).setWidth 32) = _
  rw [iota_single_apply, iota_single_apply]
  exact mask_word i'.val st j.val (by omega) (by omega) j.isLt

end Mask

section Value

/-- The sum over the second tokens of a `[8, 8, 64, 10]` array, read at `(b, i', f)`. -/
theorem sumSecond_apply (x : FVec Ideal S8x8x64x10 .f32) (b i' : Fin 8) (f : Fin 10) :
    multiReduction (F := Ideal) .add [2] S8x8x10 x 0x00000000#32 reduces_S8x8x64x10_S8x8x10 (.inl rfl) rfl (ix3 b i' f)
      = ∑ j : Fin 64, x (ix4 b i' j f) := by
  refine (Ideal.multiReduction_add_single x _ reduces_S8x8x64x10_S8x8x10 (.inl rfl) rfl (ix3 b i' f)).trans ?_
  refine Finset.sum_congr rfl fun j _ => congrArg x ?_
  funext a; apply Fin.ext
  match a with
  | ⟨0, _⟩ => rfl
  | ⟨1, _⟩ => rfl
  | ⟨2, _⟩ => rfl
  | ⟨3, _⟩ => rfl

/-- The sum over the block's first tokens of a `[8, 8, 10]` array, read at `(b, f)`. -/
theorem sumFirst_apply (x : FVec Ideal S8x8x10 .f32) (b : Fin 8) (f : Fin 10) :
    multiReduction (F := Ideal) .add [1] S8x10 x 0x00000000#32 reduces_S8x8x10_S8x10 (.inl rfl) rfl (ix2 b f)
      = ∑ i' : Fin 8, x (ix3 b i' f) := by
  refine (Ideal.multiReduction_add_single x _ reduces_S8x8x10_S8x10 (.inl rfl) rfl (ix2 b f)).trans ?_
  refine Finset.sum_congr rfl fun i' _ => congrArg x ?_
  funext a; apply Fin.ext
  match a with
  | ⟨0, _⟩ => rfl
  | ⟨1, _⟩ => rfl
  | ⟨2, _⟩ => rfl

/-- One block's term at batch row `b` and channel `f`: over the block's first tokens `st + i'` and all second tokens
    `j`, the pair's perceptron value (from `U` at the first token, `V` at the second) times the mask. -/
theorem blockTerm_apply (st : Nat) (hs : S8x64x64.Slices ![0, st, 0] S8x8x64) (hst : st + 8 ≤ 64)
    (U V : FVec Ideal S8x64x64 .f32) (b1 : FVec Ideal S1x64 .f32) (W2v : Vec Ideal S64x10 .f32) (b2 : FVec Ideal S1x10 .f32)
    (b : Fin 8) (f : Fin 10) :
    blockTerm (F := Ideal) st hs U V b1 W2v b2 (ix2 b f)
      = ∑ i' : Fin 8, ∑ j : Fin 64,
          ((∑ d : Fin 64, max (U (ix3 b ⟨st + i'.val, by omega⟩ d) + V (ix3 b j d) + b1 (ix2 (0 : Fin 1) d)) 0 * W2v (ix2 d f))
              + b2 (ix2 (0 : Fin 1) f))
            * (if st + i'.val < j.val then (1 : EReal) else 0) := by
  unfold blockTerm
  refine (sumFirst_apply _ b f).trans ?_
  refine Finset.sum_congr rfl fun i' _ => ?_
  refine (sumSecond_apply _ b i' f).trans ?_
  refine Finset.sum_congr rfl fun j _ => ?_
  refine (mulf_apply _ _ _).trans ?_
  refine congrArg₂ (· * ·) ?_ ((mask_spread_apply _ b i' j f).trans (mask_apply st hst i' j))
  refine (rows10_apply _ b i' j f).trans ?_
  refine (addf_apply _ _ _).trans ?_
  refine congrArg₂ (· + ·) ?_ (bias2_apply _ (row b i' j) f)
  refine (Cert.PlainMatmul.matmul_zero_apply _ rfl rfl rfl rfl rfl rfl none _ _ (row b i' j) f).trans ?_
  refine Finset.sum_congr rfl fun d _ => ?_
  refine congrArg₂ (· * ·) ?_ rfl
  refine (truncf_apply (ψ := .bf16) _ bitsLt_bf16_f32 _).trans ?_
  refine (rows64_apply _ b i' j d).trans ?_
  refine (maximumf_apply _ _ _).trans ?_
  refine congrArg₂ max ?_ ((show _ = Ideal.ofBits .f32 0x00000000#32 from rfl).trans Cert.Enc.Consts.ofBits_zero)
  refine (addf_apply _ _ _).trans ?_
  refine congrArg₂ (· + ·) ?_ (bias1_apply _ b i' j d)
  refine (addf_apply _ _ _).trans ?_
  exact congrArg₂ (· + ·) (firstTok_apply st hs hst U b i' j d) (secondTok_apply V b i' j d)

end Value

section Top
open Cert.Enc

/-- The 64 tokens as eight blocks of eight: block `k`, place `i'` is token `8 k + i'`. -/
def blockEquiv : Fin 8 × Fin 8 ≃ Fin 64 where
  toFun p := ⟨8 * p.1.val + p.2.val, by omega⟩
  invFun i := (⟨i.val / 8, by omega⟩, ⟨i.val % 8, by omega⟩)
  left_inv p := by
    apply Prod.ext <;> apply Fin.ext <;> simp only <;> omega
  right_inv i := by apply Fin.ext; simp only; omega

/-- A sum over the 64 tokens is the sum over the blocks of the sums over each block's places. -/
theorem sum_blocks {M : Type*} [AddCommMonoid M] (G : Fin 64 → M) :
    ∑ i : Fin 64, G i = ∑ k : Fin 8, ∑ i' : Fin 8, G ⟨8 * k.val + i'.val, by omega⟩ := by
  rw [← Equiv.sum_comp blockEquiv G, Fintype.sum_prod_type]
  rfl

/-- The embeddings times a first-layer half: entry `(b, i, d)` is token `i`'s row against column `d`. -/
theorem proj_apply (x0 : Vec Ideal S8x64x64 .f32) (w : Vec Ideal S64x64 .f32) (b : Fin 8) (i d : Fin 64) :
    k0_pay7 (F := Ideal) x0 w (ix3 b i d) = proj (fun e d => w (ix2 e d)) (fun e => x0 (ix3 b i e)) d := by
  unfold k0_pay7 k0_pay4 k0_pay2
  refine (shapeCast_apply _ _ (ix3 b i d) (ix2 (⟨b.val * 64 + i.val, by omega⟩ : Fin 512) d)
    (by rw [Shape.rowMajor_val_two, Shape.rowMajor_val_three]
        show (b.val * 64 + i.val) * 64 + d.val = (b.val * 64 + i.val) * 64 + d.val
        rfl)).trans ?_
  refine (Cert.PlainMatmul.matmul_zero_apply _ rfl rfl rfl rfl rfl rfl none _ _ _ d).trans ?_
  refine Finset.sum_congr rfl fun e _ => ?_
  refine congrArg₂ (· * ·) ?_ rfl
  refine (truncf_apply (ψ := .bf16) _ bitsLt_bf16_f32 _).trans ?_
  refine (shapeCast_apply _ _ _ (ix3 b i e)
    (by rw [Shape.rowMajor_val_two, Shape.rowMajor_val_three]
        show (b.val * 64 + i.val) * 64 + e.val = (b.val * 64 + i.val) * 64 + e.val
        rfl)).trans ?_
  exact congrFun (shapeCast_self x0 _) _

/-- The pair's perceptron value times the mask is the value where the first token precedes the second, zero elsewhere. -/
theorem mul_mask (x : EReal) (p : Prop) [Decidable p] : x * (if p then (1 : EReal) else 0) = if p then x else 0 := by
  by_cases h : p
  · rw [if_pos h, if_pos h, mul_one]
  · rw [if_neg h, if_neg h, mul_zero]

/-- Block `k`'s term is the sum, over the block's first tokens, of the pair feature against the later tokens. -/
theorem block_sum (x0 : Vec Ideal S8x64x64 .f32) (wLo wHi : Vec Ideal S64x64 .f32) (b1v : Vec Ideal S1x64 .f32)
    (W2v : Vec Ideal S64x10 .f32) (b2v : Vec Ideal S1x10 .f32) (b : Fin 8) (f : Fin 10) (k : Fin 8)
    (hs : S8x64x64.Slices ![0, 8 * k.val, 0] S8x8x64) :
    blockTerm (F := Ideal) (8 * k.val) hs (k0_pay7 x0 wLo) (k0_pay8 x0 wHi) (k0_pay5 b1v) W2v (k0_pay6 b2v) (ix2 b f)
      = ∑ i' : Fin 8, ∑ j : Fin 64,
          if (⟨8 * k.val + i'.val, by omega⟩ : Fin 64) < j then
            pairFeat (fun e d => wLo (ix2 e d)) (fun e d => wHi (ix2 e d)) (fun d => b1v (ix2 (0 : Fin 1) d))
              (fun d g => W2v (ix2 d g)) (fun g => b2v (ix2 (0 : Fin 1) g))
              (fun e => x0 (ix3 b ⟨8 * k.val + i'.val, by omega⟩ e)) (fun e => x0 (ix3 b j e)) f
          else 0 := by
  refine (blockTerm_apply (8 * k.val) hs (by omega) _ _ _ _ _ b f).trans ?_
  refine Finset.sum_congr rfl fun i' _ => Finset.sum_congr rfl fun j _ => ?_
  refine (mul_mask _ _).trans ?_
  refine if_congr Iff.rfl ?_ rfl
  unfold pairFeat
  refine congrArg₂ (· + ·) (Finset.sum_congr rfl fun d _ => congrArg₂ (· * ·) (congrArg₂ max ?_ rfl) rfl)
    (congrFun (shapeCast_self b2v _) _)
  exact congrArg₂ (· + ·) (congrArg₂ (· + ·) (proj_apply x0 wLo b _ d) (proj_apply x0 wHi b j d))
    (congrFun (shapeCast_self b1v _) _)

end Top

/-- At row `b` of the block and channel `f` the kernel's accumulated pair feature — eight blocks of eight first
    tokens against all 64 second tokens, each pair's perceptron value kept where the first token precedes the second
    and zeroed elsewhere, summed — is the sum over the pairs `i < j` of the row's tokens. -/
theorem comboTerm_apply (x0 : Vec Ideal S8x64x64 .f32) (wLo wHi : Vec Ideal S64x64 .f32) (b1v : Vec Ideal S1x64 .f32)
    (W2v : Vec Ideal S64x10 .f32) (b2v : Vec Ideal S1x10 .f32) (b : Fin 8) (f : Fin 10) :
    comboTerm (F := Ideal) x0 wLo wHi b1v W2v b2v (ix2 b f)
      = Cert.Enc.comboSum (fun e d => wLo (ix2 e d)) (fun e d => wHi (ix2 e d)) (fun d => b1v (ix2 (0 : Fin 1) d))
          (fun d g => W2v (ix2 d g)) (fun g => b2v (ix2 (0 : Fin 1) g)) (fun i e => x0 (ix3 b i e)) f := by
  refine (congrFun (comboTerm_eq_blocks x0 wLo wHi b1v W2v b2v) (ix2 b f)).trans ?_
  have h9 : k0_pay9 (F := Ideal) (ix2 b f) = 0 :=
    (show _ = Ideal.ofBits .f32 0x00000000#32 from rfl).trans Cert.Enc.Consts.ofBits_zero
  unfold Cert.Enc.comboSum
  rw [sum_blocks, Fin.sum_univ_eight]
  refine (congrArg₂ (· + ·) (congrArg₂ (· + ·) (congrArg₂ (· + ·) (congrArg₂ (· + ·) (congrArg₂ (· + ·)
    (congrArg₂ (· + ·) (congrArg₂ (· + ·) ((congrArg₂ (· + ·) h9 (block_sum x0 wLo wHi b1v W2v b2v b f 0 _)).trans (zero_add _))
      (block_sum x0 wLo wHi b1v W2v b2v b f 1 _)) (block_sum x0 wLo wHi b1v W2v b2v b f 2 _))
      (block_sum x0 wLo wHi b1v W2v b2v b f 3 _)) (block_sum x0 wLo wHi b1v W2v b2v b f 4 _))
      (block_sum x0 wLo wHi b1v W2v b2v b f 5 _)) (block_sum x0 wLo wHi b1v W2v b2v b f 6 _))
      (block_sum x0 wLo wHi b1v W2v b2v b f 7 _))

end Cert.KernelIdeal.KerCombo

end
-- ==== Proof.KerFreq.lean ====
/-
  The kernel's frequency feature read at a token of the block and a channel.
-/
import proofs.«147268_j1460288880936_1_alg».proof.Proof.KerTerms
import proofs.«147268_j1460288880936_1_alg».proof.Proof.Spec
import proofs.«147268_j1460288880936_1_alg».proof.Proof.Consts
import proofs.«147268_j1460288880936_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KerFreq

open Cert.KernelIdeal Cert.KernelIdeal.Gen Cert.KernelIdeal.KerTerms Idealize.ShloMosaic Idealize.ShloMosaic.ValueIdx

/-! ## Layout operations of the frequency feature, read by coordinates -/

section Layout
variable {α : Type}

/-- Row `64·b + s` of the flattened block of 8 × 64 tokens. -/
abbrev tokenRow (b : Fin 8) (s : Fin 64) : Fin 512 := ⟨64 * b.val + s.val, by have := b.isLt; have := s.isLt; omega⟩

/-- A `[512, n]` array cast to `[8, 64, n]` reads, at `(b, s, d)`, row `64·b + s` at column `d`. -/
theorem cast_flat_block {n : ℕ} (x : (⟨2, ![512, n]⟩ : Shape).Idx → α)
    (h : (⟨2, ![512, n]⟩ : Shape).ShapeCasts ⟨3, ![8, 64, n]⟩) (b : Fin 8) (s : Fin 64) (d : Fin n) :
    shapeCast ⟨3, ![8, 64, n]⟩ x h (ix3 b s d) = x (ix2 (tokenRow b s) d) :=
  shapeCast_apply x h _ _ (by
    rw [Shape.rowMajor_val_two, Shape.rowMajor_val_three]
    show (64 * b.val + s.val) * n + d.val = (b.val * 64 + s.val) * n + d.val
    rw [Nat.mul_comm 64 b.val])

/-- An `[8, 64, n]` array cast to `[512, n]` reads, at row `64·b + s` and column `d`, the operand at `(b, s, d)`. -/
theorem cast_block_flat {n : ℕ} (x : (⟨3, ![8, 64, n]⟩ : Shape).Idx → α)
    (h : (⟨3, ![8, 64, n]⟩ : Shape).ShapeCasts ⟨2, ![512, n]⟩) (b : Fin 8) (s : Fin 64) (d : Fin n) :
    shapeCast ⟨2, ![512, n]⟩ x h (ix2 (tokenRow b s) d) = x (ix3 b s d) :=
  shapeCast_apply x h _ _ (by
    rw [Shape.rowMajor_val_two, Shape.rowMajor_val_three]
    show (b.val * 64 + s.val) * n + d.val = (64 * b.val + s.val) * n + d.val
    rw [Nat.mul_comm 64 b.val])

/-- An `[a, c]` array cast to `[a, c, 1]` reads, at `(i, j, u)`, the operand at `(i, j)`. -/
theorem cast_add_trailing_unit {a c : ℕ} (x : (⟨2, ![a, c]⟩ : Shape).Idx → α)
    (h : (⟨2, ![a, c]⟩ : Shape).ShapeCasts ⟨3, ![a, c, 1]⟩) (i : Fin a) (j : Fin c) (u : Fin 1) :
    shapeCast ⟨3, ![a, c, 1]⟩ x h (ix3 i j u) = x (ix2 i j) :=
  shapeCast_apply x h _ _ (by
    have hu : u.val = 0 := by omega
    rw [Shape.rowMajor_val_two, Shape.rowMajor_val_three]
    show i.val * c + j.val = (i.val * c + j.val) * 1 + u.val
    rw [hu, Nat.mul_one, Nat.add_zero])

/-- An `[n]` array cast to `[1, 1, n]` reads, at `(u, v, d)`, the operand at `d`. -/
theorem cast_add_two_units {n : ℕ} (x : (⟨1, ![n]⟩ : Shape).Idx → α)
    (h : (⟨1, ![n]⟩ : Shape).ShapeCasts ⟨3, ![1, 1, n]⟩) (u v : Fin 1) (d : Fin n) :
    shapeCast ⟨3, ![1, 1, n]⟩ x h (ix3 u v d) = x (ix1 d) :=
  shapeCast_apply x h _ _ (by
    have hu : u.val = 0 := by omega
    have hv : v.val = 0 := by omega
    rw [Shape.rowMajor_val_one, Shape.rowMajor_val_three]
    show d.val = (u.val * 1 + v.val) * n + d.val
    simp only [hu, hv, Nat.zero_mul, Nat.zero_add])

/-- An `[a, c, 1]` array broadcast to `[a, c, n]` reads, at `(i, j, d)`, the operand at `(i, j, 0)`. -/
theorem bcast_trailing_unit {a c n : ℕ} (x : (⟨3, ![a, c, 1]⟩ : Shape).Idx → α)
    (h : (⟨3, ![a, c, 1]⟩ : Shape).Broadcasts ⟨3, ![a, c, n]⟩) (i : Fin a) (j : Fin c) (d : Fin n) :
    broadcastTo ⟨3, ![a, c, n]⟩ x h (ix3 i j d) = x (ix3 i j (0 : Fin 1)) := by
  refine broadcastTo_apply x h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if c = 1 then 0 else j.val
    split
    · have := j.isLt; omega
    · rfl
  | ⟨2, _⟩ => rfl

/-- A `[1, 1, n]` array broadcast to `[a, c, n]` reads, at `(i, j, d)`, the operand at `(0, 0, d)`. -/
theorem bcast_leading_units {a c n : ℕ} (x : (⟨3, ![1, 1, n]⟩ : Shape).Idx → α)
    (h : (⟨3, ![1, 1, n]⟩ : Shape).Broadcasts ⟨3, ![a, c, n]⟩) (i : Fin a) (j : Fin c) (d : Fin n) :
    broadcastTo ⟨3, ![a, c, n]⟩ x h (ix3 i j d) = x (ix3 (0 : Fin 1) (0 : Fin 1) d) := by
  refine broadcastTo_apply x h (ix3 i j d) (ix3 (0 : Fin 1) (0 : Fin 1) d) fun ax => ?_
  match ax with
  | ⟨0, _⟩ => rfl
  | ⟨1, _⟩ => rfl
  | ⟨2, _⟩ =>
    show d.val = if n = 1 then 0 else d.val
    split
    · have := d.isLt; omega
    · rfl

/-- A `[1, n]` row cast to `[n]`, then to `[1, 1, n]`, and broadcast to `[a, c, n]` reads, at `(i, j, d)`, the row at `d`. -/
theorem row_bcast {a c n : ℕ} (x : (⟨2, ![1, n]⟩ : Shape).Idx → α)
    (h1 : (⟨2, ![1, n]⟩ : Shape).ShapeCasts ⟨1, ![n]⟩) (h2 : (⟨1, ![n]⟩ : Shape).ShapeCasts ⟨3, ![1, 1, n]⟩)
    (h3 : (⟨3, ![1, 1, n]⟩ : Shape).Broadcasts ⟨3, ![a, c, n]⟩) (i : Fin a) (j : Fin c) (d : Fin n) :
    broadcastTo ⟨3, ![a, c, n]⟩ (shapeCast ⟨3, ![1, 1, n]⟩ (shapeCast ⟨1, ![n]⟩ x h1) h2) h3 (ix3 i j d) = x (ix2 (0 : Fin 1) d) :=
  (bcast_leading_units _ h3 i j d).trans ((cast_add_two_units _ h2 0 0 d).trans (shapeCast_1a_a_apply x h1 d))

end Layout

/-- At token `(b, s)` of the block and channel `f` the kernel's frequency feature is the frequency perceptron of the
    token's embedding and frequency. -/
theorem freqTerm_apply (x0 : Vec Ideal S8x64x64 .f32) (x1v : Vec Ideal S8x64 .f32) (wfE : Vec Ideal S64x64 .f32)
    (wffv : Vec Ideal S1x64 .f32) (fb1v : Vec Ideal S1x64 .f32) (Wf2v : Vec Ideal S64x10 .f32) (fb2v : Vec Ideal S1x10 .f32)
    (b : Fin 8) (s : Fin 64) (f : Fin 10) :
    freqTerm (F := Ideal) x0 x1v wfE wffv fb1v Wf2v fb2v (ix3 b s f)
      = Cert.Enc.freqFeat (fun e d => wfE (ix2 e d)) (fun d => wffv (ix2 (0 : Fin 1) d)) (fun d => fb1v (ix2 (0 : Fin 1) d))
          (fun d g => Wf2v (ix2 d g)) (fun g => fb2v (ix2 (0 : Fin 1) g)) (fun e => x0 (ix3 b s e)) (x1v (ix2 b s)) f := by
  unfold Cert.Enc.freqFeat Cert.Enc.proj
  show (shapeCast S8x64x10 (matmul dot_S512x64_S64x10_S512x10_1_0_0_1_n_n none _ _ (constant S512x10 .f32 0x00000000#32))
          shapeCasts_S512x10_S8x64x10 (ix3 b s f))
        + (broadcastTo S8x64x10 _ broadcasts_S1x1x10_S8x64x10 (ix3 b s f)) = _
  refine congrArg₂ (· + ·) ?_ ?_
  · -- the second layer: row `64·b + s` of the hidden layer against column `f`
    refine (cast_flat_block _ _ b s f).trans ?_
    refine (Cert.PlainMatmul.matmul_zero_apply _ rfl rfl rfl rfl rfl rfl none _ _ (tokenRow b s) f).trans ?_
    refine Finset.sum_congr rfl fun d _ => ?_
    refine congrArg₂ (· * ·) ?_ rfl
    -- the hidden layer at `(b, s, d)`: the first layer's sum, clipped below at the zero word
    refine (truncf_apply _ bitsLt_bf16_f32 (ix2 (tokenRow b s) d)).trans ?_
    refine (cast_block_flat _ shapeCasts_S8x64x64_S512x64 b s d).trans ?_
    refine congrArg₂ max ?_ Cert.Enc.Consts.ofBits_zero
    refine congrArg₂ (· + ·) (congrArg₂ (· + ·) ?_ ?_) ?_
    · -- the embedding's projection: row `64·b + s` of the flattened embeddings against column `d`
      refine (cast_flat_block _ _ b s d).trans ?_
      refine (Cert.PlainMatmul.matmul_zero_apply _ rfl rfl rfl rfl rfl rfl none _ _ (tokenRow b s) d).trans ?_
      refine Finset.sum_congr rfl fun e _ => ?_
      refine congrArg₂ (· * ·) ?_ rfl
      refine (truncf_apply _ bitsLt_bf16_f32 (ix2 (tokenRow b s) e)).trans ?_
      show shapeCast S512x64 (shapeCast S8x64x64 x0 shapeCasts_S8x64x64_S8x64x64) shapeCasts_S8x64x64_S512x64 (ix2 (tokenRow b s) e) = _
      refine (cast_block_flat _ shapeCasts_S8x64x64_S512x64 b s e).trans ?_
      exact congrFun (shapeCast_self x0 _) _
    · -- the frequency times the first layer's frequency row
      refine congrArg₂ (· * ·) ?_ ?_
      · refine (bcast_trailing_unit _ _ b s d).trans ?_
        refine (cast_add_trailing_unit _ _ b s 0).trans ?_
        show shapeCast S8x64 x1v shapeCasts_S8x64_S8x64 (ix2 b s) = _
        exact congrFun (shapeCast_self x1v _) _
      · exact row_bcast wffv _ _ _ b s d
    · -- the first bias row
      refine (row_bcast _ _ _ _ b s d).trans ?_
      exact congrFun (shapeCast_self fb1v _) _
  · -- the second bias row, broadcast over the tokens
    refine (row_bcast _ _ _ _ b s f).trans ?_
    exact congrFun (shapeCast_self fb2v _) _

end Cert.KernelIdeal.KerFreq

end
-- ==== Proof.LibTrailingUnit.lean ====
/-
  Readings at an index, written by coordinates, for the layout a sum over the MIDDLE of three axes meets, at any
  extents.

  A two-axis array `[a, b]` given a trailing unit axis, `[a, b, 1]`, keeps its entry `(i, j)` at `(i, j, 0)`
  (`shapeCast_ab_ab1_apply`); repeated along that axis to `[a, b, c]` it reads, at `(i, j, k)`, the entry `(i, j, 0)`
  whatever `k` (`broadcastTo_ab1_abc_apply`). On the extended reals the sum of an `[a, b, c]` array over axis 1 from
  the neutral accumulator reads, at `(i, k)`, the sum over `j` of the entries `(i, j, k)` (`midSum_apply`).
-/
import Idealize.ShloMosaic.Lib.Pipeline.Value
import Idealize.ShloMosaic.Lib.ValueIdx
import Idealize.ShloMosaic.PureOps.Ideal.Laws

noncomputable section

namespace Cert.TrailingUnit

open Idealize.ShloMosaic Idealize.ShloMosaic.ValueIdx
open scoped BigOperators

variable {α : Type}

/-- An `[a, b]` array cast to `[a, b, 1]` reads, at `(i, j, u)`, the operand at `(i, j)`: the row-major position is
    unchanged by a trailing axis of extent one. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one value for `(i, j)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The sum over axis 1 of a three-axis array, read at `(i, k)`: the sum over `j` of the entries `(i, j, k)`. -/
theorem midSum_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (i : Fin a) (k : Fin c) :
    multiReduction .add [1] ⟨2, ![a, c]⟩ src acc h hφ hacc (ix2 i k) = ∑ j : Fin b, src (ix3 i j k) := by
  rw [Ideal.multiReduction_add_single]
  show ∑ j : Fin b, src (h.lift (ix2 i k) j) = ∑ j : Fin b, src (ix3 i j k)
  refine Finset.sum_congr rfl fun j _ => congrArg src ?_
  funext d; apply Fin.ext
  fin_cases d <;> rfl

end Cert.TrailingUnit

end
-- ==== Proof.KerClus.lean ====
/-
  The kernel's stored value read at a token of the block and a channel: the cluster feature computed there, added to
  the other two features and averaged.
-/
import proofs.«147268_j1460288880936_1_alg».proof.Proof.KerTerms
import proofs.«147268_j1460288880936_1_alg».proof.Proof.Spec
import proofs.«147268_j1460288880936_1_alg».proof.Proof.Consts
import proofs.«147268_j1460288880936_1_alg».proof.Proof.LibTrailingUnit
import proofs.«147268_j1460288880936_1_alg».proof.Proof.LibPlainMatmul
import Idealize.ShloMosaic.PureOps.Ideal.Laws
import Idealize.ShloMosaic.Lib.ValueIdx
import Idealize.ShloMosaic.Lib.Pipeline.Value

noncomputable section

namespace Cert.KernelIdeal.KerClus

open Cert.KernelIdeal Cert.KernelIdeal.Gen Cert.KernelIdeal.KerTerms Idealize.ShloMosaic Idealize.ShloMosaic.ValueIdx

/-! ## Layout readings by coordinates -/

/-- A vector `[c]` cast to `[1, 1, c]` reads, at `(u, v, k)`, its entry `k`: the row-major position is `k` on both
    sides. -/
theorem shapeCast_c_11c_apply {α : Type} {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; simp)

/-- A `[1, 1, c]` array repeated to `[a, b, c]` reads, at `(i, j, k)`, the operand's entry `k`. -/
theorem broadcastTo_11c_abc_apply {α : Type} {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, c]` array cast to `[a, 1, c]` reads, at `(i, u, k)`, the operand at `(i, k)`: a middle axis of extent one
    leaves the row-major position unchanged. -/
theorem shapeCast_ac_a1c_apply {α : Type} {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array repeated to `[a, b, c]` reads, at `(i, j, k)`, the operand at `(i, 0, k)`. -/
theorem broadcastTo_a1c_abc_apply {α : Type} {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The index a reduction over the last of the three axes reads at reduced index `(b, s)` and coordinate `g` of the
    dropped axis is `(b, s, g)`. -/
theorem lift_last (b : Fin 8) (s : Fin 64) (g : Fin 10) :
    reduces_S8x64x10_S8x64.lift (ix2 b s) g = ix3 b s g := by
  funext d; apply Fin.ext
  fin_cases d <;> rfl

/-- A per-token value with its dimension kept — cast to `[8, 64, 1]` and repeated along the ten channels — reads, at
    `(b, s, f)`, the value of token `(b, s)`. -/
theorem keep_apply (v : FVec Ideal S8x64 .f32) (b : Fin 8) (s : Fin 64) (f : Fin 10) :
    broadcastTo S8x64x10 (shapeCast S8x64x1 v shapeCasts_S8x64_S8x64x1) broadcasts_S8x64x1_S8x64x10 (ix3 b s f) = v (ix2 b s) :=
  (Cert.TrailingUnit.broadcastTo_ab1_abc_apply _ _ b s f).trans (Cert.TrailingUnit.shapeCast_ab_ab1_apply v _ b s 0)

/-- The maximum over the ten channels of token `(b, s)`: the fold of `max` from minus infinity over the channels. -/
theorem rowMax_apply (z : FVec Ideal S8x64x10 .f32) (b : Fin 8) (s : Fin 64) :
    multiReduction .maximumf [2] S8x64 z 0xFF800000#32 reduces_S8x64x10_S8x64 (.inl rfl) rfl (ix2 b s)
      = (Finset.univ : Finset (Fin 10)).fold max (Ideal.ofBits .f32 0xFF800000#32) (fun g => z (ix3 b s g)) := by
  refine (Ideal.multiReduction_maximumf_single z _ reduces_S8x64x10_S8x64 (.inl rfl) rfl (ix2 b s)).trans ?_
  show (Finset.univ : Finset (Fin 10)).fold max (Ideal.ofBits .f32 0xFF800000#32)
      (fun g => z (reduces_S8x64x10_S8x64.lift (ix2 b s) g)) = _
  exact congrArg (fun φ => (Finset.univ : Finset (Fin 10)).fold max (Ideal.ofBits .f32 0xFF800000#32) φ)
    (funext fun g => congrArg z (lift_last b s g))

/-- The sum over the ten channels of token `(b, s)`. -/
theorem rowSum_apply (y : FVec Ideal S8x64x10 .f32) (b : Fin 8) (s : Fin 64) :
    multiReduction .add [2] S8x64 y 0x00000000#32 reduces_S8x64x10_S8x64 (.inl rfl) rfl (ix2 b s)
      = ∑ g : Fin 10, y (ix3 b s g) := by
  refine (Ideal.multiReduction_add_single y _ reduces_S8x64x10_S8x64 (.inl rfl) rfl (ix2 b s)).trans ?_
  show ∑ g : Fin 10, y (reduces_S8x64x10_S8x64.lift (ix2 b s) g) = _
  exact Finset.sum_congr rfl fun g _ => congrArg y (lift_last b s g)

/-! ## The softmax over the channels of a score array -/

/-- The softmax over the last axis of a score array `z`: each token's maximum from minus infinity, the exponentials of
    the shifted scores, their sum per token, the quotient. -/
def smChain (z : FVec Ideal S8x64x10 .f32) : FVec Ideal S8x64x10 .f32 :=
  have v349 : FVec Ideal S8x64 .f32 := multiReduction .maximumf [2] S8x64 z 0xFF800000#32 reduces_S8x64x10_S8x64 (.inl rfl) rfl
  have v351 : FVec Ideal S8x64 .f32 := maximumf (broadcast S8x64 (Scalar.ofBits .f32 0xFF800000#32)) v349
  have v353 : FVec Ideal S8x64x10 .f32 := broadcastTo S8x64x10 (shapeCast S8x64x1 v351 shapeCasts_S8x64_S8x64x1) broadcasts_S8x64x1_S8x64x10
  have v355 : FVec Ideal S8x64x10 .f32 := exp (subf z v353)
  have v356 : FVec Ideal S8x64 .f32 := multiReduction .add [2] S8x64 v355 0x00000000#32 reduces_S8x64x10_S8x64 (.inl rfl) rfl
  have v358 : FVec Ideal S8x64x10 .f32 := broadcastTo S8x64x10 (shapeCast S8x64x1 v356 shapeCasts_S8x64_S8x64x1) broadcasts_S8x64x1_S8x64x10
  divf v355 v358

/-- At `(b, s, f)` it is the softmax of the ten scores of token `(b, s)`, at channel `f`. -/
theorem smChain_apply (z : FVec Ideal S8x64x10 .f32) (b : Fin 8) (s : Fin 64) (f : Fin 10) :
    smChain z (ix3 b s f) = Cert.Enc.softmaxAt (fun g => z (ix3 b s g)) f := by
  -- the shift: the token's maximum, the same at every channel
  have hM : ∀ g : Fin 10,
      broadcastTo S8x64x10 (shapeCast S8x64x1 (maximumf (broadcast S8x64 (Scalar.ofBits .f32 0xFF800000#32))
          (multiReduction .maximumf [2] S8x64 z 0xFF800000#32 reduces_S8x64x10_S8x64 (.inl rfl) rfl)) shapeCasts_S8x64_S8x64x1)
          broadcasts_S8x64x1_S8x64x10 (ix3 b s g)
        = max (Ideal.ofBits .f32 0xFF800000#32)
            ((Finset.univ : Finset (Fin 10)).fold max (Ideal.ofBits .f32 0xFF800000#32) (fun g => z (ix3 b s g))) := fun g =>
    (keep_apply _ b s g).trans (congrArg (max (Ideal.ofBits .f32 0xFF800000#32)) (rowMax_apply z b s))
  -- the exponential of the shifted score at channel `g`
  have hE : ∀ g : Fin 10,
      exp (subf z (broadcastTo S8x64x10 (shapeCast S8x64x1 (maximumf (broadcast S8x64 (Scalar.ofBits .f32 0xFF800000#32))
          (multiReduction .maximumf [2] S8x64 z 0xFF800000#32 reduces_S8x64x10_S8x64 (.inl rfl) rfl)) shapeCasts_S8x64_S8x64x1)
          broadcasts_S8x64x1_S8x64x10)) (ix3 b s g)
        = Ideal.exp (z (ix3 b s g) - max (Ideal.ofBits .f32 0xFF800000#32)
            ((Finset.univ : Finset (Fin 10)).fold max (Ideal.ofBits .f32 0xFF800000#32) (fun g => z (ix3 b s g)))) := fun g =>
    congrArg (fun m => Ideal.exp (z (ix3 b s g) - m)) (hM g)
  show Ideal.div _ _ = Ideal.div _ _
  refine congrArg₂ Ideal.div (hE f) ?_
  refine (keep_apply _ b s f).trans ?_
  refine (rowSum_apply _ b s).trans ?_
  exact Finset.sum_congr rfl fun g _ => hE g

/-! ## The scores: minus the distance from a token to a centre -/

/-- The score array from the inner products `c`, the sums of squared norms `d` and the factor `t`: zero minus the root
    of `d − t · c` clamped at zero. -/
def scoreArr (c d t : FVec Ideal S8x64x10 .f32) : FVec Ideal S8x64x10 .f32 :=
  subf (broadcast S8x64x10 (Scalar.ofBits .f32 0x00000000#32))
    (sqrt (maximumf (subf d (mulf t c)) (broadcast S8x64x10 (Scalar.ofBits .f32 0x00000000#32))))

/-- The stored value is the sum of the three features — the summed pair feature repeated over the tokens, the softmax
    of the scores — times the named constant. -/
theorem pay1_eq (cs : FVec Ideal S8x10 .f32) (fr c d t : FVec Ideal S8x64x10 .f32) :
    k0_pay1 (F := Ideal) cs fr c d t
      = mulf (addf (addf fr (broadcastTo S8x64x10 (shapeCast S8x1x10 cs shapeCasts_S8x10_S8x1x10) broadcasts_S8x1x10_S8x64x10))
          (smChain (scoreArr c d t)))
          (broadcast S8x64x10 (Named.named κ "inv_2018" 0x3A01E723#32)) := rfl

/-- The squared norm of token `(b, s)` plus the squared norm of centre `g` (column `g` of the transposed centres). -/
theorem sq_apply (x0 : Vec Ideal S8x64x64 .f32) (ct : Vec Ideal S64x10 .f32) (b : Fin 8) (s : Fin 64) (g : Fin 10) :
    k0_pay26 (F := Ideal) (k0_pay2 x0) ct (ix3 b s g)
      = (∑ e : Fin 64, x0 (ix3 b s e) * x0 (ix3 b s e)) + (∑ e : Fin 64, ct (ix2 e g) * ct (ix2 e g)) := by
  have h2 : k0_pay2 (F := Ideal) x0 = x0 := shapeCast_self x0 _
  have h24 : k0_pay24 (F := Ideal) ct = ct := shapeCast_self ct _
  show broadcastTo S8x64x10 (shapeCast S8x64x1 (multiReduction .add [2] S8x64 (mulf (k0_pay2 x0) (k0_pay2 x0)) 0x00000000#32 reduces_S8x64x64_S8x64 (.inl rfl) rfl) shapeCasts_S8x64_S8x64x1) broadcasts_S8x64x1_S8x64x10 (ix3 b s g)
    + broadcastTo S8x64x10 (shapeCast S1x1x10 (multiReduction .add [0] S10 (mulf (k0_pay24 ct) (k0_pay24 ct)) 0x00000000#32 reduces_S64x10_S10 (.inl rfl) rfl) shapeCasts_S10_S1x1x10) broadcasts_S1x1x10_S8x64x10 (ix3 b s g) = _
  refine congrArg₂ (· + ·) ?_ ?_
  · -- the token's squared norm: the sum over the embedding axis, kept per token
    refine (keep_apply _ b s g).trans ?_
    refine (Ideal.multiReduction_add_single (mulf (k0_pay2 x0) (k0_pay2 x0)) _ reduces_S8x64x64_S8x64 (.inl rfl) rfl (ix2 b s)).trans ?_
    show ∑ e : Fin 64, mulf (k0_pay2 x0) (k0_pay2 x0) (reduces_S8x64x64_S8x64.lift (ix2 b s) e) = _
    refine Finset.sum_congr rfl fun e _ => ?_
    have hl : reduces_S8x64x64_S8x64.lift (ix2 b s) e = ix3 b s e := by
      funext d; apply Fin.ext
      fin_cases d <;> rfl
    rw [hl, h2]; rfl
  · -- the centre's squared norm: the sum over the rows of the transposed centres, one value per channel
    refine (broadcastTo_11c_abc_apply _ _ b s g).trans ?_
    refine (shapeCast_c_11c_apply _ _ 0 0 g).trans ?_
    refine (Ideal.multiReduction_add_single (mulf (k0_pay24 ct) (k0_pay24 ct)) _ reduces_S64x10_S10 (.inl rfl) rfl (ix1 g)).trans ?_
    show ∑ e : Fin 64, mulf (k0_pay24 ct) (k0_pay24 ct) (reduces_S64x10_S10.lift (ix1 g) e) = _
    refine Finset.sum_congr rfl fun e _ => ?_
    have hl : reduces_S64x10_S10.lift (ix1 g) e = ix2 e g := by
      funext d; apply Fin.ext
      fin_cases d <;> rfl
    rw [hl, h24]; rfl

/-- The inner product of token `(b, s)` with centre `g`: row `64 b + s` of the flattened embeddings times column `g`
    of the transposed centres. -/
theorem cross_apply (x0 : Vec Ideal S8x64x64 .f32) (ct : Vec Ideal S64x10 .f32) (b : Fin 8) (s : Fin 64) (g : Fin 10) :
    k0_pay25 (F := Ideal) (k0_pay4 x0) ct (ix3 b s g) = ∑ e : Fin 64, x0 (ix3 b s e) * ct (ix2 e g) := by
  have h2 : k0_pay2 (F := Ideal) x0 = x0 := shapeCast_self x0 _
  have h24 : k0_pay24 (F := Ideal) ct = ct := shapeCast_self ct _
  have hr : b.val * 64 + s.val < 512 := by have := b.isLt; have := s.isLt; omega
  show shapeCast S8x64x10 (matmul dot_S512x64_S64x10_S512x10_1_0_0_1_n_n none
      (truncf .bf16 (k0_pay4 x0) bitsLt_bf16_f32) (truncf .bf16 (k0_pay24 ct) bitsLt_bf16_f32)
      (constant S512x10 .f32 0x00000000#32)) shapeCasts_S512x10_S8x64x10 (ix3 b s g) = _
  -- position `(64 b + s) · 10 + g` on both sides of the cast
  refine (shapeCast_apply _ shapeCasts_S512x10_S8x64x10 (ix3 b s g) (ix2 (⟨b.val * 64 + s.val, hr⟩ : Fin 512) g) (by
    rw [Shape.rowMajor_val_two, Shape.rowMajor_val_three]
    show (b.val * 64 + s.val) * 10 + g.val = (b.val * 64 + s.val) * 10 + g.val
    rfl)).trans ?_
  refine (Cert.PlainMatmul.matmul_zero_apply dot_S512x64_S64x10_S512x10_1_0_0_1_n_n rfl rfl rfl rfl rfl rfl none _ _ _ g).trans ?_
  refine Finset.sum_congr rfl fun e _ => ?_
  refine congrArg₂ (· * ·) ?_ ?_
  · -- the narrowing is the identity; position `(64 b + s) · 64 + e` on both sides of the flattening cast
    show shapeCast S512x64 (k0_pay2 x0) shapeCasts_S8x64x64_S512x64 (ix2 (⟨b.val * 64 + s.val, hr⟩ : Fin 512) e) = _
    refine (shapeCast_apply _ shapeCasts_S8x64x64_S512x64 _ (ix3 b s e) (by
      rw [Shape.rowMajor_val_two, Shape.rowMajor_val_three]
      show (b.val * 64 + s.val) * 64 + e.val = (b.val * 64 + s.val) * 64 + e.val
      rfl)).trans ?_
    rw [h2]
  · show k0_pay24 ct (ix2 e g) = _
    rw [h24]

/-- The kernel's score of token `(b, s)` against centre `g` is minus their distance: zero minus a value is its
    negation. -/
theorem score_apply (x0 : Vec Ideal S8x64x64 .f32) (ct : Vec Ideal S64x10 .f32) (b : Fin 8) (s : Fin 64) (g : Fin 10) :
    scoreArr (k0_pay25 (k0_pay4 x0) ct) (k0_pay26 (k0_pay2 x0) ct) (k0_pay27 (F := Ideal)) (ix3 b s g)
      = Cert.Enc.negDist (fun g e => ct (ix2 e g)) (fun e => x0 (ix3 b s e)) g := by
  show Ideal.ofBits .f32 0x00000000#32
      - Ideal.sqrt (max (k0_pay26 (F := Ideal) (k0_pay2 x0) ct (ix3 b s g)
          - Ideal.ofBits .f32 0x40000000#32 * k0_pay25 (F := Ideal) (k0_pay4 x0) ct (ix3 b s g)) (Ideal.ofBits .f32 0x00000000#32))
    = -(Ideal.sqrt (max (((∑ e : Fin 64, x0 (ix3 b s e) * x0 (ix3 b s e)) + (∑ e : Fin 64, ct (ix2 e g) * ct (ix2 e g)))
          - Ideal.ofBits .f32 0x40000000#32 * (∑ e : Fin 64, x0 (ix3 b s e) * ct (ix2 e g))) 0))
  rw [sq_apply, cross_apply, Cert.Enc.Consts.ofBits_zero, zero_sub]

/-- The named reciprocal is the rational `1 / 2018`. -/
theorem inv_2018 : Named.named (F := Ideal) Cert.KernelIdeal.κ "inv_2018" (φ := .f32) 0x3A01E723#32 = ((1 / 2018 : ℝ) : EReal) :=
  IdealRules.named_const.ideal_named_scalar _ _ _ _ rfl

/-- At token `(b, s)` of the block and channel `f` the stored value is the frequency feature there plus the row's
    summed pair feature plus the token's cluster feature, times the named reciprocal of the 2018 stacked rows. -/
theorem outTerm_apply (cs : FVec Ideal S8x10 .f32) (fr : FVec Ideal S8x64x10 .f32) (x0 : Vec Ideal S8x64x64 .f32)
    (ct : Vec Ideal S64x10 .f32) (b : Fin 8) (s : Fin 64) (f : Fin 10) :
    outTerm (F := Ideal) cs fr x0 ct (ix3 b s f)
      = ((fr (ix3 b s f) + cs (ix2 b f)) + Cert.Enc.clusFeat (fun g e => ct (ix2 e g)) (fun e => x0 (ix3 b s e)) f)
          * ((1 / 2018 : ℝ) : EReal) := by
  unfold outTerm
  rw [pay1_eq]
  show ((fr (ix3 b s f)
        + broadcastTo S8x64x10 (shapeCast S8x1x10 cs shapeCasts_S8x10_S8x1x10) broadcasts_S8x1x10_S8x64x10 (ix3 b s f))
      + smChain (scoreArr (k0_pay25 (k0_pay4 x0) ct) (k0_pay26 (k0_pay2 x0) ct) (k0_pay27 (F := Ideal))) (ix3 b s f))
      * Named.named (F := Ideal) Cert.KernelIdeal.κ "inv_2018" (φ := .f32) 0x3A01E723#32 = _
  rw [inv_2018, smChain_apply, (broadcastTo_a1c_abc_apply _ _ b s f).trans (shapeCast_ac_a1c_apply cs _ b 0 f)]
  have hz : (fun g => scoreArr (k0_pay25 (k0_pay4 x0) ct) (k0_pay26 (k0_pay2 x0) ct) (k0_pay27 (F := Ideal)) (ix3 b s g))
      = Cert.Enc.negDist (fun g e => ct (ix2 e g)) (fun e => x0 (ix3 b s e)) := funext fun g => score_apply x0 ct b s g
  rw [hz]
  rfl

end Cert.KernelIdeal.KerClus

end
-- ==== Proof.KerOut.lean ====
/-
  What the kernel body leaves in the output block, read at a token of the block and a channel: the encoder's
  row result of the block's batch row, with the weights read where the body loads them.
-/
import proofs.«147268_j1460288880936_1_alg».proof.Proof.Gen.KernelIdeal.Frame
import proofs.«147268_j1460288880936_1_alg».proof.Proof.KerCombo
import proofs.«147268_j1460288880936_1_alg».proof.Proof.KerFreq
import proofs.«147268_j1460288880936_1_alg».proof.Proof.KerClus

noncomputable section

namespace Cert.KernelIdeal.KerOut

open Cert.KernelIdeal Cert.KernelIdeal.Gen Cert.KernelIdeal.KerTerms Idealize.ShloMosaic Idealize.ShloMosaic.ValueIdx

theorem zero3 : (![0, 0, 0] : Fin 3 → Nat) = fun _ => 0 := by funext a; fin_cases a <;> rfl
theorem zero2 : (![0, 0] : Fin 2 → Nat) = fun _ => 0 := by funext a; fin_cases a <;> rfl

/-- The upper 64 rows of the first pair layer, as the body loads them. -/
theorem ld_lo (x2 : Vec Ideal S128x64 .f32) (e d : Fin 64) :
    View.ld x2 r0_2 (ix2 e d) = x2 (ix2 (⟨e.val, by omega⟩ : Fin 128) d) := by
  show x2 (r0_2.emb (ix2 e d)) = _
  refine congrArg x2 (funext fun a => Fin.ext ?_)
  match a with
  | ⟨0, _⟩ => show 0 + 1 * e.val = e.val; omega
  | ⟨1, _⟩ => show 0 + 1 * d.val = d.val; omega

/-- The lower 64 rows of the first pair layer: the load starts at row 64. -/
theorem ld_hi (x2 : Vec Ideal S128x64 .f32) (e d : Fin 64) :
    View.ld x2 r0_3 (ix2 e d) = x2 (ix2 (⟨64 + e.val, by omega⟩ : Fin 128) d) := by
  show x2 (r0_3.emb (ix2 e d)) = _
  refine congrArg x2 (funext fun a => Fin.ext ?_)
  match a with
  | ⟨0, _⟩ => show 64 + 1 * e.val = 64 + e.val; omega
  | ⟨1, _⟩ => show 0 + 1 * d.val = d.val; omega

/-- The 64 rows of the first frequency layer that meet the embedding. -/
theorem ld_fE (x6 : Vec Ideal S65x64 .f32) (e d : Fin 64) :
    View.ld x6 r0_7 (ix2 e d) = x6 (ix2 (⟨e.val, by omega⟩ : Fin 65) d) := by
  show x6 (r0_7.emb (ix2 e d)) = _
  refine congrArg x6 (funext fun a => Fin.ext ?_)
  match a with
  | ⟨0, _⟩ => show 0 + 1 * e.val = e.val; omega
  | ⟨1, _⟩ => show 0 + 1 * d.val = d.val; omega

/-- Its last row, which meets the frequency: the one-row load starts at row 64. -/
theorem ld_ff (x6 : Vec Ideal S65x64 .f32) (d : Fin 64) :
    View.ld x6 r0_8 (ix2 (0 : Fin 1) d) = x6 (ix2 (⟨64, by omega⟩ : Fin 65) d) := by
  show x6 (r0_8.emb (ix2 (0 : Fin 1) d)) = _
  refine congrArg x6 (funext fun a => Fin.ext ?_)
  match a with
  | ⟨0, _⟩ => show 64 + 1 * 0 = 64; omega
  | ⟨1, _⟩ => show 0 + 1 * d.val = d.val; omega

/-- The body's one store covers the output block, and its loads of whole staging buffers read their contents: the
    block is the averaged sum of the three features of the loaded vectors. -/
theorem out_terms (x0 : Vec Ideal S8x64x64 .f32) (x1 : Vec Ideal S8x64 .f32) (x2 : Vec Ideal S128x64 .f32) (x3 : Vec Ideal S1x64 .f32)
    (x4 : Vec Ideal S64x10 .f32) (x5 : Vec Ideal S1x10 .f32) (x6 : Vec Ideal S65x64 .f32) (x7 : Vec Ideal S1x64 .f32)
    (x8 : Vec Ideal S64x10 .f32) (x9 : Vec Ideal S1x10 .f32) (x10 : Vec Ideal S64x10 .f32) :
    out0_11 (F := Ideal) x0 x1 x2 x3 x4 x5 x6 x7 x8 x9 x10
      = outTerm (comboTerm x0 (View.ld x2 r0_2) (View.ld x2 r0_3) x3 x4 x5)
          (freqTerm x0 x1 (View.ld x6 r0_7) (View.ld x6 r0_8) x7 x8 x9) x0 x10 := by
  unfold out0_11
  rw [View.canon_unit_zero zero3]
  simp only [View.ld_unit_zero (S := S8x64x64) zero3, View.ld_unit_zero (S := S8x64) zero2, View.ld_unit_zero (S := S1x64) zero2,
    View.ld_unit_zero (S := S64x10) zero2, View.ld_unit_zero (S := S1x10) zero2]
  rfl

/-- The output block at token `(b, s)` and channel `f` is the encoder's row result of the block's row `b`. -/
theorem out_apply (x0 : Vec Ideal S8x64x64 .f32) (x1 : Vec Ideal S8x64 .f32) (x2 : Vec Ideal S128x64 .f32) (x3 : Vec Ideal S1x64 .f32)
    (x4 : Vec Ideal S64x10 .f32) (x5 : Vec Ideal S1x10 .f32) (x6 : Vec Ideal S65x64 .f32) (x7 : Vec Ideal S1x64 .f32)
    (x8 : Vec Ideal S64x10 .f32) (x9 : Vec Ideal S1x10 .f32) (x10 : Vec Ideal S64x10 .f32) (b : Fin 8) (s : Fin 64) (f : Fin 10) :
    out0_11 (F := Ideal) x0 x1 x2 x3 x4 x5 x6 x7 x8 x9 x10 (ix3 b s f)
      = Cert.Enc.rowOut (fun e d => x2 (ix2 (⟨e.val, by omega⟩ : Fin 128) d)) (fun e d => x2 (ix2 (⟨64 + e.val, by omega⟩ : Fin 128) d))
          (fun d => x3 (ix2 (0 : Fin 1) d)) (fun d g => x4 (ix2 d g)) (fun g => x5 (ix2 (0 : Fin 1) g))
          (fun e d => x6 (ix2 (⟨e.val, by omega⟩ : Fin 65) d)) (fun d => x6 (ix2 (⟨64, by omega⟩ : Fin 65) d))
          (fun d => x7 (ix2 (0 : Fin 1) d)) (fun d g => x8 (ix2 d g)) (fun g => x9 (ix2 (0 : Fin 1) g))
          (fun g e => x10 (ix2 e g)) (fun i e => x0 (ix3 b i e)) (fun i => x1 (ix2 b i)) s f := by
  rw [out_terms, KerClus.outTerm_apply, KerFreq.freqTerm_apply, KerCombo.comboTerm_apply]
  have e1 : (fun (e d : Fin 64) => View.ld x6 r0_7 (ix2 e d)) = fun e d => x6 (ix2 (⟨e.val, by omega⟩ : Fin 65) d) :=
    funext fun e => funext fun d => ld_fE x6 e d
  have e2 : (fun d : Fin 64 => View.ld x6 r0_8 (ix2 (0 : Fin 1) d)) = fun d => x6 (ix2 (⟨64, by omega⟩ : Fin 65) d) :=
    funext fun d => ld_ff x6 d
  have e3 : (fun (e d : Fin 64) => View.ld x2 r0_2 (ix2 e d)) = fun e d => x2 (ix2 (⟨e.val, by omega⟩ : Fin 128) d) :=
    funext fun e => funext fun d => ld_lo x2 e d
  have e4 : (fun (e d : Fin 64) => View.ld x2 r0_3 (ix2 e d)) = fun e d => x2 (ix2 (⟨64 + e.val, by omega⟩ : Fin 128) d) :=
    funext fun e => funext fun d => ld_hi x2 e d
  rw [e1, e2, e3, e4]
  rfl

end Cert.KernelIdeal.KerOut

end
-- ==== Proof.KerHost.lean ====
/-
  What the kernel's host operations leave in the arrays its windows stage, as the region finds them: the gathered
  embeddings and frequencies as terms of the arguments, the four bias vectors as one-row arrays, the centres transposed.
-/
import proofs.«147268_j1460288880936_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KerHost

open Cert.KernelIdeal Cert.KernelIdeal.Gen Idealize.ShloMosaic Idealize.ShloMosaic.TcCoe Idealize.ShloMosaic.ValueIdx Idealize.ShloMosaic.StableHlo Idealize.SL.Sem

/-- Token ids with the negative ones wrapped around the vocabulary. -/
def wrapIds (a0 : IVec S256x64 32) : IVec S256x64 32 :=
  select (cmpi .slt a0 (broadcastInDim S256x64 ![] bcast_S_S256x64 (constantI S_ 32 0#32)))
    (addi a0 (broadcastInDim S256x64 ![] bcast_S_S256x64 (constantI S_ 32 100000#32))) a0

/-- The embedding rows of the tokens. -/
def kerEmb (a0 : IVec S256x64 32) (a1 : FVec Ideal S100000x64 .f32) : FVec Ideal S256x64x64 .f32 :=
  Host.gather gather_S100000x64_S256x64x1_S256x64x64_2_0_n_n_0_2_164 a1
    (broadcastInDim S256x64x1 ![0, 1] bcast_S256x64_S256x64x1_0_1 (wrapIds a0))

/-- The tokens' frequencies over the sample count. -/
def kerFreqs (a0 : IVec S256x64 32) (a11 : FVec Ideal S100000 .f32) (a12 : FVec Ideal S_ .f32) : FVec Ideal S256x64 .f32 :=
  Host.divf (Host.gather gather_S100000_S256x64x1_S256x64_n_0_n_n_0_2_1 a11
      (broadcastInDim S256x64x1 ![0, 1] bcast_S256x64_S256x64x1_0_1 (wrapIds a0)))
    (broadcastInDim S256x64 ![] bcast_S_S256x64 a12)

variable (m : (ℓ : Loc nD τ sig) → Buf (Elt Ideal) ℓ)

/-- The region finds the gathered embeddings in its first window's array. -/
theorem V_emb (c : Dev nD) : (V m c main_v6 : S256x64x64.Idx → EReal) = kerEmb (m ((c.tc : Thread nD τ).loc main_arg0)) (m ((c.tc : Thread nD τ).loc main_arg1)) := by
  dsimp only [V, hostOps0]
  after_results
  rfl

set_option maxHeartbeats 2000000 in
/-- The region finds the frequencies in its second window's array. -/
theorem V_freqs (c : Dev nD) : (V m c main_v15 : S256x64.Idx → EReal) = kerFreqs (m ((c.tc : Thread nD τ).loc main_arg0)) (m ((c.tc : Thread nD τ).loc main_arg11)) (m ((c.tc : Thread nD τ).loc main_arg12)) := by
  dsimp only [V, hostOps0]
  after_results
  rfl

/-- The first pair layer's bias as a one-row array. -/
theorem V_b1 (c : Dev nD) (d : Fin 64) : (V m c main_v16 : S1x64.Idx → EReal) (ix2 (0 : Fin 1) d) = (m ((c.tc : Thread nD τ).loc main_arg3)) (ix1 d) := by
  have e : (V m c main_v16 : S1x64.Idx → EReal) = shapeCast S1x64 ((m ((c.tc : Thread nD τ).loc main_arg3)) : FVec Ideal S64 .f32) shapeCasts_S64_S1x64 := by
    dsimp only [V, hostOps0]
    after_results
    rfl
  rw [e]
  exact shapeCast_a_1a_apply _ _ 0 d

/-- The second pair layer's bias as a one-row array. -/
theorem V_b2 (c : Dev nD) (g : Fin 10) : (V m c main_v17 : S1x10.Idx → EReal) (ix2 (0 : Fin 1) g) = (m ((c.tc : Thread nD τ).loc main_arg5)) (ix1 g) := by
  have e : (V m c main_v17 : S1x10.Idx → EReal) = shapeCast S1x10 ((m ((c.tc : Thread nD τ).loc main_arg5)) : FVec Ideal S10 .f32) shapeCasts_S10_S1x10 := by
    dsimp only [V, hostOps0]
    after_results
    rfl
  rw [e]
  exact shapeCast_a_1a_apply _ _ 0 g

/-- The first frequency layer's bias as a one-row array. -/
theorem V_fb1 (c : Dev nD) (d : Fin 64) : (V m c main_v18 : S1x64.Idx → EReal) (ix2 (0 : Fin 1) d) = (m ((c.tc : Thread nD τ).loc main_arg7)) (ix1 d) := by
  have e : (V m c main_v18 : S1x64.Idx → EReal) = shapeCast S1x64 ((m ((c.tc : Thread nD τ).loc main_arg7)) : FVec Ideal S64 .f32) shapeCasts_S64_S1x64 := by
    dsimp only [V, hostOps0]
    after_results
    rfl
  rw [e]
  exact shapeCast_a_1a_apply _ _ 0 d

/-- The second frequency layer's bias as a one-row array. -/
theorem V_fb2 (c : Dev nD) (g : Fin 10) : (V m c main_v19 : S1x10.Idx → EReal) (ix2 (0 : Fin 1) g) = (m ((c.tc : Thread nD τ).loc main_arg9)) (ix1 g) := by
  have e : (V m c main_v19 : S1x10.Idx → EReal) = shapeCast S1x10 ((m ((c.tc : Thread nD τ).loc main_arg9)) : FVec Ideal S10 .f32) shapeCasts_S10_S1x10 := by
    dsimp only [V, hostOps0]
    after_results
    rfl
  rw [e]
  exact shapeCast_a_1a_apply _ _ 0 g

/-- The centres transposed: entry `(e, g)` is centre `g`'s coordinate `e`. -/
theorem V_ct (c : Dev nD) (e : Fin 64) (g : Fin 10) : (V m c main_v20 : S64x10.Idx → EReal) (ix2 e g) = (m ((c.tc : Thread nD τ).loc main_arg10)) (ix2 g e) := by
  have h : (V m c main_v20 : S64x10.Idx → EReal) = transpose S64x10 [1, 0] ((m ((c.tc : Thread nD τ).loc main_arg10)) : FVec Ideal S10x64 .f32) transposes_S10x64_S64x10_1_0 := by
    dsimp only [V, hostOps0]
    after_results
  rw [h]
  exact transpose_ix2_apply _ _ e g

end Cert.KernelIdeal.KerHost

end
-- ==== Proof.KerValue.lean ====
/-
  The kernel's result array after the run: every grid point writes the block of eight batch rows it was given,
  each entry the encoder's row result of its batch row, and the 32 blocks tile the array.
-/
import proofs.«147268_j1460288880936_1_alg».proof.Proof.Gen.KernelIdeal.Value
import proofs.«147268_j1460288880936_1_alg».proof.Proof.KerOut
import proofs.«147268_j1460288880936_1_alg».proof.Proof.KerHost

noncomputable section

namespace Cert.KernelIdeal.KerValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps, decided over the 32 grid points: the embeddings', the frequencies' and the result's
    windows move one block along the batch axis per point; every weight window stays at its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_11.index t (0 : Fin 3) = t.val ∧ win0_11.index t (1 : Fin 3) = 0 ∧ win0_11.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

theorem t_lt (t : Fin cfg0.N) : t.val < 32 := lt_of_lt_of_eq t.isLt N_0

/-- The batch row that row `b` of point `t`'s block is. -/
def row (t : Fin cfg0.N) (b : Fin 8) : Fin 256 := ⟨8 * t.val + b.val, by have := t_lt t; omega⟩

/-- Row `b` of point `t`'s block of embeddings is batch row `8 t + b`. -/
theorem blk_emb (c : Dev nD) (t : Fin cfg0.N) (b : Fin 8) (i e : Fin 64) :
    iblk m c 0 t (ix3 b i e) = (V m c main_v6 : S256x64x64.Idx → EReal) (ix3 (row t b) i e) := by
  obtain ⟨h0a, h0b, h0c, h1a, h1b, hoa, hob, hoc, h2a, h2b, h3a, h3b, h4a, h4b, h5a, h5b, h6a, h6b, h7a, h7b, h8a, h8b, h9a, h9b, h10a, h10b⟩ := idx_facts t
  show (V m c main_v6 : S256x64x64.Idx → EReal) (((cfg0.win 0).blk t).view.emb (ix3 b i e)) = _
  refine congrArg _ (funext fun a => Fin.ext ?_)
  match a with
  | ⟨0, _⟩ => show win0_0.index t (0 : Fin 3) * 8 + 1 * b.val = 8 * t.val + b.val; omega
  | ⟨1, _⟩ => show win0_0.index t (1 : Fin 3) * 64 + 1 * i.val = i.val; omega
  | ⟨2, _⟩ => show win0_0.index t (2 : Fin 3) * 64 + 1 * e.val = e.val; omega

/-- Row `b` of point `t`'s block of frequencies is batch row `8 t + b`. -/
theorem blk_freqs (c : Dev nD) (t : Fin cfg0.N) (b : Fin 8) (i : Fin 64) :
    iblk m c 1 t (ix2 b i) = (V m c main_v15 : S256x64.Idx → EReal) (ix2 (row t b) i) := by
  obtain ⟨h0a, h0b, h0c, h1a, h1b, hoa, hob, hoc, h2a, h2b, h3a, h3b, h4a, h4b, h5a, h5b, h6a, h6b, h7a, h7b, h8a, h8b, h9a, h9b, h10a, h10b⟩ := idx_facts t
  show (V m c main_v15 : S256x64.Idx → EReal) (((cfg0.win 1).blk t).view.emb (ix2 b i)) = _
  refine congrArg _ (funext fun a => Fin.ext ?_)
  match a with
  | ⟨0, _⟩ => show win0_1.index t (0 : Fin 2) * 8 + 1 * b.val = 8 * t.val + b.val; omega
  | ⟨1, _⟩ => show win0_1.index t (1 : Fin 2) * 64 + 1 * i.val = i.val; omega

/-- Window 2's one block is its whole array. -/
theorem blk_w2 (c : Dev nD) (t : Fin cfg0.N) (k : Fin 128) (d : Fin 64) :
    iblk m c 2 t (ix2 k d) = (V m c main_arg2 : S128x64.Idx → EReal) (ix2 k d) := by
  obtain ⟨h0a, h0b, h0c, h1a, h1b, hoa, hob, hoc, h2a, h2b, h3a, h3b, h4a, h4b, h5a, h5b, h6a, h6b, h7a, h7b, h8a, h8b, h9a, h9b, h10a, h10b⟩ := idx_facts t
  show (V m c main_arg2 : S128x64.Idx → EReal) (((cfg0.win 2).blk t).view.emb (ix2 k d)) = _
  refine congrArg _ (funext fun a => Fin.ext ?_)
  match a with
  | ⟨0, _⟩ => show win0_2.index t (0 : Fin 2) * 128 + 1 * k.val = k.val; omega
  | ⟨1, _⟩ => show win0_2.index t (1 : Fin 2) * 64 + 1 * d.val = d.val; omega

/-- Window 3's one block is its whole array. -/
theorem blk_w3 (c : Dev nD) (t : Fin cfg0.N) (k : Fin 1) (d : Fin 64) :
    iblk m c 3 t (ix2 k d) = (V m c main_v16 : S1x64.Idx → EReal) (ix2 k d) := by
  obtain ⟨h0a, h0b, h0c, h1a, h1b, hoa, hob, hoc, h2a, h2b, h3a, h3b, h4a, h4b, h5a, h5b, h6a, h6b, h7a, h7b, h8a, h8b, h9a, h9b, h10a, h10b⟩ := idx_facts t
  show (V m c main_v16 : S1x64.Idx → EReal) (((cfg0.win 3).blk t).view.emb (ix2 k d)) = _
  refine congrArg _ (funext fun a => Fin.ext ?_)
  match a with
  | ⟨0, _⟩ => show win0_3.index t (0 : Fin 2) * 1 + 1 * k.val = k.val; omega
  | ⟨1, _⟩ => show win0_3.index t (1 : Fin 2) * 64 + 1 * d.val = d.val; omega

/-- Window 4's one block is its whole array. -/
theorem blk_w4 (c : Dev nD) (t : Fin cfg0.N) (k : Fin 64) (d : Fin 10) :
    iblk m c 4 t (ix2 k d) = (V m c main_arg4 : S64x10.Idx → EReal) (ix2 k d) := by
  obtain ⟨h0a, h0b, h0c, h1a, h1b, hoa, hob, hoc, h2a, h2b, h3a, h3b, h4a, h4b, h5a, h5b, h6a, h6b, h7a, h7b, h8a, h8b, h9a, h9b, h10a, h10b⟩ := idx_facts t
  show (V m c main_arg4 : S64x10.Idx → EReal) (((cfg0.win 4).blk t).view.emb (ix2 k d)) = _
  refine congrArg _ (funext fun a => Fin.ext ?_)
  match a with
  | ⟨0, _⟩ => show win0_4.index t (0 : Fin 2) * 64 + 1 * k.val = k.val; omega
  | ⟨1, _⟩ => show win0_4.index t (1 : Fin 2) * 10 + 1 * d.val = d.val; omega

/-- Window 5's one block is its whole array. -/
theorem blk_w5 (c : Dev nD) (t : Fin cfg0.N) (k : Fin 1) (d : Fin 10) :
    iblk m c 5 t (ix2 k d) = (V m c main_v17 : S1x10.Idx → EReal) (ix2 k d) := by
  obtain ⟨h0a, h0b, h0c, h1a, h1b, hoa, hob, hoc, h2a, h2b, h3a, h3b, h4a, h4b, h5a, h5b, h6a, h6b, h7a, h7b, h8a, h8b, h9a, h9b, h10a, h10b⟩ := idx_facts t
  show (V m c main_v17 : S1x10.Idx → EReal) (((cfg0.win 5).blk t).view.emb (ix2 k d)) = _
  refine congrArg _ (funext fun a => Fin.ext ?_)
  match a with
  | ⟨0, _⟩ => show win0_5.index t (0 : Fin 2) * 1 + 1 * k.val = k.val; omega
  | ⟨1, _⟩ => show win0_5.index t (1 : Fin 2) * 10 + 1 * d.val = d.val; omega

/-- Window 6's one block is its whole array. -/
theorem blk_w6 (c : Dev nD) (t : Fin cfg0.N) (k : Fin 65) (d : Fin 64) :
    iblk m c 6 t (ix2 k d) = (V m c main_arg6 : S65x64.Idx → EReal) (ix2 k d) := by
  obtain ⟨h0a, h0b, h0c, h1a, h1b, hoa, hob, hoc, h2a, h2b, h3a, h3b, h4a, h4b, h5a, h5b, h6a, h6b, h7a, h7b, h8a, h8b, h9a, h9b, h10a, h10b⟩ := idx_facts t
  show (V m c main_arg6 : S65x64.Idx → EReal) (((cfg0.win 6).blk t).view.emb (ix2 k d)) = _
  refine congrArg _ (funext fun a => Fin.ext ?_)
  match a with
  | ⟨0, _⟩ => show win0_6.index t (0 : Fin 2) * 65 + 1 * k.val = k.val; omega
  | ⟨1, _⟩ => show win0_6.index t (1 : Fin 2) * 64 + 1 * d.val = d.val; omega

/-- Window 7's one block is its whole array. -/
theorem blk_w7 (c : Dev nD) (t : Fin cfg0.N) (k : Fin 1) (d : Fin 64) :
    iblk m c 7 t (ix2 k d) = (V m c main_v18 : S1x64.Idx → EReal) (ix2 k d) := by
  obtain ⟨h0a, h0b, h0c, h1a, h1b, hoa, hob, hoc, h2a, h2b, h3a, h3b, h4a, h4b, h5a, h5b, h6a, h6b, h7a, h7b, h8a, h8b, h9a, h9b, h10a, h10b⟩ := idx_facts t
  show (V m c main_v18 : S1x64.Idx → EReal) (((cfg0.win 7).blk t).view.emb (ix2 k d)) = _
  refine congrArg _ (funext fun a => Fin.ext ?_)
  match a with
  | ⟨0, _⟩ => show win0_7.index t (0 : Fin 2) * 1 + 1 * k.val = k.val; omega
  | ⟨1, _⟩ => show win0_7.index t (1 : Fin 2) * 64 + 1 * d.val = d.val; omega

/-- Window 8's one block is its whole array. -/
theorem blk_w8 (c : Dev nD) (t : Fin cfg0.N) (k : Fin 64) (d : Fin 10) :
    iblk m c 8 t (ix2 k d) = (V m c main_arg8 : S64x10.Idx → EReal) (ix2 k d) := by
  obtain ⟨h0a, h0b, h0c, h1a, h1b, hoa, hob, hoc, h2a, h2b, h3a, h3b, h4a, h4b, h5a, h5b, h6a, h6b, h7a, h7b, h8a, h8b, h9a, h9b, h10a, h10b⟩ := idx_facts t
  show (V m c main_arg8 : S64x10.Idx → EReal) (((cfg0.win 8).blk t).view.emb (ix2 k d)) = _
  refine congrArg _ (funext fun a => Fin.ext ?_)
  match a with
  | ⟨0, _⟩ => show win0_8.index t (0 : Fin 2) * 64 + 1 * k.val = k.val; omega
  | ⟨1, _⟩ => show win0_8.index t (1 : Fin 2) * 10 + 1 * d.val = d.val; omega

/-- Window 9's one block is its whole array. -/
theorem blk_w9 (c : Dev nD) (t : Fin cfg0.N) (k : Fin 1) (d : Fin 10) :
    iblk m c 9 t (ix2 k d) = (V m c main_v19 : S1x10.Idx → EReal) (ix2 k d) := by
  obtain ⟨h0a, h0b, h0c, h1a, h1b, hoa, hob, hoc, h2a, h2b, h3a, h3b, h4a, h4b, h5a, h5b, h6a, h6b, h7a, h7b, h8a, h8b, h9a, h9b, h10a, h10b⟩ := idx_facts t
  show (V m c main_v19 : S1x10.Idx → EReal) (((cfg0.win 9).blk t).view.emb (ix2 k d)) = _
  refine congrArg _ (funext fun a => Fin.ext ?_)
  match a with
  | ⟨0, _⟩ => show win0_9.index t (0 : Fin 2) * 1 + 1 * k.val = k.val; omega
  | ⟨1, _⟩ => show win0_9.index t (1 : Fin 2) * 10 + 1 * d.val = d.val; omega

/-- Window 10's one block is its whole array. -/
theorem blk_w10 (c : Dev nD) (t : Fin cfg0.N) (k : Fin 64) (d : Fin 10) :
    iblk m c 10 t (ix2 k d) = (V m c main_v20 : S64x10.Idx → EReal) (ix2 k d) := by
  obtain ⟨h0a, h0b, h0c, h1a, h1b, hoa, hob, hoc, h2a, h2b, h3a, h3b, h4a, h4b, h5a, h5b, h6a, h6b, h7a, h7b, h8a, h8b, h9a, h9b, h10a, h10b⟩ := idx_facts t
  show (V m c main_v20 : S64x10.Idx → EReal) (((cfg0.win 10).blk t).view.emb (ix2 k d)) = _
  refine congrArg _ (funext fun a => Fin.ext ?_)
  match a with
  | ⟨0, _⟩ => show win0_10.index t (0 : Fin 2) * 64 + 1 * k.val = k.val; omega
  | ⟨1, _⟩ => show win0_10.index t (1 : Fin 2) * 10 + 1 * d.val = d.val; omega

/-- The encoder's result at batch row `B`, token `s`, channel `f`, of the argument arrays as launched. -/
def H (c : Dev nD) (B : Fin 256) (s : Fin 64) (f : Fin 10) : EReal :=
  Cert.Enc.rowOut (fun e d => (m ((c.tc : Thread nD τ).loc main_arg2) : S128x64.Idx → EReal) (ix2 (⟨e.val, by omega⟩ : Fin 128) d)) (fun e d => (m ((c.tc : Thread nD τ).loc main_arg2) : S128x64.Idx → EReal) (ix2 (⟨64 + e.val, by omega⟩ : Fin 128) d))
    (fun d => (m ((c.tc : Thread nD τ).loc main_arg3) : S64.Idx → EReal) (ix1 d)) (fun d g => (m ((c.tc : Thread nD τ).loc main_arg4) : S64x10.Idx → EReal) (ix2 d g)) (fun g => (m ((c.tc : Thread nD τ).loc main_arg5) : S10.Idx → EReal) (ix1 g))
    (fun e d => (m ((c.tc : Thread nD τ).loc main_arg6) : S65x64.Idx → EReal) (ix2 (⟨e.val, by omega⟩ : Fin 65) d)) (fun d => (m ((c.tc : Thread nD τ).loc main_arg6) : S65x64.Idx → EReal) (ix2 (⟨64, by omega⟩ : Fin 65) d))
    (fun d => (m ((c.tc : Thread nD τ).loc main_arg7) : S64.Idx → EReal) (ix1 d)) (fun d g => (m ((c.tc : Thread nD τ).loc main_arg8) : S64x10.Idx → EReal) (ix2 d g)) (fun g => (m ((c.tc : Thread nD τ).loc main_arg9) : S10.Idx → EReal) (ix1 g))
    (fun g e => (m ((c.tc : Thread nD τ).loc main_arg10) : S10x64.Idx → EReal) (ix2 g e))
    (fun i e => KerHost.kerEmb (m ((c.tc : Thread nD τ).loc main_arg0) : IVec S256x64 32) (m ((c.tc : Thread nD τ).loc main_arg1) : FVec Ideal S100000x64 .f32) (ix3 B i e))
    (fun i => KerHost.kerFreqs (m ((c.tc : Thread nD τ).loc main_arg0) : IVec S256x64 32) (m ((c.tc : Thread nD τ).loc main_arg11) : FVec Ideal S100000 .f32) (m ((c.tc : Thread nD τ).loc main_arg12) : FVec Ideal S_ .f32) (ix2 B i)) s f

/-- The whole result array: the encoder's result index by index. -/
def G (c : Dev nD) : S256x64x10.Idx → EReal := fun j => H m c (j 0) (j 1) (j 2)

/-- What point `t` leaves at row `b` of its output block is the encoder's result of batch row `8 t + b`: the body's
    block result, with each window's block read where it sits in its array and each array read as the host operations
    left it. -/
theorem point_eq (c : Dev nD) (t : Fin cfg0.N) (b : Fin 8) (s : Fin 64) (f : Fin 10) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 b s f) = H m c (row t b) s f := by
  refine (KerOut.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) b s f).trans ?_
  have e2lo : (fun (e d : Fin 64) => iblk m c 2 t (ix2 (⟨e.val, by omega⟩ : Fin 128) d))
      = fun e d => (m ((c.tc : Thread nD τ).loc main_arg2) : S128x64.Idx → EReal) (ix2 (⟨e.val, by omega⟩ : Fin 128) d) :=
    funext fun e => funext fun d => (blk_w2 m c t _ d).trans (congrFun (V_main_arg2 m c) _)
  have e2hi : (fun (e d : Fin 64) => iblk m c 2 t (ix2 (⟨64 + e.val, by omega⟩ : Fin 128) d))
      = fun e d => (m ((c.tc : Thread nD τ).loc main_arg2) : S128x64.Idx → EReal) (ix2 (⟨64 + e.val, by omega⟩ : Fin 128) d) :=
    funext fun e => funext fun d => (blk_w2 m c t _ d).trans (congrFun (V_main_arg2 m c) _)
  have e3 : (fun d : Fin 64 => iblk m c 3 t (ix2 (0 : Fin 1) d)) = fun d => (m ((c.tc : Thread nD τ).loc main_arg3) : S64.Idx → EReal) (ix1 d) :=
    funext fun d => (blk_w3 m c t 0 d).trans (KerHost.V_b1 m c d)
  have e4 : (fun (d : Fin 64) (g : Fin 10) => iblk m c 4 t (ix2 d g)) = fun d g => (m ((c.tc : Thread nD τ).loc main_arg4) : S64x10.Idx → EReal) (ix2 d g) :=
    funext fun d => funext fun g => (blk_w4 m c t d g).trans (congrFun (V_main_arg4 m c) _)
  have e5 : (fun g : Fin 10 => iblk m c 5 t (ix2 (0 : Fin 1) g)) = fun g => (m ((c.tc : Thread nD τ).loc main_arg5) : S10.Idx → EReal) (ix1 g) :=
    funext fun g => (blk_w5 m c t 0 g).trans (KerHost.V_b2 m c g)
  have e6a : (fun (e d : Fin 64) => iblk m c 6 t (ix2 (⟨e.val, by omega⟩ : Fin 65) d))
      = fun e d => (m ((c.tc : Thread nD τ).loc main_arg6) : S65x64.Idx → EReal) (ix2 (⟨e.val, by omega⟩ : Fin 65) d) :=
    funext fun e => funext fun d => (blk_w6 m c t _ d).trans (congrFun (V_main_arg6 m c) _)
  have e6b : (fun d : Fin 64 => iblk m c 6 t (ix2 (⟨64, by omega⟩ : Fin 65) d))
      = fun d => (m ((c.tc : Thread nD τ).loc main_arg6) : S65x64.Idx → EReal) (ix2 (⟨64, by omega⟩ : Fin 65) d) :=
    funext fun d => (blk_w6 m c t _ d).trans (congrFun (V_main_arg6 m c) _)
  have e7 : (fun d : Fin 64 => iblk m c 7 t (ix2 (0 : Fin 1) d)) = fun d => (m ((c.tc : Thread nD τ).loc main_arg7) : S64.Idx → EReal) (ix1 d) :=
    funext fun d => (blk_w7 m c t 0 d).trans (KerHost.V_fb1 m c d)
  have e8 : (fun (d : Fin 64) (g : Fin 10) => iblk m c 8 t (ix2 d g)) = fun d g => (m ((c.tc : Thread nD τ).loc main_arg8) : S64x10.Idx → EReal) (ix2 d g) :=
    funext fun d => funext fun g => (blk_w8 m c t d g).trans (congrFun (V_main_arg8 m c) _)
  have e9 : (fun g : Fin 10 => iblk m c 9 t (ix2 (0 : Fin 1) g)) = fun g => (m ((c.tc : Thread nD τ).loc main_arg9) : S10.Idx → EReal) (ix1 g) :=
    funext fun g => (blk_w9 m c t 0 g).trans (KerHost.V_fb2 m c g)
  have e10 : (fun (g : Fin 10) (e : Fin 64) => iblk m c 10 t (ix2 e g)) = fun g e => (m ((c.tc : Thread nD τ).loc main_arg10) : S10x64.Idx → EReal) (ix2 g e) :=
    funext fun g => funext fun e => (blk_w10 m c t e g).trans (KerHost.V_ct m c e g)
  have eE : (fun (i e : Fin 64) => iblk m c 0 t (ix3 b i e))
      = fun i e => KerHost.kerEmb (m ((c.tc : Thread nD τ).loc main_arg0) : IVec S256x64 32) (m ((c.tc : Thread nD τ).loc main_arg1) : FVec Ideal S100000x64 .f32) (ix3 (row t b) i e) :=
    funext fun i => funext fun e => (blk_emb m c t b i e).trans (congrFun (KerHost.V_emb m c) _)
  have eQ : (fun i : Fin 64 => iblk m c 1 t (ix2 b i))
      = fun i => KerHost.kerFreqs (m ((c.tc : Thread nD τ).loc main_arg0) : IVec S256x64 32) (m ((c.tc : Thread nD τ).loc main_arg11) : FVec Ideal S100000 .f32) (m ((c.tc : Thread nD τ).loc main_arg12) : FVec Ideal S_ .f32) (ix2 (row t b) i) :=
    funext fun i => (blk_freqs m c t b i).trans (congrFun (KerHost.V_freqs m c) _)
  unfold H
  rw [e2lo, e2hi, e3, e4, e5, e6a, e6b, e7, e8, e9, e10, eE, eQ]

/-- WHAT POINT `t` WRITES BACK is block `t` of the encoder's result array. -/
theorem flushed_eq (c : Dev nD) (t : Fin cfg0.N) :
    (dats m 0 c).flushed 11 t = ((cfg0.win 11).blk t).view.read (Elt Ideal) (G m c) := by
  rw [Value.flushed11]
  obtain ⟨h0a, h0b, h0c, h1a, h1b, hoa, hob, hoc, h2a, h2b, h3a, h3b, h4a, h4b, h5a, h5b, h6a, h6b, h7a, h7b, h8a, h8b, h9a, h9b, h10a, h10b⟩ := idx_facts t
  funext y
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y = G m c (((cfg0.win 11).blk t).view.emb y)
  refine ((congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (eq_ix3 y)).trans (point_eq m c t (y 0) (y 1) (y 2))).trans ?_
  show H m c (row t (y 0)) (y 1) (y 2) = H m c ((((cfg0.win 11).blk t).view.emb y) 0) ((((cfg0.win 11).blk t).view.emb y) 1) ((((cfg0.win 11).blk t).view.emb y) 2)
  have r0 : row t (y 0) = (((cfg0.win 11).blk t).view.emb y) 0 := Fin.ext (by
    show 8 * t.val + (y 0).val = win0_11.index t (0 : Fin 3) * 8 + 1 * (y 0).val; omega)
  have r1 : (y 1 : Fin 64) = (((cfg0.win 11).blk t).view.emb y) 1 := Fin.ext (by
    show (y 1).val = win0_11.index t (1 : Fin 3) * 64 + 1 * (y 1).val; omega)
  have r2 : (y 2 : Fin 10) = (((cfg0.win 11).blk t).view.emb y) 2 := Fin.ext (by
    show (y 2).val = win0_11.index t (2 : Fin 3) * 10 + 1 * (y 2).val; omega)
  rw [r0, r1, r2]

/-- An index of the result array is in point `t`'s block iff each coordinate is in the block's range on its axis. -/
theorem mem_blk (t : Fin cfg0.N) (i : S256x64x10.Idx) :
    i ∈ ((cfg0.win 11).blk t).view.set ↔ ∀ a : Fin 3, win0_11.index t a * S8x64x10.size a ≤ (i a).val ∧ (i a).val < win0_11.index t a * S8x64x10.size a + S8x64x10.size a := by
  show i ∈ ((View.whole main_v21).slice (win0_11.rect t)).set ↔ _
  rw [View.set_slice_whole, Rect.mem_set_unit]
  exact Iff.rfl

/-- Every index of the result array is in some point's block: batch row `r` is in point `r / 8`'s. -/
theorem cover (i : S256x64x10.Idx) :
    ∃ t : Fin cfg0.N, (cfg0.win 11).flush t = true ∧ i ∈ ((cfg0.win 11).blk t).view.set := by
  have hi0 : (i 0).val < 256 := (i 0).isLt
  have hi1 : (i 1).val < 64 := (i 1).isLt
  have hi2 : (i 2).val < 10 := (i 2).isLt
  have hN : (i 0).val / 8 < cfg0.N := lt_of_lt_of_eq (show (i 0).val / 8 < 32 by omega) N_0.symm
  refine ⟨⟨(i 0).val / 8, hN⟩, flush0_11 _, ?_⟩
  obtain ⟨-, -, -, -, -, ha, hb, hc, -⟩ := idx_facts ⟨(i 0).val / 8, hN⟩
  rw [mem_blk]
  intro a
  match a with
  | ⟨0, _⟩ => show win0_11.index ⟨(i 0).val / 8, hN⟩ (0 : Fin 3) * 8 ≤ (i 0).val ∧ (i 0).val < win0_11.index ⟨(i 0).val / 8, hN⟩ (0 : Fin 3) * 8 + 8; rw [ha]; show (i 0).val / 8 * 8 ≤ (i 0).val ∧ (i 0).val < (i 0).val / 8 * 8 + 8; omega
  | ⟨1, _⟩ => show win0_11.index ⟨(i 0).val / 8, hN⟩ (1 : Fin 3) * 64 ≤ (i 1).val ∧ (i 1).val < win0_11.index ⟨(i 0).val / 8, hN⟩ (1 : Fin 3) * 64 + 64; rw [hb]; omega
  | ⟨2, _⟩ => show win0_11.index ⟨(i 0).val / 8, hN⟩ (2 : Fin 3) * 10 ≤ (i 2).val ∧ (i 2).val < win0_11.index ⟨(i 0).val / 8, hN⟩ (2 : Fin 3) * 10 + 10; rw [hc]; omega

/-- THE ARRAY after the run is the encoder's result array. -/
theorem final (c : Dev nD) : (dats m 0 c).arrAt 11 cfg0.N = G m c :=
  (dats m 0 c).arrAt_eq_of_cover 11 (G m c) (fun t _ => flushed_eq m c t) cover

end Cert.KernelIdeal.KerValue

end
-- ==== Proof.RefTerm.lean ====
/-
  The reference's result as ONE term of its argument arrays, cut where its mathematics has joints:
  the gathered embeddings and frequencies, the pair feature summed over the listed pairs, the
  frequency feature, the scores and their softmax, and the closing average.
-/
import proofs.«147268_j1460288880936_1_alg».proof.Proof.Gen.ReferenceIdeal

noncomputable section

namespace Cert.ReferenceIdeal.RefTerm

open Cert.ReferenceIdeal Cert.ReferenceIdeal.Gen Idealize.ShloMosaic Idealize.SL.Sem

variable {F : FTy → Type} [FloatOps F]

/-- Token ids with the negative ones wrapped around the vocabulary. -/
def wrapIds (a0 : IVec S256x64 32) : IVec S256x64 32 :=
  select (cmpi .slt a0 (broadcastInDim S256x64 ![] bcast_S_S256x64 (constantI S_ 32 0#32)))
    (addi a0 (broadcastInDim S256x64 ![] bcast_S_S256x64 (constantI S_ 32 100000#32))) a0

/-- The embedding rows of the tokens. -/
def refEmb (a0 : IVec S256x64 32) (a1 : FVec F S100000x64 .f32) : FVec F S256x64x64 .f32 :=
  Host.gather gather_S100000x64_S256x64x1_S256x64x64_2_0_n_n_0_2_164 a1
    (broadcastInDim S256x64x1 ![0, 1] bcast_S256x64_S256x64x1_0_1 (wrapIds a0))

/-- The tokens' frequencies over the sample count. -/
def refFreqs (a0 : IVec S256x64 32) (a11 : FVec F S100000 .f32) (a12 : FVec F S_ .f32) : FVec F S256x64 .f32 :=
  Host.divf (Host.gather gather_S100000_S256x64x1_S256x64_n_0_n_n_0_2_1 a11
      (broadcastInDim S256x64x1 ![0, 1] bcast_S256x64_S256x64x1_0_1 (wrapIds a0)))
    (broadcastInDim S256x64 ![] bcast_S_S256x64 a12)

/-- A listed table of 2016 token positions as the gather's start indices. -/
def tableIdx (lit : Fin 2016 → BitVec 32) : IVec S2016x1 32 :=
  broadcastInDim S2016x1 ![0] bcast_S2016_S2016x1_0
    (select (constantI S2016 1 0#1)
      (addi (fun i => lit (S2016.rowMajor i)) (broadcastInDim S2016 ![] bcast_S_S2016 (constantI S_ 32 64#32)))
      (fun i => lit (S2016.rowMajor i)))

/-- The two tokens of each listed pair side by side. -/
def refPairs (E : FVec F S256x64x64 .f32) : FVec F S256x2016x128 .f32 :=
  concatenate S256x2016x128 2
    [⟨S256x2016x64, Host.gather gather_S256x64x64_S2016x1_S256x2016x64_02_1_n_n_1_1_256164 E (tableIdx lit0)⟩,
     ⟨S256x2016x64, Host.gather gather_S256x64x64_S2016x1_S256x2016x64_02_1_n_n_1_1_256164 E (tableIdx lit1)⟩]
    concatenates_S256x2016x64_S256x2016x64_S256x2016x128_d2

/-- The pair feature of every listed pair. -/
def refPairFeat (E : FVec F S256x64x64 .f32) (a2 : FVec F S128x64 .f32) (a3 : FVec F S64 .f32) (a4 : FVec F S64x10 .f32)
    (a5 : FVec F S10 .f32) : FVec F S256x2016x10 .f32 :=
  addf (Host.dotGeneral dot_S256x2016x64_S64x10_S256x2016x10_2_0_01_1_n_n none
      (maximumf
        (addf (Host.dotGeneral dot_S256x2016x128_S128x64_S256x2016x64_2_0_01_1_n_n none (refPairs E) a2)
          (broadcastInDim S256x2016x64 ![0, 1, 2] bcast_S1x1x64_S256x2016x64_0_1_2 (broadcastInDim S1x1x64 ![2] bcast_S64_S1x1x64_2 a3)))
        (broadcastInDim S256x2016x64 ![] bcast_S_S256x2016x64 (constant S_ .f32 0x00000000#32)))
      a4)
    (broadcastInDim S256x2016x10 ![0, 1, 2] bcast_S1x1x10_S256x2016x10_0_1_2 (broadcastInDim S1x1x10 ![2] bcast_S10_S1x1x10_2 a5))

/-- The pair feature summed over the listed pairs. -/
def refCombo (E : FVec F S256x64x64 .f32) (a2 : FVec F S128x64 .f32) (a3 : FVec F S64 .f32) (a4 : FVec F S64x10 .f32)
    (a5 : FVec F S10 .f32) : FVec F S256x10 .f32 :=
  Host.reduceAdd (refPairFeat E a2 a3 a4 a5) (constant S_ .f32 0x00000000#32) reducesTo_S256x2016x10_S256x10_d1 h_S_

/-- The frequency feature of every token. -/
def refFreqFeat (E : FVec F S256x64x64 .f32) (Q : FVec F S256x64 .f32) (a6 : FVec F S65x64 .f32) (a7 : FVec F S64 .f32)
    (a8 : FVec F S64x10 .f32) (a9 : FVec F S10 .f32) : FVec F S256x64x10 .f32 :=
  addf (Host.dotGeneral dot_S256x64x64_S64x10_S256x64x10_2_0_01_1_n_n none
      (maximumf
        (addf (Host.dotGeneral dot_S256x64x65_S65x64_S256x64x64_2_0_01_1_n_n none
            (concatenate S256x64x65 2
              [⟨S256x64x64, E⟩, ⟨S256x64x1, broadcastInDim S256x64x1 ![0, 1] bcast_S256x64_S256x64x1_0_1 Q⟩]
              concatenates_S256x64x64_S256x64x1_S256x64x65_d2) a6)
          (broadcastInDim S256x64x64 ![0, 1, 2] bcast_S1x1x64_S256x64x64_0_1_2 (broadcastInDim S1x1x64 ![2] bcast_S64_S1x1x64_2 a7)))
        (broadcastInDim S256x64x64 ![] bcast_S_S256x64x64 (constant S_ .f32 0x00000000#32)))
      a8)
    (broadcastInDim S256x64x10 ![0, 1, 2] bcast_S1x1x10_S256x64x10_0_1_2 (broadcastInDim S1x1x10 ![2] bcast_S10_S1x1x10_2 a9))

/-- Minus the distance of every token to every centre. -/
def refNegDist (E : FVec F S256x64x64 .f32) (a10 : FVec F S10x64 .f32) : FVec F S256x64x10 .f32 :=
  Host.negf (Host.sqrt (maximumf
    (subf
      (addf
        (broadcastInDim S256x64x10 ![0, 1, 2] bcast_S256x64x1_S256x64x10_0_1_2
          (broadcastInDim S256x64x1 ![0, 1] bcast_S256x64_S256x64x1_0_1
            (Host.reduceAdd (mulf E E) (constant S_ .f32 0x00000000#32) reducesTo_S256x64x64_S256x64_d2 h_S_)))
        (broadcastInDim S256x64x10 ![0, 1, 2] bcast_S1x1x10_S256x64x10_0_1_2
          (broadcastInDim S1x1x10 ![2] bcast_S10_S1x1x10_2
            (Host.reduceAdd (mulf a10 a10) (constant S_ .f32 0x00000000#32) reducesTo_S10x64_S10_d1 h_S_))))
      (mulf (broadcastInDim S256x64x10 ![] bcast_S_S256x64x10 (constant S_ .f32 0x40000000#32))
        (Host.dotGeneral dot_S256x64x64_S10x64_S256x64x10_2_1_01_0_n_n none E a10)))
    (broadcastInDim S256x64x10 ![] bcast_S_S256x64x10 (constant S_ .f32 0x00000000#32))))

/-- The scores' maximum over the centres, from minus infinity. -/
def refMax (z : FVec F S256x64x10 .f32) : FVec F S256x64 .f32 :=
  maximumf (broadcastInDim S256x64 ![] bcast_S_S256x64 (constant S_ .f32 0xFF800000#32))
    (Host.reduce FloatOps.maximumf z (constant S_ .f32 0xFF800000#32) reducesTo_S256x64x10_S256x64_d2 h_S_)

/-- The exponentials of the shifted scores. -/
def refExp (z : FVec F S256x64x10 .f32) : FVec F S256x64x10 .f32 :=
  Host.exp (subf z (broadcastInDim S256x64x10 ![0, 1, 2] bcast_S256x64x1_S256x64x10_0_1_2
    (broadcastInDim S256x64x1 ![0, 1] bcast_S256x64_S256x64x1_0_1 (refMax z))))

/-- The softmax over the centres. -/
def refSoftmax (z : FVec F S256x64x10 .f32) : FVec F S256x64x10 .f32 :=
  Host.divf (refExp z) (broadcastInDim S256x64x10 ![0, 1, 2] bcast_S256x64x1_S256x64x10_0_1_2
    (broadcastInDim S256x64x1 ![0, 1] bcast_S256x64_S256x64x1_0_1
      (Host.reduceAdd (refExp z) (constant S_ .f32 0x00000000#32) reducesTo_S256x64x10_S256x64_d2 h_S_)))

/-- The three features added, the pair sum repeated over the tokens, over the count of stacked rows. -/
def refFinal (v47 : FVec F S256x64x10 .f32) (v27 : FVec F S256x10 .f32) (v75 : FVec F S256x64x10 .f32) : FVec F S256x64x10 .f32 :=
  Host.divf
    (addf (addf v47 (broadcastInDim S256x64x10 ![0, 1, 2] bcast_S256x1x10_S256x64x10_0_1_2
      (broadcastInDim S256x1x10 ![0, 2] bcast_S256x10_S256x1x10_0_2 v27))) v75)
    (broadcastInDim S256x64x10 ![] bcast_S_S256x64x10 (constant S_ .f32 0x44FC4000#32))

/-- The reference's result of its thirteen arguments. -/
def refOut (a0 : IVec S256x64 32) (a1 : FVec F S100000x64 .f32) (a2 : FVec F S128x64 .f32) (a3 : FVec F S64 .f32)
    (a4 : FVec F S64x10 .f32) (a5 : FVec F S10 .f32) (a6 : FVec F S65x64 .f32) (a7 : FVec F S64 .f32) (a8 : FVec F S64x10 .f32)
    (a9 : FVec F S10 .f32) (a10 : FVec F S10x64 .f32) (a11 : FVec F S100000 .f32) (a12 : FVec F S_ .f32) : FVec F S256x64x10 .f32 :=
  refFinal (refFreqFeat (refEmb a0 a1) (refFreqs a0 a11 a12) a6 a7 a8 a9) (refCombo (refEmb a0 a1) a2 a3 a4 a5)
    (refSoftmax (refNegDist (refEmb a0 a1) a10))

end Cert.ReferenceIdeal.RefTerm

end
-- ==== Proof.Tables.lean ====
/-
  The two listed tables of the reference: entry `p` of the first is the smaller and of the second the larger
  token position of the `p`-th pair `i < j` of 64 positions, and every such pair is listed exactly once.
-/
import proofs.«147268_j1460288880936_1_alg».proof.ReferenceIdeal
import Mathlib.Algebra.BigOperators.Fin

noncomputable section

namespace Cert.ReferenceIdeal.Tables

open Cert.ReferenceIdeal Idealize.ShloMosaic

/-- The first token of listed pair `p`. -/
def iu (p : Fin 2016) : Fin 64 := ⟨(lit0 p).toNat % 64, Nat.mod_lt _ (by decide)⟩

/-- The second token of listed pair `p`. -/
def ju (p : Fin 2016) : Fin 64 := ⟨(lit1 p).toNat % 64, Nat.mod_lt _ (by decide)⟩

/-- The place of the pair `i < j` in the row-major list of all such pairs of 64 positions: the `i` rows before
    row `i` hold `63 + 62 + … + (64 - i) = i (127 - i) / 2` pairs, and `j` is entry `j - i - 1` of row `i`. -/
def posN (i j : Nat) : Nat := i * (127 - i) / 2 + (j - i - 1)

/-- The same place as an index of the tables (the remainder only clamps pairs that are not `i < j`). -/
def pos (i j : Fin 64) : Fin 2016 := ⟨posN i.val j.val % 2016, Nat.mod_lt _ (by decide)⟩

/-- Every entry of the tables is a pair `i < j` of positions below 64 and sits at that pair's row-major place:
    checked entry by entry. -/
theorem listed : ∀ p, p < 2016 → (lit0t p).toNat < 64 ∧ (lit1t p).toNat < 64 ∧
    (lit0t p).toNat < (lit1t p).toNat ∧ posN (lit0t p).toNat (lit1t p).toNat = p := by
  decide +kernel

/-- Every pair `i < j` of positions below 64 is the entry at its row-major place: checked pair by pair. -/
theorem placed : ∀ i, i < 64 → ∀ j, j < 64 → i < j →
    posN i j < 2016 ∧ (lit0t (posN i j)).toNat = i ∧ (lit1t (posN i j)).toNat = j := by
  decide +kernel

/-- The position `iu` reads off the first table, as a number. -/
theorem iu_val (p : Nat) (hp : p < 2016) : (iu ⟨p, hp⟩).val = (lit0t p).toNat % 64 := rfl

/-- The position `ju` reads off the second table, as a number. -/
theorem ju_val (p : Nat) (hp : p < 2016) : (ju ⟨p, hp⟩).val = (lit1t p).toNat % 64 := rfl

/-- The first table's word at `p` is the position `iu p`. -/
theorem lit0_eq (p : Fin 2016) : lit0 p = BitVec.ofNat 32 (iu p).val := by
  obtain ⟨p, hp⟩ := p
  obtain ⟨h0, -, -, -⟩ := listed p hp
  apply BitVec.eq_of_toNat_eq
  -- a word below 64 is its own remainder by 64 and by 2 ^ 32
  rw [BitVec.toNat_ofNat, iu_val, Nat.mod_eq_of_lt h0, Nat.mod_eq_of_lt (by omega)]

/-- The second table's word at `p` is the position `ju p`. -/
theorem lit1_eq (p : Fin 2016) : lit1 p = BitVec.ofNat 32 (ju p).val := by
  obtain ⟨p, hp⟩ := p
  obtain ⟨-, h1, -, -⟩ := listed p hp
  apply BitVec.eq_of_toNat_eq
  rw [BitVec.toNat_ofNat, ju_val, Nat.mod_eq_of_lt h1, Nat.mod_eq_of_lt (by omega)]

/-- A sum over the listed pairs is the sum over all pairs of positions `i < j`. -/
theorem sum_pairs {M : Type} [AddCommMonoid M] (g : Fin 64 → Fin 64 → M) :
    ∑ p : Fin 2016, g (iu p) (ju p) = ∑ i : Fin 64, ∑ j : Fin 64, if i < j then g i j else 0 := by
  -- the double sum with the test `i < j` is the sum over the set of pairs `i < j`
  have hR : (∑ i : Fin 64, ∑ j : Fin 64, if i < j then g i j else 0)
      = ∑ x ∈ (Finset.univ ×ˢ Finset.univ : Finset (Fin 64 × Fin 64)).filter (fun x => x.1 < x.2),
          g x.1 x.2 := by
    rw [Finset.sum_filter, Finset.sum_product]
  rw [hR]
  -- `p ↦ (iu p, ju p)` and `(i, j) ↦ pos i j` are inverse bijections between the entries and those pairs
  refine Finset.sum_nbij' (fun p => (iu p, ju p)) (fun x => pos x.1 x.2) ?_ ?_ ?_ ?_ ?_
  · intro p _
    obtain ⟨p, hp⟩ := p
    obtain ⟨h0, h1, hlt, -⟩ := listed p hp
    refine Finset.mem_filter.2 ⟨Finset.mem_product.2 ⟨Finset.mem_univ _, Finset.mem_univ _⟩, ?_⟩
    show (iu ⟨p, hp⟩).val < (ju ⟨p, hp⟩).val
    rw [iu_val, ju_val, Nat.mod_eq_of_lt h0, Nat.mod_eq_of_lt h1]
    exact hlt
  · intro x _
    exact Finset.mem_univ _
  · intro p _
    obtain ⟨p, hp⟩ := p
    obtain ⟨h0, h1, -, hpos⟩ := listed p hp
    apply Fin.ext
    show posN (iu ⟨p, hp⟩).val (ju ⟨p, hp⟩).val % 2016 = p
    rw [iu_val, ju_val, Nat.mod_eq_of_lt h0, Nat.mod_eq_of_lt h1, hpos, Nat.mod_eq_of_lt hp]
  · intro x hx
    obtain ⟨i, j⟩ := x
    have hij : i.val < j.val := (Finset.mem_filter.1 hx).2
    obtain ⟨hb, e0, e1⟩ := placed i.val i.isLt j.val j.isLt hij
    have hm : posN i.val j.val % 2016 = posN i.val j.val := Nat.mod_eq_of_lt hb
    refine Prod.ext (Fin.ext ?_) (Fin.ext ?_)
    · show (iu ⟨posN i.val j.val % 2016, _⟩).val = i.val
      rw [iu_val, hm, e0, Nat.mod_eq_of_lt i.isLt]
    · show (ju ⟨posN i.val j.val % 2016, _⟩).val = j.val
      rw [ju_val, hm, e1, Nat.mod_eq_of_lt j.isLt]
  · intro p _
    rfl

end Cert.ReferenceIdeal.Tables

end
-- ==== Proof.LibSumHalves.lean ====
/-
  A finite sum split at a position.

  A sum over `w = p + q` positions, taken in their natural order, is the sum over the first `p` positions plus the sum
  over the last `q`, the latter read at `p + k`. It holds in any commutative additive monoid, so on the extended reals
  it needs no finiteness. It is the law behind a matrix product whose left operand is two arrays laid side by side: the
  product is the sum of the two products with the matching row ranges of the right operand.
-/
import Mathlib.Algebra.BigOperators.Fin

namespace Idealize.ShloMosaic.SumHalves

open scoped BigOperators

/-- A sum over `w = p + q` positions is the sum over the first `p` plus the sum over the last `q`. -/
theorem sum_two_halves {M : Type} [AddCommMonoid M] {p q w : ℕ} (h : p + q = w) (f : Fin w → M) :
    ∑ k : Fin w, f k
      = ∑ k : Fin p, f ⟨k.val, by have := k.isLt; omega⟩ + ∑ k : Fin q, f ⟨p + k.val, by have := k.isLt; omega⟩ := by
  subst h
  rw [Fin.sum_univ_add]
  rfl

end Idealize.ShloMosaic.SumHalves
-- ==== Proof.RefCombo.lean ====
/-
  The reference's pair feature summed over its listed pairs, read at a batch row and a channel.
-/
import proofs.«147268_j1460288880936_1_alg».proof.Proof.RefTerm
import proofs.«147268_j1460288880936_1_alg».proof.Proof.Tables
import proofs.«147268_j1460288880936_1_alg».proof.Proof.Spec
import proofs.«147268_j1460288880936_1_alg».proof.Proof.Consts
import proofs.«147268_j1460288880936_1_alg».proof.Proof.LibSumHalves
import Idealize.ShloMosaic.PureOps.Ideal.Laws
import Idealize.ShloMosaic.Lib.ValueIdx
import Idealize.ShloMosaic.Lib.Pipeline.Value

noncomputable section

namespace Cert.ReferenceIdeal.RefCombo

open Cert.ReferenceIdeal Cert.ReferenceIdeal.Gen Cert.ReferenceIdeal.RefTerm Idealize.ShloMosaic Idealize.ShloMosaic.ValueIdx
open scoped BigOperators

/-! ## A gather of whole slices along the middle axis of a three-axis operand

An operand `[B, N, K]` gathered at start indices `[P, 1]` with offset axes 0 and 2, the operand's axis 1 collapsed and
start-indexed, slice sizes `[B, 1, K]`: result element `(b, p, e)` is the operand at `(b, idx[p, 0], e)`, the start
index read signed and clamped into `[0, N - 1]`. -/

section Gather
variable {α : Type}

/-- An element of a list equal to a listed one, at a position known by value. -/
private theorem getElem_of_eq {β : Type} {l l' : List β} (hl : l = l') (i k : Nat) (h : i < l.length) (hk : i = k) (h' : k < l'.length) :
    l[i]'h = l'[k]'h' := by
  subst hl; subst hk; rfl

/-- An element of a one-element list is that element, whatever the position. -/
private theorem getElem_of_eq_singleton {β : Type} {l : List β} {a : β} (hl : l = [a]) (i : Nat) (h : i < l.length) :
    l[i]'h = a := by
  subst hl
  have hi : i = 0 := by simpa using h
  subst hi
  rfl

/-- Result element `(b, p, e)` is the operand at row `b`, the clamped start index of pair `p`, and column `e`. -/
theorem gather_mid_apply {B N K P w : Nat} (hN : 0 < N)
    (d : GatherDims ⟨3, ![B, N, K]⟩ ⟨2, ![P, 1]⟩ ⟨3, ![B, P, K]⟩)
    (hoff : d.offsetDims = [0, 2]) (hcoll : d.collapsedSliceDims = [1]) (hob : d.operandBatchingDims = [])
    (hsim : d.startIndexMap = [1]) (hivd : d.indexVectorDim = 1)
    (x : (⟨3, ![B, N, K]⟩ : Shape).Idx → α) (idx : IVec ⟨2, ![P, 1]⟩ w) (b : Fin B) (p : Fin P) (e : Fin K) :
    Host.gather d x idx (ix3 b p e)
      = x (ix3 b (⟨min (idx (ix2 p (0 : Fin 1))).toInt.toNat (N - 1), by omega⟩ : Fin N) e) := by
  unfold Host.gather
  congr 1
  funext a
  apply Fin.ext
  have hb : ∀ a : Fin 3, a ∉ d.operandBatchingDims := fun a => by rw [hob]; exact List.not_mem_nil
  have hsk : d.sKept = [0, 2] := by
    show (⟨3, ![B, N, K]⟩ : Shape).kept (d.collapsedSliceDims ++ d.operandBatchingDims) = [0, 2]
    rw [hcoll, hob]; rfl
  match a with
  | ⟨0, _⟩ =>
    -- an offset axis: start zero, the result's coordinate on its first offset axis
    have hk : (0 : Fin 3) ∈ d.sKept := by rw [hsk]; simp
    have hm : (0 : Fin 3) ∉ d.startIndexMap := by rw [hsim]; simp
    show d.start (ix3 b p e) idx 0 + d.batchCoord (ix3 b p e) 0 + d.offCoord (ix3 b p e) 0 = b.val
    rw [GatherDims.batchCoord_eq_zero _ _ _ (hb 0)]
    unfold GatherDims.start GatherDims.offCoord
    rw [dif_neg hm, dif_pos hk]
    have key : ∀ q : Fin 3, q = 0 → ((ix3 b p e) q).val = b.val := fun q h => by subst h; rfl
    have : d.offsetDims[List.idxOf (0 : Fin 3) d.sKept]'(by rw [d.offset_length]; exact List.idxOf_lt_length_iff.2 hk) = 0 :=
      getElem_of_eq hoff _ 0 _ (by rw [hsk]; rfl) (by simp)
    rw [key _ this]
    omega
  | ⟨1, _⟩ =>
    -- the collapsed, start-indexed axis: the clamped start index, no batching and no offset coordinate
    have hk : (1 : Fin 3) ∉ d.sKept := by rw [hsk]; simp
    have hm : (1 : Fin 3) ∈ d.startIndexMap := by rw [hsim]; exact List.mem_singleton.mpr rfl
    have hsl : d.sliceSizes 1 = 1 := d.slice_collapsed 1 (by rw [hcoll]; exact List.mem_singleton.mpr rfl)
    show d.start (ix3 b p e) idx 1 + d.batchCoord (ix3 b p e) 1 + d.offCoord (ix3 b p e) 1 = _
    rw [GatherDims.batchCoord_eq_zero _ _ _ (hb 1), GatherDims.offCoord_eq_zero _ _ _ hk]
    simp only [Nat.add_zero]
    unfold GatherDims.start
    rw [dif_pos hm]
    show min (idx _).toInt.toNat (N - d.sliceSizes 1) = min (idx (ix2 p (0 : Fin 1))).toInt.toNat (N - 1)
    rw [hsl]
    congr 3
    congr 1
    funext c
    match c with
    | ⟨0, _⟩ =>
      -- the start indices' axis 0 is read at the result's one batch axis, axis 1
      unfold GatherDims.siIdx
      rw [dif_neg (by rw [hivd]; simp)]
      unfold GatherDims.siCoord
      apply Fin.ext
      simp only [Fin.val_cast]
      have hbd : d.batchDims = [1] := by
        show (⟨3, ![B, P, K]⟩ : Shape).kept d.offsetDims = [1]
        rw [hoff]; rfl
      have key : ∀ q : Fin 3, q = 1 → ((ix3 b p e) q).val = p.val := fun q h => by subst h; rfl
      exact key _ (getElem_of_eq_singleton hbd _ _)
    | ⟨1, _⟩ =>
      unfold GatherDims.siIdx
      rw [dif_pos (by rw [hivd])]
      apply Fin.ext
      show List.idxOf (1 : Fin 3) d.startIndexMap = 0
      rw [hsim]; simp
  | ⟨2, _⟩ =>
    -- the other offset axis: start zero, the result's coordinate on its second offset axis
    have hk : (2 : Fin 3) ∈ d.sKept := by rw [hsk]; simp
    have hm : (2 : Fin 3) ∉ d.startIndexMap := by rw [hsim]; simp
    show d.start (ix3 b p e) idx 2 + d.batchCoord (ix3 b p e) 2 + d.offCoord (ix3 b p e) 2 = e.val
    rw [GatherDims.batchCoord_eq_zero _ _ _ (hb 2)]
    unfold GatherDims.start GatherDims.offCoord
    rw [dif_neg hm, dif_pos hk]
    have key : ∀ q : Fin 3, q = 2 → ((ix3 b p e) q).val = e.val := fun q h => by subst h; rfl
    have : d.offsetDims[List.idxOf (2 : Fin 3) d.sKept]'(by rw [d.offset_length]; exact List.idxOf_lt_length_iff.2 hk) = 2 :=
      getElem_of_eq hoff _ 1 _ (by rw [hsk]; rfl) (by simp)
    rw [key _ this]
    omega

end Gather

/-! ## A three-axis array times a matrix, contracting the last axis with the first

For dimension numbers that contract the left operand's axis 2 with the right operand's axis 0, keep the left operand's
axes 0 and 1 and the right operand's axis 1 as the result's three axes in that order, and have no batch axis, the
product has at `(b, p, v)` the entry `Σ_k lhs[b, p, k] · rhs[k, v]`. -/

section Dot
variable {B P K N : ℕ} (d : DotDims ⟨3, ![B, P, K]⟩ ⟨2, ![K, N]⟩ ⟨3, ![B, P, N]⟩)

/-- The left operand's first coordinate is the result's first: the first kept axis, no batch axis before it. -/
theorem lhs_ax0 (hb : d.lhsBatch = []) (hn : d.lhsNonContracting = [0, 1]) (j : (⟨3, ![B, P, N]⟩ : Shape).Idx) (k : d.contr.Idx) :
    (d.lhsIdx j k 0).val = (j 0).val := by
  unfold DotDims.lhsIdx
  rw [dif_neg (by rw [hb]; exact List.not_mem_nil), dif_pos (by rw [hn]; simp)]
  simp only [Fin.val_cast]
  have key : ∀ (q : Nat) (hq : q < 3), q = 0 → (j ⟨q, hq⟩).val = (j 0).val := fun q hq h => by subst h; rfl
  exact key _ _ (by rw [hb, hn]; rfl)

/-- The left operand's second coordinate is the result's second: the second kept axis. -/
theorem lhs_ax1 (hb : d.lhsBatch = []) (hn : d.lhsNonContracting = [0, 1]) (j : (⟨3, ![B, P, N]⟩ : Shape).Idx) (k : d.contr.Idx) :
    (d.lhsIdx j k 1).val = (j 1).val := by
  unfold DotDims.lhsIdx
  rw [dif_neg (by rw [hb]; exact List.not_mem_nil), dif_pos (by rw [hn]; simp)]
  simp only [Fin.val_cast]
  have key : ∀ (q : Nat) (hq : q < 3), q = 1 → (j ⟨q, hq⟩).val = (j 1).val := fun q hq h => by subst h; rfl
  exact key _ _ (by rw [hb, hn]; rfl)

/-- The right operand's column coordinate is the result's third: its one kept axis comes after the left operand's two. -/
theorem rhs_ax1 (hlb : d.lhsBatch = []) (hrb : d.rhsBatch = []) (hln : d.lhsNonContracting = [0, 1])
    (hrn : d.rhsNonContracting = [1]) (j : (⟨3, ![B, P, N]⟩ : Shape).Idx) (k : d.contr.Idx) :
    (d.rhsIdx j k 1).val = (j 2).val := by
  unfold DotDims.rhsIdx
  rw [dif_neg (by rw [hrb]; exact List.not_mem_nil), dif_pos (by rw [hrn]; exact List.mem_singleton.mpr rfl)]
  simp only [Fin.val_cast]
  have key : ∀ (q : Nat) (hq : q < 3), q = 2 → (j ⟨q, hq⟩).val = (j 2).val := fun q hq h => by subst h; rfl
  exact key _ _ (by rw [hlb, hln, hrn]; rfl)

/-- THE ENTRY: at `(b, p, v)` the sum over `k` of `lhs[b, p, k] · rhs[k, v]`. -/
theorem dot3_apply {φ₁ φ₂ : FTy} (hlb : d.lhsBatch = []) (hrb : d.rhsBatch = []) (hln : d.lhsNonContracting = [0, 1])
    (hrn : d.rhsNonContracting = [1]) (hlc : d.lhsContracting = [2]) (hrc : d.rhsContracting = [0])
    (prec : Option ContractPrecision) (sched : HostSchedule) (lhs : FVec Ideal ⟨3, ![B, P, K]⟩ φ₁) (rhs : FVec Ideal ⟨2, ![K, N]⟩ φ₂)
    (b : Fin B) (p : Fin P) (v : Fin N) :
    FloatOps.dotGeneral d prec sched lhs rhs (ix3 b p v) = ∑ k : Fin K, lhs (ix3 b p k) * rhs (ix2 k v) := by
  rw [Ideal.dotGeneral_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix3 b p v) ((contrEquiv1 d K hr hs).symm k) = ix3 b p k := by
    funext ax; apply Fin.ext
    match ax with
    | ⟨0, _⟩ => exact lhs_ax0 d hlb hln _ _
    | ⟨1, _⟩ => exact lhs_ax1 d hlb hln _ _
    | ⟨2, _⟩ => exact (d.lhsIdx_val_of_single hlc _ _).trans (contrEquiv1_symm_val d K hr hs k)
  have e2 : d.rhsIdx (ix3 b p v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_ax1 d hlb hrb hln hrn _ _
  rw [e1, e2]

end Dot

/-! ## Biases and the zero splat at an index -/

section Broadcasts
variable {α : Type}

/-- A vector laid along the last axis of `[1, 1, N]` and repeated over `[B, P, N]` reads, at `(b, p, v)`, its
    entry `v`. -/
theorem bias_apply {B P N : ℕ} (h1 : (⟨1, ![N]⟩ : Shape).BroadcastsInDim ⟨3, ![1, 1, N]⟩ ![2])
    (h2 : (⟨3, ![1, 1, N]⟩ : Shape).BroadcastsInDim ⟨3, ![B, P, N]⟩ ![0, 1, 2]) (x : (⟨1, ![N]⟩ : Shape).Idx → α)
    (b : Fin B) (p : Fin P) (v : Fin N) :
    broadcastInDim ⟨3, ![B, P, N]⟩ ![0, 1, 2] h2 (broadcastInDim ⟨3, ![1, 1, N]⟩ ![2] h1 x) (ix3 b p v) = x (ix1 v) := by
  refine (broadcastInDim_apply ![0, 1, 2] h2 _ (ix3 b p v) (ix3 (0 : Fin 1) (0 : Fin 1) v) ?_).trans
    (broadcastInDim_apply ![2] h1 x (ix3 (0 : Fin 1) (0 : Fin 1) v) (ix1 v) ?_)
  · intro a
    match a with
    | ⟨0, _⟩ =>
      show (0 : ℕ) = if (1 : ℕ) = 1 then 0 else _
      simp
    | ⟨1, _⟩ =>
      show (0 : ℕ) = if (1 : ℕ) = 1 then 0 else _
      simp
    | ⟨2, _⟩ =>
      show v.val = if N = 1 then 0 else v.val
      split
      · have := v.isLt; omega
      · rfl
  · intro a
    match a with
    | ⟨0, _⟩ =>
      show v.val = if N = 1 then 0 else v.val
      split
      · have := v.isLt; omega
      · rfl

/-- A scalar repeated over any shape reads the scalar everywhere. -/
theorem scalar_apply {T : Shape} (h : (⟨0, ![]⟩ : Shape).BroadcastsInDim T ![]) (x : (⟨0, ![]⟩ : Shape).Idx → α) (j : T.Idx) :
    broadcastInDim T ![] h x j = x ix0 := by
  unfold broadcastInDim; exact congrArg x (funext fun a => a.elim0)

end Broadcasts

/-! ## The reference's term, joint by joint -/

/-- The table as start indices: entry `(p, 0)` is the table's word `p`. The select's mask is false everywhere, so the
    table itself is taken, and position `p` of a one-axis array is its own row-major position. -/
theorem tableIdx_apply (lit : Fin 2016 → BitVec 32) (p : Fin 2016) : tableIdx lit (ix2 p (0 : Fin 1)) = lit p := by
  unfold tableIdx
  refine (broadcastInDim_apply ![0] bcast_S2016_S2016x1_0 _ (ix2 p (0 : Fin 1)) (ix1 p) ?_).trans ?_
  · intro a
    match a with
    | ⟨0, _⟩ =>
      show p.val = if (2016 : ℕ) = 1 then 0 else p.val
      rw [if_neg (by decide)]
  · refine (select_apply _ _ _ _).trans ?_
    refine (select_zero _ _).trans ?_
    have h : (S2016.rowMajor (ix1 p) : Fin 2016) = p := Fin.ext (Shape.rowMajor_val_one (ix1 p))
    exact congrArg lit h

/-- A word spelling a position below 64, read signed and clamped into `[0, 63]`, is that position. -/
private theorem clamp_ofNat (n : ℕ) (h : n < 64) : min (BitVec.ofNat 32 n).toInt.toNat (64 - 1) = n := by
  have h1 : (BitVec.ofNat 32 n).toNat = n := by
    rw [BitVec.toNat_ofNat]; exact Nat.mod_eq_of_lt (by omega)
  have h2 : (BitVec.ofNat 32 n).toInt = (n : Int) := by
    rw [BitVec.toInt_eq_toNat_of_lt (by rw [h1]; omega), h1]
  rw [h2, Int.toNat_natCast]
  omega

/-- The gather at a table whose word `p` spells the token position `t p`: element `(b, p, e)` is the embedding of
    row `b`'s token `t p` at `e` (the clamp is the identity on a position below 64). -/
theorem gatherTok_apply (E : FVec Ideal S256x64x64 .f32) (lit : Fin 2016 → BitVec 32) (t : Fin 2016 → Fin 64)
    (hlit : ∀ p, lit p = BitVec.ofNat 32 (t p).val) (b : Fin 256) (p : Fin 2016) (e : Fin 64) :
    Host.gather gather_S256x64x64_S2016x1_S256x2016x64_02_1_n_n_1_1_256164 E (tableIdx lit) (ix3 b p e) = E (ix3 b (t p) e) := by
  refine (gather_mid_apply (by decide) gather_S256x64x64_S2016x1_S256x2016x64_02_1_n_n_1_1_256164 rfl rfl rfl rfl rfl E
    (tableIdx lit) b p e).trans (congrArg (fun q => E (ix3 b q e)) (Fin.ext ?_))
  show min (tableIdx lit (ix2 p (0 : Fin 1))).toInt.toNat (64 - 1) = (t p).val
  rw [tableIdx_apply, hlit]
  exact clamp_ofNat _ (t p).isLt

/-- The two tokens side by side, first half: position `e` below 64 is the pair's first token at `e`. -/
theorem refPairs_lo (E : FVec Ideal S256x64x64 .f32) (b : Fin 256) (p : Fin 2016) (e : Fin 64) :
    refPairs E (ix3 b p (⟨e.val, by omega⟩ : Fin 128)) = E (ix3 b (Tables.iu p) e) := by
  unfold refPairs
  refine (concatenate_pair_apply_left (t := S256x2016x128) (s₁ := S256x2016x64) (s₂ := S256x2016x64) (2 : Fin 3) _ _ concatenates_S256x2016x64_S256x2016x64_S256x2016x128_d2
    (ix3 b p (⟨e.val, by omega⟩ : Fin 128)) rfl (ix3 b p e) ?_).trans (gatherTok_apply E lit0 Tables.iu Tables.lit0_eq b p e)
  intro c
  match c with
  | ⟨0, _⟩ => rfl
  | ⟨1, _⟩ => rfl
  | ⟨2, _⟩ => rfl

/-- The two tokens side by side, second half: position `64 + e` is the pair's second token at `e`. -/
theorem refPairs_hi (E : FVec Ideal S256x64x64 .f32) (b : Fin 256) (p : Fin 2016) (e : Fin 64) :
    refPairs E (ix3 b p (⟨64 + e.val, by omega⟩ : Fin 128)) = E (ix3 b (Tables.ju p) e) := by
  unfold refPairs
  refine (concatenate_pair_apply_right (t := S256x2016x128) (s₁ := S256x2016x64) (s₂ := S256x2016x64) (2 : Fin 3) _ _ concatenates_S256x2016x64_S256x2016x64_S256x2016x128_d2
    (ix3 b p (⟨64 + e.val, by omega⟩ : Fin 128)) rfl rfl (ix3 b p e) ?_ ?_).trans
    (gatherTok_apply E lit1 Tables.ju Tables.lit1_eq b p e)
  · intro c hc
    match c with
    | ⟨0, _⟩ => rfl
    | ⟨1, _⟩ => rfl
    | ⟨2, _⟩ => exact absurd rfl hc
  · show e.val + 64 = 64 + e.val
    omega

/-- The first layer's product at `(b, p, d)`: the 128-term sum splits into the half that meets the first token and the
    half that meets the second. -/
theorem firstDot_apply (E : FVec Ideal S256x64x64 .f32) (a2 : FVec Ideal S128x64 .f32) (b : Fin 256) (p : Fin 2016) (d : Fin 64) :
    Host.dotGeneral dot_S256x2016x128_S128x64_S256x2016x64_2_0_01_1_n_n none (refPairs E) a2 (ix3 b p d)
      = Cert.Enc.proj (fun (e : Fin 64) (d : Fin 64) => a2 (ix2 (⟨e.val, by omega⟩ : Fin 128) d)) (fun e => E (ix3 b (Tables.iu p) e)) d
        + Cert.Enc.proj (fun (e : Fin 64) (d : Fin 64) => a2 (ix2 (⟨64 + e.val, by omega⟩ : Fin 128) d)) (fun e => E (ix3 b (Tables.ju p) e)) d := by
  refine (dot3_apply dot_S256x2016x128_S128x64_S256x2016x64_2_0_01_1_n_n rfl rfl rfl rfl rfl rfl none .single (refPairs E) a2 b p d).trans ?_
  refine (SumHalves.sum_two_halves (p := 64) (q := 64) (w := 128) rfl _).trans ?_
  refine congrArg₂ (· + ·) (Finset.sum_congr rfl fun k _ => ?_) (Finset.sum_congr rfl fun k _ => ?_)
  · exact congrArg (· * _) (refPairs_lo E b p k)
  · exact congrArg (· * _) (refPairs_hi E b p k)

/-- The pair feature of listed pair `p` of row `b` at channel `f` is the pair perceptron of the pair's two tokens. -/
theorem refPairFeat_apply (E : FVec Ideal S256x64x64 .f32) (a2 : FVec Ideal S128x64 .f32) (a3 : FVec Ideal S64 .f32)
    (a4 : FVec Ideal S64x10 .f32) (a5 : FVec Ideal S10 .f32) (b : Fin 256) (p : Fin 2016) (f : Fin 10) :
    refPairFeat E a2 a3 a4 a5 (ix3 b p f)
      = Cert.Enc.pairFeat (fun (e : Fin 64) (d : Fin 64) => a2 (ix2 (⟨e.val, by omega⟩ : Fin 128) d))
          (fun (e : Fin 64) (d : Fin 64) => a2 (ix2 (⟨64 + e.val, by omega⟩ : Fin 128) d))
          (fun d => a3 (ix1 d)) (fun d g => a4 (ix2 d g)) (fun g => a5 (ix1 g))
          (fun e => E (ix3 b (Tables.iu p) e)) (fun e => E (ix3 b (Tables.ju p) e)) f := by
  unfold refPairFeat
  refine (addf_apply _ _ _).trans ?_
  refine congrArg₂ (· + ·) ?_ (bias_apply bcast_S10_S1x1x10_2 bcast_S1x1x10_S256x2016x10_0_1_2 a5 b p f)
  refine (dot3_apply dot_S256x2016x64_S64x10_S256x2016x10_2_0_01_1_n_n rfl rfl rfl rfl rfl rfl none .single _ a4 b p f).trans ?_
  refine Finset.sum_congr rfl fun k _ => congrArg (· * _) ?_
  refine (maximumf_apply _ _ _).trans ?_
  refine congrArg₂ max ?_ ?_
  · refine (addf_apply _ _ _).trans ?_
    exact congrArg₂ (· + ·) (firstDot_apply E a2 b p k) (bias_apply bcast_S64_S1x1x64_2 bcast_S1x1x64_S256x2016x64_0_1_2 a3 b p k)
  · exact (scalar_apply bcast_S_S256x2016x64 _ _).trans Cert.Enc.Consts.ofBits_zero

/-- At a batch row `b` and channel `f` the reference's summed pair feature is the sum over the pairs `i < j` of the
    row's tokens of the pair perceptron, its first layer split into the halves that meet each token. -/
theorem refCombo_apply (E : FVec Ideal S256x64x64 .f32) (a2 : FVec Ideal S128x64 .f32) (a3 : FVec Ideal S64 .f32)
    (a4 : FVec Ideal S64x10 .f32) (a5 : FVec Ideal S10 .f32) (b : Fin 256) (f : Fin 10) :
    refCombo E a2 a3 a4 a5 (ix2 b f)
      = Cert.Enc.comboSum (fun e d => a2 (ix2 (⟨e.val, by omega⟩ : Fin 128) d)) (fun e d => a2 (ix2 (⟨64 + e.val, by omega⟩ : Fin 128) d))
          (fun d => a3 (ix1 d)) (fun d g => a4 (ix2 d g)) (fun g => a5 (ix1 g)) (fun i e => E (ix3 b i e)) f := by
  -- the reduction over the pair axis is the zero word plus the sum over the listed pairs
  have hR : S256x2016x10.Reduces [1] S256x10 := by decide
  refine (Ideal.hostReduceAdd_single reducesTo_S256x2016x10_S256x10_d1 hR (refPairFeat E a2 a3 a4 a5)
    (Ideal.ofBits .f32 0x00000000#32) (ix2 b f)).trans ?_
  rw [Cert.Enc.Consts.ofBits_zero, zero_add]
  -- every pair `i < j` of positions is listed exactly once
  refine Eq.trans ?_ (Tables.sum_pairs (fun i j =>
    Cert.Enc.pairFeat (fun (e : Fin 64) (d : Fin 64) => a2 (ix2 (⟨e.val, by omega⟩ : Fin 128) d))
      (fun (e : Fin 64) (d : Fin 64) => a2 (ix2 (⟨64 + e.val, by omega⟩ : Fin 128) d))
      (fun d => a3 (ix1 d)) (fun d g => a4 (ix2 d g)) (fun g => a5 (ix1 g))
      (fun e => E (ix3 b i e)) (fun e => E (ix3 b j e)) f))
  refine Finset.sum_congr rfl fun p _ => ?_
  -- the source index over `(b, f)` with pair coordinate `p` is `(b, p, f)`
  have hl : hR.lift (ix2 b f) p = ix3 b p f :=
    funext fun c => Fin.ext (match c with | ⟨0, _⟩ => rfl | ⟨1, _⟩ => rfl | ⟨2, _⟩ => rfl)
  rw [hl]
  exact refPairFeat_apply E a2 a3 a4 a5 b p f

end Cert.ReferenceIdeal.RefCombo

end
-- ==== Proof.RefFreqClus.lean ====
/-
  The reference's frequency feature, its cluster feature and its closing average, each read at an index.
-/
import proofs.«147268_j1460288880936_1_alg».proof.Proof.RefTerm
import proofs.«147268_j1460288880936_1_alg».proof.Proof.Spec
import proofs.«147268_j1460288880936_1_alg».proof.Proof.Consts
import Idealize.ShloMosaic.PureOps.Ideal.Laws
import Idealize.ShloMosaic.Lib.ValueIdx
import Idealize.ShloMosaic.Lib.Pipeline.Value

noncomputable section

namespace Cert.ReferenceIdeal.RefFreqClus

open Cert.ReferenceIdeal Cert.ReferenceIdeal.Gen Cert.ReferenceIdeal.RefTerm Idealize.ShloMosaic Idealize.ShloMosaic.ValueIdx

/-! ## A product of a three-axis array with a matrix, read at an index

The left operand `[B, S, K]` is contracted on its last axis; its two leading axes are the result's two leading axes and
the right operand's kept axis is the result's last. -/

section Dot
variable {B S K N : ℕ} {sr : Shape} (d : DotDims ⟨3, ![B, S, K]⟩ sr ⟨3, ![B, S, N]⟩)

/-- The left operand's first coordinate is the result's first. -/
theorem lhs_c0 (hb : d.lhsBatch = []) (hn : d.lhsNonContracting = [0, 1]) (j : (⟨3, ![B, S, N]⟩ : Shape).Idx) (k : d.contr.Idx) :
    (d.lhsIdx j k 0).val = (j 0).val := by
  unfold DotDims.lhsIdx
  rw [dif_neg (by rw [hb]; exact List.not_mem_nil), dif_pos (by rw [hn]; exact List.mem_cons_self)]
  simp only [Fin.val_cast]
  have key : ∀ (p : Nat) (hp : p < 3), p = 0 → (j ⟨p, hp⟩).val = (j 0).val := fun p hp h => by subst h; rfl
  exact key _ _ (by simp [hb, hn])

/-- The left operand's second coordinate is the result's second. -/
theorem lhs_c1 (hb : d.lhsBatch = []) (hn : d.lhsNonContracting = [0, 1]) (j : (⟨3, ![B, S, N]⟩ : Shape).Idx) (k : d.contr.Idx) :
    (d.lhsIdx j k 1).val = (j 1).val := by
  unfold DotDims.lhsIdx
  rw [dif_neg (by rw [hb]; exact List.not_mem_nil), dif_pos (by rw [hn]; simp)]
  simp only [Fin.val_cast]
  have key : ∀ (p : Nat) (hp : p < 3), p = 1 → (j ⟨p, hp⟩).val = (j 1).val := fun p hp h => by subst h; rfl
  exact key _ _ (by simp [hb, hn])

end Dot

section DotRhs
variable {B S K N : ℕ}

/-- Contracted with the first axis of a `[K, N]` matrix: the matrix's column coordinate is the result's last. -/
theorem rhs_col (d : DotDims ⟨3, ![B, S, K]⟩ ⟨2, ![K, N]⟩ ⟨3, ![B, S, N]⟩) (hlb : d.lhsBatch = []) (hrb : d.rhsBatch = [])
    (hln : d.lhsNonContracting = [0, 1]) (hrn : d.rhsNonContracting = [1]) (j : (⟨3, ![B, S, N]⟩ : Shape).Idx) (k : d.contr.Idx) :
    (d.rhsIdx j k 1).val = (j 2).val := by
  unfold DotDims.rhsIdx
  rw [dif_neg (by rw [hrb]; exact List.not_mem_nil), dif_pos (by rw [hrn]; exact List.mem_singleton.mpr rfl)]
  simp only [Fin.val_cast]
  have key : ∀ (p : Nat) (hp : p < 3), p = 2 → (j ⟨p, hp⟩).val = (j 2).val := fun p hp h => by subst h; rfl
  exact key _ _ (by simp [hlb, hln, hrn])

/-- Contracted with the second axis of an `[N, K]` matrix: the matrix's row coordinate is the result's last. -/
theorem rhs_row (d : DotDims ⟨3, ![B, S, K]⟩ ⟨2, ![N, K]⟩ ⟨3, ![B, S, N]⟩) (hlb : d.lhsBatch = []) (hrb : d.rhsBatch = [])
    (hln : d.lhsNonContracting = [0, 1]) (hrn : d.rhsNonContracting = [0]) (j : (⟨3, ![B, S, N]⟩ : Shape).Idx) (k : d.contr.Idx) :
    (d.rhsIdx j k 0).val = (j 2).val := by
  unfold DotDims.rhsIdx
  rw [dif_neg (by rw [hrb]; exact List.not_mem_nil), dif_pos (by rw [hrn]; exact List.mem_singleton.mpr rfl)]
  simp only [Fin.val_cast]
  have key : ∀ (p : Nat) (hp : p < 3), p = 2 → (j ⟨p, hp⟩).val = (j 2).val := fun p hp h => by subst h; rfl
  exact key _ _ (by simp [hlb, hln, hrn])

/-- THE ENTRY of `[B, S, K]` times `[K, N]` at `(b, s, v)`: the sum over `k` of `lhs[b, s, k] · rhs[k, v]`. -/
theorem dot_KN_apply {φ₁ φ₂ : FTy} (d : DotDims ⟨3, ![B, S, K]⟩ ⟨2, ![K, N]⟩ ⟨3, ![B, S, N]⟩) (hlb : d.lhsBatch = [])
    (hrb : d.rhsBatch = []) (hln : d.lhsNonContracting = [0, 1]) (hrn : d.rhsNonContracting = [1]) (hlc : d.lhsContracting = [2])
    (hrc : d.rhsContracting = [0]) (prec : Option ContractPrecision) (lhs : FVec Ideal ⟨3, ![B, S, K]⟩ φ₁)
    (rhs : FVec Ideal ⟨2, ![K, N]⟩ φ₂) (b : Fin B) (s : Fin S) (v : Fin N) :
    Host.dotGeneral d prec lhs rhs (ix3 b s v) = ∑ k : Fin K, lhs (ix3 b s k) * rhs (ix2 k v) := by
  show FloatOps.dotGeneral d prec .single lhs rhs (ix3 b s v) = _
  rw [Ideal.dotGeneral_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix3 b s v) ((contrEquiv1 d K hr hs).symm k) = ix3 b s k := by
    funext ax; apply Fin.ext
    match ax with
    | ⟨0, _⟩ => exact lhs_c0 d hlb hln _ _
    | ⟨1, _⟩ => exact lhs_c1 d hlb hln _ _
    | ⟨2, _⟩ => exact (d.lhsIdx_val_of_single hlc _ _).trans (contrEquiv1_symm_val d K hr hs k)
  have e2 : d.rhsIdx (ix3 b s v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

/-- THE ENTRY of `[B, S, K]` times the transpose of `[N, K]` at `(b, s, v)`: the sum over `k` of `lhs[b, s, k] · rhs[v, k]`. -/
theorem dot_NK_apply {φ₁ φ₂ : FTy} (d : DotDims ⟨3, ![B, S, K]⟩ ⟨2, ![N, K]⟩ ⟨3, ![B, S, N]⟩) (hlb : d.lhsBatch = [])
    (hrb : d.rhsBatch = []) (hln : d.lhsNonContracting = [0, 1]) (hrn : d.rhsNonContracting = [0]) (hlc : d.lhsContracting = [2])
    (hrc : d.rhsContracting = [1]) (prec : Option ContractPrecision) (lhs : FVec Ideal ⟨3, ![B, S, K]⟩ φ₁)
    (rhs : FVec Ideal ⟨2, ![N, K]⟩ φ₂) (b : Fin B) (s : Fin S) (v : Fin N) :
    Host.dotGeneral d prec lhs rhs (ix3 b s v) = ∑ k : Fin K, lhs (ix3 b s k) * rhs (ix2 v k) := by
  show FloatOps.dotGeneral d prec .single lhs rhs (ix3 b s v) = _
  rw [Ideal.dotGeneral_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix3 b s v) ((contrEquiv1 d K hr hs).symm k) = ix3 b s k := by
    funext ax; apply Fin.ext
    match ax with
    | ⟨0, _⟩ => exact lhs_c0 d hlb hln _ _
    | ⟨1, _⟩ => exact lhs_c1 d hlb hln _ _
    | ⟨2, _⟩ => exact (d.lhsIdx_val_of_single hlc _ _).trans (contrEquiv1_symm_val d K hr hs k)
  have e2 : d.rhsIdx (ix3 b s v) ((contrEquiv1 d K hr hs).symm k) = ix2 v k := by
    funext ax; apply Fin.ext
    match ax with
    | ⟨0, _⟩ => exact rhs_row d hlb hrb hln hrn _ _
    | ⟨1, _⟩ => exact (d.rhsIdx_val_of_single hrc _ _).trans (contrEquiv1_symm_val d K hr hs k)
  rw [e1, e2]

end DotRhs

/-! ## Repeated arrays read at an index -/

section Broadcasts
variable {α : Type} {B S N : ℕ}

/-- A scalar repeated over any shape reads the scalar. -/
theorem scalar_apply {T : Shape} (h : (⟨0, ![]⟩ : Shape).BroadcastsInDim T ![]) (x : (⟨0, ![]⟩ : Shape).Idx → α) (j : T.Idx) :
    broadcastInDim T ![] h x j = x ix0 := by
  unfold broadcastInDim; exact congrArg x (funext fun a => a.elim0)

/-- A vector `[N]` laid along the last axis and repeated over the two leading axes reads, at `(b, s, f)`, its entry `f`. -/
theorem bias_apply (h2 : (⟨1, ![N]⟩ : Shape).BroadcastsInDim ⟨3, ![1, 1, N]⟩ ![2])
    (h1 : (⟨3, ![1, 1, N]⟩ : Shape).BroadcastsInDim ⟨3, ![B, S, N]⟩ ![0, 1, 2]) (v : (⟨1, ![N]⟩ : Shape).Idx → α)
    (b : Fin B) (s : Fin S) (f : Fin N) :
    broadcastInDim ⟨3, ![B, S, N]⟩ ![0, 1, 2] h1 (broadcastInDim ⟨3, ![1, 1, N]⟩ ![2] h2 v) (ix3 b s f) = v (ix1 f) := by
  refine (broadcastInDim_apply _ h1 _ (ix3 b s f) (ix3 (0 : Fin 1) (0 : Fin 1) f) fun a => ?_).trans ?_
  · match a with
    | ⟨0, _⟩ => rfl
    | ⟨1, _⟩ => rfl
    | ⟨2, _⟩ =>
      show f.val = if N = 1 then 0 else f.val
      split
      · have := f.isLt; omega
      · rfl
  · refine broadcastInDim_apply _ h2 v _ (ix1 f) fun a => ?_
    match a with
    | ⟨0, _⟩ =>
      show f.val = if N = 1 then 0 else f.val
      split
      · have := f.isLt; omega
      · rfl

/-- A `[B, S]` array given a trailing unit axis reads, at `(b, s, u)`, its entry `(b, s)`. -/
theorem keep1_apply (h2 : (⟨2, ![B, S]⟩ : Shape).BroadcastsInDim ⟨3, ![B, S, 1]⟩ ![0, 1]) (v : (⟨2, ![B, S]⟩ : Shape).Idx → α)
    (b : Fin B) (s : Fin S) (u : Fin 1) :
    broadcastInDim ⟨3, ![B, S, 1]⟩ ![0, 1] h2 v (ix3 b s u) = v (ix2 b s) := by
  refine broadcastInDim_apply _ h2 v _ (ix2 b s) fun a => ?_
  match a with
  | ⟨0, _⟩ =>
    show b.val = if B = 1 then 0 else b.val
    split
    · have := b.isLt; omega
    · rfl
  | ⟨1, _⟩ =>
    show s.val = if S = 1 then 0 else s.val
    split
    · have := s.isLt; omega
    · rfl

/-- A `[B, S]` array given a trailing unit axis and repeated along it reads, at `(b, s, f)`, its entry `(b, s)`. -/
theorem keep_apply (h2 : (⟨2, ![B, S]⟩ : Shape).BroadcastsInDim ⟨3, ![B, S, 1]⟩ ![0, 1])
    (h1 : (⟨3, ![B, S, 1]⟩ : Shape).BroadcastsInDim ⟨3, ![B, S, N]⟩ ![0, 1, 2]) (v : (⟨2, ![B, S]⟩ : Shape).Idx → α)
    (b : Fin B) (s : Fin S) (f : Fin N) :
    broadcastInDim ⟨3, ![B, S, N]⟩ ![0, 1, 2] h1 (broadcastInDim ⟨3, ![B, S, 1]⟩ ![0, 1] h2 v) (ix3 b s f) = v (ix2 b s) := by
  refine (broadcastInDim_apply _ h1 _ (ix3 b s f) (ix3 b s (0 : Fin 1)) fun a => ?_).trans (keep1_apply h2 v b s 0)
  match a with
  | ⟨0, _⟩ =>
    show b.val = if B = 1 then 0 else b.val
    split
    · have := b.isLt; omega
    · rfl
  | ⟨1, _⟩ =>
    show s.val = if S = 1 then 0 else s.val
    split
    · have := s.isLt; omega
    · rfl
  | ⟨2, _⟩ => rfl

/-- A `[B, N]` array given a middle unit axis and repeated along it reads, at `(b, s, f)`, its entry `(b, f)`. -/
theorem mid_apply (h2 : (⟨2, ![B, N]⟩ : Shape).BroadcastsInDim ⟨3, ![B, 1, N]⟩ ![0, 2])
    (h1 : (⟨3, ![B, 1, N]⟩ : Shape).BroadcastsInDim ⟨3, ![B, S, N]⟩ ![0, 1, 2]) (v : (⟨2, ![B, N]⟩ : Shape).Idx → α)
    (b : Fin B) (s : Fin S) (f : Fin N) :
    broadcastInDim ⟨3, ![B, S, N]⟩ ![0, 1, 2] h1 (broadcastInDim ⟨3, ![B, 1, N]⟩ ![0, 2] h2 v) (ix3 b s f) = v (ix2 b f) := by
  refine (broadcastInDim_apply _ h1 _ (ix3 b s f) (ix3 b (0 : Fin 1) f) fun a => ?_).trans ?_
  · match a with
    | ⟨0, _⟩ =>
      show b.val = if B = 1 then 0 else b.val
      split
      · have := b.isLt; omega
      · rfl
    | ⟨1, _⟩ => rfl
    | ⟨2, _⟩ =>
      show f.val = if N = 1 then 0 else f.val
      split
      · have := f.isLt; omega
      · rfl
  · refine broadcastInDim_apply _ h2 v _ (ix2 b f) fun a => ?_
    match a with
    | ⟨0, _⟩ =>
      show b.val = if B = 1 then 0 else b.val
      split
      · have := b.isLt; omega
      · rfl
    | ⟨1, _⟩ =>
      show f.val = if N = 1 then 0 else f.val
      split
      · have := f.isLt; omega
      · rfl

end Broadcasts

/-! ## Reductions over the last axis read at an index -/

section Reductions
variable {B S K : ℕ}

/-- Reducing the last axis of `[B, S, K]`: the source index over `(b, s)` with coordinate `k` inserted is `(b, s, k)`. -/
theorem lift_last3 (h : (⟨3, ![B, S, K]⟩ : Shape).Reduces [2] ⟨2, ![B, S]⟩) (b : Fin B) (s : Fin S)
    (k : Fin ((⟨3, ![B, S, K]⟩ : Shape).size 2)) : h.lift (ix2 b s) k = ix3 b s (⟨k.val, k.isLt⟩ : Fin K) := by
  funext c; apply Fin.ext
  fin_cases c <;> rfl

/-- Reducing the last axis of `[B, K]`: the source index over `b` with coordinate `k` inserted is `(b, k)`. -/
theorem lift_last2 (h : (⟨2, ![B, K]⟩ : Shape).Reduces [1] ⟨1, ![B]⟩) (b : Fin B)
    (k : Fin ((⟨2, ![B, K]⟩ : Shape).size 1)) : h.lift (ix1 b) k = ix2 b (⟨k.val, k.isLt⟩ : Fin K) := by
  funext c; apply Fin.ext
  fin_cases c <;> rfl

/-- The host's sum over the last axis of `[B, S, K]` at `(b, s)`: the initial value plus the sum over `k`. -/
theorem sum_last3 {u : Shape} (h' : (⟨3, ![B, S, K]⟩ : Shape).ReducesTo [2] ⟨2, ![B, S]⟩)
    (h : (⟨3, ![B, S, K]⟩ : Shape).Reduces [2] ⟨2, ![B, S]⟩) (x : FVec Ideal ⟨3, ![B, S, K]⟩ .f32) (init : u.Idx → Ideal .f32)
    (hu : 0 < u.numel) (b : Fin B) (s : Fin S) :
    Host.reduceAdd x init h' hu (ix2 b s) = init (Shape.Idx.first hu) + ∑ k : Fin K, x (ix3 b s k) := by
  show Ideal.hostReduceAdd h' x (init (Shape.Idx.first hu)) (ix2 b s) = _
  rw [Ideal.hostReduceAdd_single h' h]
  exact congrArg (init (Shape.Idx.first hu) + ·) (Finset.sum_congr rfl fun k _ => congrArg x (lift_last3 h b s k))

/-- The host's sum over the last axis of `[B, K]` at `b`: the initial value plus the sum over `k`. -/
theorem sum_last2 {u : Shape} (h' : (⟨2, ![B, K]⟩ : Shape).ReducesTo [1] ⟨1, ![B]⟩)
    (h : (⟨2, ![B, K]⟩ : Shape).Reduces [1] ⟨1, ![B]⟩) (x : FVec Ideal ⟨2, ![B, K]⟩ .f32) (init : u.Idx → Ideal .f32)
    (hu : 0 < u.numel) (b : Fin B) :
    Host.reduceAdd x init h' hu (ix1 b) = init (Shape.Idx.first hu) + ∑ k : Fin K, x (ix2 b k) := by
  show Ideal.hostReduceAdd h' x (init (Shape.Idx.first hu)) (ix1 b) = _
  rw [Ideal.hostReduceAdd_single h' h]
  exact congrArg (init (Shape.Idx.first hu) + ·) (Finset.sum_congr rfl fun k _ => congrArg x (lift_last2 h b k))

/-- The host's maximum over the last axis of `[B, S, K]` at `(b, s)`: the fold of `max` from the initial value over `k`. -/
theorem max_last3 {u : Shape} (h' : (⟨3, ![B, S, K]⟩ : Shape).ReducesTo [2] ⟨2, ![B, S]⟩)
    (h : (⟨3, ![B, S, K]⟩ : Shape).Reduces [2] ⟨2, ![B, S]⟩) (x : FVec Ideal ⟨3, ![B, S, K]⟩ .f32) (init : u.Idx → Ideal .f32)
    (hu : 0 < u.numel) (b : Fin B) (s : Fin S) :
    Host.reduce FloatOps.maximumf x init h' hu (ix2 b s)
      = (Finset.univ : Finset (Fin K)).fold max (init (Shape.Idx.first hu)) (fun k => x (ix3 b s k)) := by
  refine (Host.reduce_eq_fold_single FloatOps.maximumf x init h' h hu (ix2 b s)).trans ?_
  have e : x ∘ h.lift (ix2 b s) = fun k : Fin K => x (ix3 b s k) := funext fun k => congrArg x (lift_last3 h b s k)
  rw [e]
  rfl

end Reductions

/-! ## The embedding with the frequency appended, read at an index -/

section Concat
variable {α : Type}

/-- Below position 64 the appended array reads the embedding. -/
theorem cat_lo (X : S256x64x64.Idx → α) (Y : S256x64x1.Idx → α) (b : Fin 256) (s : Fin 64) (e : Fin 64) :
    concatenate S256x64x65 2 [⟨S256x64x64, X⟩, ⟨S256x64x1, Y⟩] concatenates_S256x64x64_S256x64x1_S256x64x65_d2
        (ix3 b s (⟨e.val, by omega⟩ : Fin 65)) = X (ix3 b s e) := by
  refine concatenate_pair_apply_left (t := S256x64x65) (2 : Fin 3) X Y _ _ rfl (ix3 b s e) fun a => ?_
  match a with
  | ⟨0, _⟩ => rfl
  | ⟨1, _⟩ => rfl
  | ⟨2, _⟩ => rfl

/-- At position 64 it reads the appended column. -/
theorem cat_hi (X : S256x64x64.Idx → α) (Y : S256x64x1.Idx → α) (b : Fin 256) (s : Fin 64) :
    concatenate S256x64x65 2 [⟨S256x64x64, X⟩, ⟨S256x64x1, Y⟩] concatenates_S256x64x64_S256x64x1_S256x64x65_d2
        (ix3 b s (⟨64, by omega⟩ : Fin 65)) = Y (ix3 b s (0 : Fin 1)) := by
  refine concatenate_pair_apply_right (t := S256x64x65) (2 : Fin 3) X Y _ _ rfl rfl (ix3 b s (0 : Fin 1)) (fun a => ?_) rfl
  match a with
  | ⟨0, _⟩ => exact fun _ => rfl
  | ⟨1, _⟩ => exact fun _ => rfl
  | ⟨2, _⟩ => exact fun hne => absurd (Fin.ext rfl) hne

end Concat

/-! ## The host's elementwise operations at an index, on the extended reals -/

section HostOps
variable {s : Shape} {φ : FTy}

theorem hostNegf_apply (x : FVec Ideal s φ) (i : s.Idx) : Host.negf x i = -(x i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostDiv_apply (x y : FVec Ideal s φ) (i : s.Idx) : Host.divf x y i = Ideal.div (x i) (y i) := rfl

end HostOps

/-! ## The frequency feature -/

/-- The first layer at `(b, s, d)`: the contraction over the 65 inputs is the embedding's 64 terms plus the frequency's. -/
theorem freqLayer1_apply (E : FVec Ideal S256x64x64 .f32) (Q : FVec Ideal S256x64 .f32) (a6 : FVec Ideal S65x64 .f32)
    (b : Fin 256) (s : Fin 64) (d : Fin 64) :
    Host.dotGeneral dot_S256x64x65_S65x64_S256x64x64_2_0_01_1_n_n none
        (concatenate S256x64x65 2
          [⟨S256x64x64, E⟩, ⟨S256x64x1, broadcastInDim S256x64x1 ![0, 1] bcast_S256x64_S256x64x1_0_1 Q⟩]
          concatenates_S256x64x64_S256x64x1_S256x64x65_d2) a6 (ix3 b s d)
      = (∑ e : Fin 64, E (ix3 b s e) * a6 (ix2 (⟨e.val, by omega⟩ : Fin 65) d))
        + Q (ix2 b s) * a6 (ix2 (⟨64, by omega⟩ : Fin 65) d) := by
  rw [dot_KN_apply dot_S256x64x65_S65x64_S256x64x64_2_0_01_1_n_n rfl rfl rfl rfl rfl rfl, Fin.sum_univ_castSucc]
  refine congrArg₂ (· + ·) (Finset.sum_congr rfl fun e _ => ?_) ?_
  · exact congrArg (· * a6 (ix2 (⟨e.val, by omega⟩ : Fin 65) d)) (cat_lo E _ b s e)
  · exact congrArg (· * a6 (ix2 (⟨64, by omega⟩ : Fin 65) d))
      ((cat_hi E _ b s).trans (keep1_apply bcast_S256x64_S256x64x1_0_1 Q b s 0))

/-- The reference's frequency feature at token `(b, s)`, channel `f`: the product over the 65 inputs splits into the
    64 embedding entries and the frequency. -/
theorem refFreqFeat_apply (E : FVec Ideal S256x64x64 .f32) (Q : FVec Ideal S256x64 .f32) (a6 : FVec Ideal S65x64 .f32)
    (a7 : FVec Ideal S64 .f32) (a8 : FVec Ideal S64x10 .f32) (a9 : FVec Ideal S10 .f32) (b : Fin 256) (s : Fin 64) (f : Fin 10) :
    refFreqFeat E Q a6 a7 a8 a9 (ix3 b s f)
      = Cert.Enc.freqFeat (fun e d => a6 (ix2 (⟨e.val, by omega⟩ : Fin 65) d)) (fun d => a6 (ix2 (⟨64, by omega⟩ : Fin 65) d))
          (fun d => a7 (ix1 d)) (fun d g => a8 (ix2 d g)) (fun g => a9 (ix1 g)) (fun e => E (ix3 b s e)) (Q (ix2 b s)) f := by
  unfold refFreqFeat Cert.Enc.freqFeat Cert.Enc.proj
  rw [addf_apply, bias_apply bcast_S10_S1x1x10_2 bcast_S1x1x10_S256x64x10_0_1_2 a9 b s f,
    dot_KN_apply dot_S256x64x64_S64x10_S256x64x10_2_0_01_1_n_n rfl rfl rfl rfl rfl rfl]
  refine congrArg (· + a9 (ix1 f)) (Finset.sum_congr rfl fun d _ => congrArg (· * a8 (ix2 d f)) ?_)
  rw [maximumf_apply, addf_apply, freqLayer1_apply, bias_apply bcast_S64_S1x1x64_2 bcast_S1x1x64_S256x64x64_0_1_2 a7 b s d,
    scalar_apply, constant_apply, Cert.Enc.Consts.ofBits_zero]

/-! ## The softmax over the centres, for any scores -/

/-- The row's maximum at `(b, s)`: the larger of minus infinity and the fold of `max` over the ten scores. -/
theorem refMax_apply (z : FVec Ideal S256x64x10 .f32) (b : Fin 256) (s : Fin 64) :
    refMax z (ix2 b s) = max (Ideal.ofBits .f32 0xFF800000#32)
      ((Finset.univ : Finset (Fin 10)).fold max (Ideal.ofBits .f32 0xFF800000#32) (fun g => z (ix3 b s g))) := by
  unfold refMax
  rw [maximumf_apply, scalar_apply, constant_apply, max_last3 reducesTo_S256x64x10_S256x64_d2 (by decide) z _ h_S_ b s,
    constant_apply]

/-- The exponential of a score shifted by its row's maximum. -/
theorem refExp_apply (z : FVec Ideal S256x64x10 .f32) (b : Fin 256) (s : Fin 64) (f : Fin 10) :
    refExp z (ix3 b s f) = Ideal.exp (z (ix3 b s f) - max (Ideal.ofBits .f32 0xFF800000#32)
      ((Finset.univ : Finset (Fin 10)).fold max (Ideal.ofBits .f32 0xFF800000#32) (fun g => z (ix3 b s g)))) := by
  unfold refExp
  rw [hostExp_apply, subf_apply, keep_apply bcast_S256x64_S256x64x1_0_1 bcast_S256x64x1_S256x64x10_0_1_2 (refMax z) b s f,
    refMax_apply]

/-- The reference's softmax at `(b, s, f)` is the softmax of the ten scores of token `(b, s)`. -/
theorem refSoftmax_apply (z : FVec Ideal S256x64x10 .f32) (b : Fin 256) (s : Fin 64) (f : Fin 10) :
    refSoftmax z (ix3 b s f) = Cert.Enc.softmaxAt (fun g => z (ix3 b s g)) f := by
  unfold refSoftmax Cert.Enc.softmaxAt
  rw [hostDiv_apply, keep_apply bcast_S256x64_S256x64x1_0_1 bcast_S256x64x1_S256x64x10_0_1_2 _ b s f,
    sum_last3 reducesTo_S256x64x10_S256x64_d2 (by decide) (refExp z) _ h_S_ b s, constant_apply, Cert.Enc.Consts.ofBits_zero,
    zero_add, refExp_apply]
  exact congrArg _ (Finset.sum_congr rfl fun g _ => refExp_apply z b s g)

/-! ## Minus the distance to a centre -/

/-- The reference's score at `(b, s, f)`: minus the distance from token `(b, s)` to centre `f`. -/
theorem refNegDist_apply (E : FVec Ideal S256x64x64 .f32) (a10 : FVec Ideal S10x64 .f32) (b : Fin 256) (s : Fin 64) (f : Fin 10) :
    refNegDist E a10 (ix3 b s f) = Cert.Enc.negDist (fun g e => a10 (ix2 g e)) (fun e => E (ix3 b s e)) f := by
  unfold refNegDist Cert.Enc.negDist
  simp only [hostNegf_apply, hostSqrt_apply, maximumf_apply, subf_apply, addf_apply, mulf_apply]
  rw [keep_apply bcast_S256x64_S256x64x1_0_1 bcast_S256x64x1_S256x64x10_0_1_2 _ b s f,
    sum_last3 reducesTo_S256x64x64_S256x64_d2 (by decide) (mulf E E) _ h_S_ b s,
    bias_apply bcast_S10_S1x1x10_2 bcast_S1x1x10_S256x64x10_0_1_2 _ b s f,
    sum_last2 reducesTo_S10x64_S10_d1 (by decide) (mulf a10 a10) _ h_S_ f,
    scalar_apply, scalar_apply, constant_apply, constant_apply, constant_apply, Cert.Enc.Consts.ofBits_zero, zero_add, zero_add,
    dot_NK_apply dot_S256x64x64_S10x64_S256x64x10_2_1_01_0_n_n rfl rfl rfl rfl rfl rfl]
  rfl

/-- The reference's cluster feature at token `(b, s)`, channel `f`. -/
theorem refCluster_apply (E : FVec Ideal S256x64x64 .f32) (a10 : FVec Ideal S10x64 .f32) (b : Fin 256) (s : Fin 64) (f : Fin 10) :
    refSoftmax (refNegDist E a10) (ix3 b s f)
      = Cert.Enc.clusFeat (fun g e => a10 (ix2 g e)) (fun e => E (ix3 b s e)) f := by
  rw [refSoftmax_apply]
  unfold Cert.Enc.clusFeat
  exact congrArg (fun z => Cert.Enc.softmaxAt z f) (funext fun g => refNegDist_apply E a10 b s g)

/-- The reference's closing step at `(b, s, f)`: the three features added, the quotient by 2018 as a product. -/
theorem refFinal_apply (v47 : FVec Ideal S256x64x10 .f32) (v27 : FVec Ideal S256x10 .f32) (v75 : FVec Ideal S256x64x10 .f32)
    (b : Fin 256) (s : Fin 64) (f : Fin 10) :
    refFinal v47 v27 v75 (ix3 b s f)
      = ((v47 (ix3 b s f) + v27 (ix2 b f)) + v75 (ix3 b s f)) * ((1 / 2018 : ℝ) : EReal) := by
  unfold refFinal
  simp only [hostDiv_apply, addf_apply]
  rw [mid_apply bcast_S256x10_S256x1x10_0_2 bcast_S256x1x10_S256x64x10_0_1_2 v27 b s f, scalar_apply, constant_apply,
    Cert.Enc.Consts.ofBits_2018, Ideal.div_coe (by norm_num : (2018 : ℝ) ≠ 0)]

end Cert.ReferenceIdeal.RefFreqClus

end
-- ==== Proof.RefValue.lean ====
/-
  The reference's result read at a token and a channel: the encoder's row result of the token's batch row.
-/
import proofs.«147268_j1460288880936_1_alg».proof.Proof.RefCombo
import proofs.«147268_j1460288880936_1_alg».proof.Proof.RefFreqClus

noncomputable section

namespace Cert.ReferenceIdeal.RefValue

open Cert.ReferenceIdeal Cert.ReferenceIdeal.Gen Cert.ReferenceIdeal.RefTerm Idealize.ShloMosaic Idealize.ShloMosaic.ValueIdx

/-- At token `(b, s)` and channel `f` the reference's result is the encoder's row result of batch row `b`: its three
    features read there, added, and the quotient by the 2018 stacked rows taken as a product. -/
theorem refOut_apply (a0 : IVec S256x64 32) (a1 : FVec Ideal S100000x64 .f32) (a2 : FVec Ideal S128x64 .f32) (a3 : FVec Ideal S64 .f32)
    (a4 : FVec Ideal S64x10 .f32) (a5 : FVec Ideal S10 .f32) (a6 : FVec Ideal S65x64 .f32) (a7 : FVec Ideal S64 .f32)
    (a8 : FVec Ideal S64x10 .f32) (a9 : FVec Ideal S10 .f32) (a10 : FVec Ideal S10x64 .f32) (a11 : FVec Ideal S100000 .f32)
    (a12 : FVec Ideal S_ .f32) (b : Fin 256) (s : Fin 64) (f : Fin 10) :
    refOut a0 a1 a2 a3 a4 a5 a6 a7 a8 a9 a10 a11 a12 (ix3 b s f)
      = Cert.Enc.rowOut (fun e d => a2 (ix2 (⟨e.val, by omega⟩ : Fin 128) d)) (fun e d => a2 (ix2 (⟨64 + e.val, by omega⟩ : Fin 128) d))
          (fun d => a3 (ix1 d)) (fun d g => a4 (ix2 d g)) (fun g => a5 (ix1 g))
          (fun e d => a6 (ix2 (⟨e.val, by omega⟩ : Fin 65) d)) (fun d => a6 (ix2 (⟨64, by omega⟩ : Fin 65) d))
          (fun d => a7 (ix1 d)) (fun d g => a8 (ix2 d g)) (fun g => a9 (ix1 g))
          (fun g e => a10 (ix2 g e)) (fun i e => refEmb a0 a1 (ix3 b i e)) (fun i => refFreqs a0 a11 a12 (ix2 b i)) s f := by
  unfold refOut
  rw [RefFreqClus.refFinal_apply, RefFreqClus.refFreqFeat_apply, RefCombo.refCombo_apply, RefFreqClus.refCluster_apply]
  rfl

end Cert.ReferenceIdeal.RefValue

end
-- ==== Proof.RefRun.lean ====
/-
  The reference's run: its @main is a straight line of host operations (the two rectifier calls inlined at their
  call sites), so every weakly fair execution terminates with the result buffer at the operations' composed term of
  the arguments, and the arguments unchanged.
-/
import proofs.«147268_j1460288880936_1_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- The reference's operations in program order: each statement of @main, and at each of the two rectifier calls the
    callee's three operations (the zero, its broadcast, the maximum) over that call's own buffers. -/
abbrev ops : List (HloOp τ sig (Elt F)) :=
  [ nullary main_c (fun i => lit0 (S2016.rowMajor i)),
    nullary main_c_0 (constantI S2016 1 0#1),
    nullary main_c_1 (fun i => lit1 (S2016.rowMajor i)),
    nullary main_c_2 (constantI S2016 1 0#1),
    nullary main_c_3 (constantI S_ 32 0#32),
    unary main_c_3 main_v0 (broadcastInDim S256x64 ![] bcast_S_S256x64 : (⟨S_, .i32⟩ : BufTy).Contents (Elt F) → (⟨S256x64, .i32⟩ : BufTy).Contents (Elt F)),
    binary main_arg0 main_v0 main_v1 (cmpi .slt : (⟨S256x64, .i32⟩ : BufTy).Contents (Elt F) → (⟨S256x64, .i32⟩ : BufTy).Contents (Elt F) → (⟨S256x64, .i1⟩ : BufTy).Contents (Elt F)),
    nullary main_c_4 (constantI S_ 32 100000#32),
    unary main_c_4 main_v2 (broadcastInDim S256x64 ![] bcast_S_S256x64 : (⟨S_, .i32⟩ : BufTy).Contents (Elt F) → (⟨S256x64, .i32⟩ : BufTy).Contents (Elt F)),
    binary main_arg0 main_v2 main_v3 (addi : (⟨S256x64, .i32⟩ : BufTy).Contents (Elt F) → (⟨S256x64, .i32⟩ : BufTy).Contents (Elt F) → (⟨S256x64, .i32⟩ : BufTy).Contents (Elt F)),
    ternary main_v1 main_v3 main_arg0 main_v4 (select : (⟨S256x64, .i1⟩ : BufTy).Contents (Elt F) → (⟨S256x64, .i32⟩ : BufTy).Contents (Elt F) → (⟨S256x64, .i32⟩ : BufTy).Contents (Elt F) → (⟨S256x64, .i32⟩ : BufTy).Contents (Elt F)),
    unary main_v4 main_v5 (broadcastInDim S256x64x1 ![0, 1] bcast_S256x64_S256x64x1_0_1 : (⟨S256x64, .i32⟩ : BufTy).Contents (Elt F) → (⟨S256x64x1, .i32⟩ : BufTy).Contents (Elt F)),
    binary main_arg1 main_v5 main_v6 ((fun x i => Host.gather gather_S100000x64_S256x64x1_S256x64x64_2_0_n_n_0_2_164 x i) : (⟨S100000x64, .f32⟩ : BufTy).Contents (Elt F) → (⟨S256x64x1, .i32⟩ : BufTy).Contents (Elt F) → (⟨S256x64x64, .f32⟩ : BufTy).Contents (Elt F)),
    nullary main_c_5 (constantI S_ 32 64#32),
    unary main_c_5 main_v7 (broadcastInDim S2016 ![] bcast_S_S2016 : (⟨S_, .i32⟩ : BufTy).Contents (Elt F) → (⟨S2016, .i32⟩ : BufTy).Contents (Elt F)),
    binary main_c main_v7 main_v8 (addi : (⟨S2016, .i32⟩ : BufTy).Contents (Elt F) → (⟨S2016, .i32⟩ : BufTy).Contents (Elt F) → (⟨S2016, .i32⟩ : BufTy).Contents (Elt F)),
    ternary main_c_0 main_v8 main_c main_v9 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v9 main_v10 (broadcastInDim S2016x1 ![0] bcast_S2016_S2016x1_0 : (⟨S2016, .i32⟩ : BufTy).Contents (Elt F) → (⟨S2016x1, .i32⟩ : BufTy).Contents (Elt F)),
    binary main_v6 main_v10 main_v11 ((fun x i => Host.gather gather_S256x64x64_S2016x1_S256x2016x64_02_1_n_n_1_1_256164 x i) : (⟨S256x64x64, .f32⟩ : BufTy).Contents (Elt F) → (⟨S2016x1, .i32⟩ : BufTy).Contents (Elt F) → (⟨S256x2016x64, .f32⟩ : BufTy).Contents (Elt F)),
    nullary main_c_6 (constantI S_ 32 64#32),
    unary main_c_6 main_v12 (broadcastInDim S2016 ![] bcast_S_S2016 : (⟨S_, .i32⟩ : BufTy).Contents (Elt F) → (⟨S2016, .i32⟩ : BufTy).Contents (Elt F)),
    binary main_c_1 main_v12 main_v13 (addi : (⟨S2016, .i32⟩ : BufTy).Contents (Elt F) → (⟨S2016, .i32⟩ : BufTy).Contents (Elt F) → (⟨S2016, .i32⟩ : BufTy).Contents (Elt F)),
    ternary main_c_2 main_v13 main_c_1 main_v14 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v14 main_v15 (broadcastInDim S2016x1 ![0] bcast_S2016_S2016x1_0 : (⟨S2016, .i32⟩ : BufTy).Contents (Elt F) → (⟨S2016x1, .i32⟩ : BufTy).Contents (Elt F)),
    binary main_v6 main_v15 main_v16 ((fun x i => Host.gather gather_S256x64x64_S2016x1_S256x2016x64_02_1_n_n_1_1_256164 x i) : (⟨S256x64x64, .f32⟩ : BufTy).Contents (Elt F) → (⟨S2016x1, .i32⟩ : BufTy).Contents (Elt F) → (⟨S256x2016x64, .f32⟩ : BufTy).Contents (Elt F)),
    binary main_v11 main_v16 main_v17 ((fun a b => concatenate S256x2016x128 2 [⟨S256x2016x64, a⟩, ⟨S256x2016x64, b⟩] concatenates_S256x2016x64_S256x2016x64_S256x2016x128_d2) : (⟨S256x2016x64, .f32⟩ : BufTy).Contents (Elt F) → (⟨S256x2016x64, .f32⟩ : BufTy).Contents (Elt F) → (⟨S256x2016x128, .f32⟩ : BufTy).Contents (Elt F)),
    binary main_v17 main_arg2 main_v18 ((fun l r => Host.dotGeneral dot_S256x2016x128_S128x64_S256x2016x64_2_0_01_1_n_n none l r) : (⟨S256x2016x128, .f32⟩ : BufTy).Contents (Elt F) → (⟨S128x64, .f32⟩ : BufTy).Contents (Elt F) → (⟨S256x2016x64, .f32⟩ : BufTy).Contents (Elt F)),
    unary main_arg3 main_v19 (broadcastInDim S1x1x64 ![2] bcast_S64_S1x1x64_2 : (⟨S64, .f32⟩ : BufTy).Contents (Elt F) → (⟨S1x1x64, .f32⟩ : BufTy).Contents (Elt F)),
    unary main_v19 main_v20 (broadcastInDim S256x2016x64 ![0, 1, 2] bcast_S1x1x64_S256x2016x64_0_1_2 : (⟨S1x1x64, .f32⟩ : BufTy).Contents (Elt F) → (⟨S256x2016x64, .f32⟩ : BufTy).Contents (Elt F)),
    binary main_v18 main_v20 main_v21 (addf : (⟨S256x2016x64, .f32⟩ : BufTy).Contents (Elt F) → (⟨S256x2016x64, .f32⟩ : BufTy).Contents (Elt F) → (⟨S256x2016x64, .f32⟩ : BufTy).Contents (Elt F)),
    TRef.nullary main_call0.cst (constant S_ .f32 0x00000000#32),
    TRef.unary main_call0.cst main_call0.v0 (broadcastInDim S256x2016x64 ![] bcast_S_S256x2016x64),
    TRef.binary (.of main_v21) main_call0.v0 main_call0.v1 maximumf,
    binary main_v22 main_arg4 main_v23 ((fun l r => Host.dotGeneral dot_S256x2016x64_S64x10_S256x2016x10_2_0_01_1_n_n none l r) : (⟨S256x2016x64, .f32⟩ : BufTy).Contents (Elt F) → (⟨S64x10, .f32⟩ : BufTy).Contents (Elt F) → (⟨S256x2016x10, .f32⟩ : BufTy).Contents (Elt F)),
    unary main_arg5 main_v24 (broadcastInDim S1x1x10 ![2] bcast_S10_S1x1x10_2 : (⟨S10, .f32⟩ : BufTy).Contents (Elt F) → (⟨S1x1x10, .f32⟩ : BufTy).Contents (Elt F)),
    unary main_v24 main_v25 (broadcastInDim S256x2016x10 ![0, 1, 2] bcast_S1x1x10_S256x2016x10_0_1_2 : (⟨S1x1x10, .f32⟩ : BufTy).Contents (Elt F) → (⟨S256x2016x10, .f32⟩ : BufTy).Contents (Elt F)),
    binary main_v23 main_v25 main_v26 (addf : (⟨S256x2016x10, .f32⟩ : BufTy).Contents (Elt F) → (⟨S256x2016x10, .f32⟩ : BufTy).Contents (Elt F) → (⟨S256x2016x10, .f32⟩ : BufTy).Contents (Elt F)),
    nullary main_cst (constant S_ .f32 0x00000000#32),
    binary main_v26 main_cst main_v27 ((fun x v => Host.reduceAdd x v reducesTo_S256x2016x10_S256x10_d1 h_S_) : (⟨S256x2016x10, .f32⟩ : BufTy).Contents (Elt F) → (⟨S_, .f32⟩ : BufTy).Contents (Elt F) → (⟨S256x10, .f32⟩ : BufTy).Contents (Elt F)),
    nullary main_c_7 (constantI S_ 32 0#32),
    unary main_c_7 main_v28 (broadcastInDim S256x64 ![] bcast_S_S256x64 : (⟨S_, .i32⟩ : BufTy).Contents (Elt F) → (⟨S256x64, .i32⟩ : BufTy).Contents (Elt F)),
    binary main_arg0 main_v28 main_v29 (cmpi .slt : (⟨S256x64, .i32⟩ : BufTy).Contents (Elt F) → (⟨S256x64, .i32⟩ : BufTy).Contents (Elt F) → (⟨S256x64, .i1⟩ : BufTy).Contents (Elt F)),
    nullary main_c_8 (constantI S_ 32 100000#32),
    unary main_c_8 main_v30 (broadcastInDim S256x64 ![] bcast_S_S256x64 : (⟨S_, .i32⟩ : BufTy).Contents (Elt F) → (⟨S256x64, .i32⟩ : BufTy).Contents (Elt F)),
    binary main_arg0 main_v30 main_v31 (addi : (⟨S256x64, .i32⟩ : BufTy).Contents (Elt F) → (⟨S256x64, .i32⟩ : BufTy).Contents (Elt F) → (⟨S256x64, .i32⟩ : BufTy).Contents (Elt F)),
    ternary main_v29 main_v31 main_arg0 main_v32 (select : (⟨S256x64, .i1⟩ : BufTy).Contents (Elt F) → (⟨S256x64, .i32⟩ : BufTy).Contents (Elt F) → (⟨S256x64, .i32⟩ : BufTy).Contents (Elt F) → (⟨S256x64, .i32⟩ : BufTy).Contents (Elt F)),
    unary main_v32 main_v33 (broadcastInDim S256x64x1 ![0, 1] bcast_S256x64_S256x64x1_0_1 : (⟨S256x64, .i32⟩ : BufTy).Contents (Elt F) → (⟨S256x64x1, .i32⟩ : BufTy).Contents (Elt F)),
    binary main_arg11 main_v33 main_v34 ((fun x i => Host.gather gather_S100000_S256x64x1_S256x64_n_0_n_n_0_2_1 x i) : (⟨S100000, .f32⟩ : BufTy).Contents (Elt F) → (⟨S256x64x1, .i32⟩ : BufTy).Contents (Elt F) → (⟨S256x64, .f32⟩ : BufTy).Contents (Elt F)),
    unary main_arg12 main_v35 (broadcastInDim S256x64 ![] bcast_S_S256x64 : (⟨S_, .f32⟩ : BufTy).Contents (Elt F) → (⟨S256x64, .f32⟩ : BufTy).Contents (Elt F)),
    binary main_v34 main_v35 main_v36 (Host.divf : (⟨S256x64, .f32⟩ : BufTy).Contents (Elt F) → (⟨S256x64, .f32⟩ : BufTy).Contents (Elt F) → (⟨S256x64, .f32⟩ : BufTy).Contents (Elt F)),
    unary main_v36 main_v37 (broadcastInDim S256x64x1 ![0, 1] bcast_S256x64_S256x64x1_0_1 : (⟨S256x64, .f32⟩ : BufTy).Contents (Elt F) → (⟨S256x64x1, .f32⟩ : BufTy).Contents (Elt F)),
    binary main_v6 main_v37 main_v38 ((fun a b => concatenate S256x64x65 2 [⟨S256x64x64, a⟩, ⟨S256x64x1, b⟩] concatenates_S256x64x64_S256x64x1_S256x64x65_d2) : (⟨S256x64x64, .f32⟩ : BufTy).Contents (Elt F) → (⟨S256x64x1, .f32⟩ : BufTy).Contents (Elt F) → (⟨S256x64x65, .f32⟩ : BufTy).Contents (Elt F)),
    binary main_v38 main_arg6 main_v39 ((fun l r => Host.dotGeneral dot_S256x64x65_S65x64_S256x64x64_2_0_01_1_n_n none l r) : (⟨S256x64x65, .f32⟩ : BufTy).Contents (Elt F) → (⟨S65x64, .f32⟩ : BufTy).Contents (Elt F) → (⟨S256x64x64, .f32⟩ : BufTy).Contents (Elt F)),
    unary main_arg7 main_v40 (broadcastInDim S1x1x64 ![2] bcast_S64_S1x1x64_2 : (⟨S64, .f32⟩ : BufTy).Contents (Elt F) → (⟨S1x1x64, .f32⟩ : BufTy).Contents (Elt F)),
    unary main_v40 main_v41 (broadcastInDim S256x64x64 ![0, 1, 2] bcast_S1x1x64_S256x64x64_0_1_2 : (⟨S1x1x64, .f32⟩ : BufTy).Contents (Elt F) → (⟨S256x64x64, .f32⟩ : BufTy).Contents (Elt F)),
    binary main_v39 main_v41 main_v42 (addf : (⟨S256x64x64, .f32⟩ : BufTy).Contents (Elt F) → (⟨S256x64x64, .f32⟩ : BufTy).Contents (Elt F) → (⟨S256x64x64, .f32⟩ : BufTy).Contents (Elt F)),
    TRef.nullary main_call1.cst (constant S_ .f32 0x00000000#32),
    TRef.unary main_call1.cst main_call1.v0 (broadcastInDim S256x64x64 ![] bcast_S_S256x64x64),
    TRef.binary (.of main_v42) main_call1.v0 main_call1.v1 maximumf,
    binary main_v43 main_arg8 main_v44 ((fun l r => Host.dotGeneral dot_S256x64x64_S64x10_S256x64x10_2_0_01_1_n_n none l r) : (⟨S256x64x64, .f32⟩ : BufTy).Contents (Elt F) → (⟨S64x10, .f32⟩ : BufTy).Contents (Elt F) → (⟨S256x64x10, .f32⟩ : BufTy).Contents (Elt F)),
    unary main_arg9 main_v45 (broadcastInDim S1x1x10 ![2] bcast_S10_S1x1x10_2 : (⟨S10, .f32⟩ : BufTy).Contents (Elt F) → (⟨S1x1x10, .f32⟩ : BufTy).Contents (Elt F)),
    unary main_v45 main_v46 (broadcastInDim S256x64x10 ![0, 1, 2] bcast_S1x1x10_S256x64x10_0_1_2 : (⟨S1x1x10, .f32⟩ : BufTy).Contents (Elt F) → (⟨S256x64x10, .f32⟩ : BufTy).Contents (Elt F)),
    binary main_v44 main_v46 main_v47 (addf : (⟨S256x64x10, .f32⟩ : BufTy).Contents (Elt F) → (⟨S256x64x10, .f32⟩ : BufTy).Contents (Elt F) → (⟨S256x64x10, .f32⟩ : BufTy).Contents (Elt F)),
    binary main_v6 main_v6 main_v48 (mulf : (⟨S256x64x64, .f32⟩ : BufTy).Contents (Elt F) → (⟨S256x64x64, .f32⟩ : BufTy).Contents (Elt F) → (⟨S256x64x64, .f32⟩ : BufTy).Contents (Elt F)),
    nullary main_cst_9 (constant S_ .f32 0x00000000#32),
    binary main_v48 main_cst_9 main_v49 ((fun x v => Host.reduceAdd x v reducesTo_S256x64x64_S256x64_d2 h_S_) : (⟨S256x64x64, .f32⟩ : BufTy).Contents (Elt F) → (⟨S_, .f32⟩ : BufTy).Contents (Elt F) → (⟨S256x64, .f32⟩ : BufTy).Contents (Elt F)),
    unary main_v49 main_v50 (broadcastInDim S256x64x1 ![0, 1] bcast_S256x64_S256x64x1_0_1 : (⟨S256x64, .f32⟩ : BufTy).Contents (Elt F) → (⟨S256x64x1, .f32⟩ : BufTy).Contents (Elt F)),
    binary main_arg10 main_arg10 main_v51 (mulf : (⟨S10x64, .f32⟩ : BufTy).Contents (Elt F) → (⟨S10x64, .f32⟩ : BufTy).Contents (Elt F) → (⟨S10x64, .f32⟩ : BufTy).Contents (Elt F)),
    nullary main_cst_10 (constant S_ .f32 0x00000000#32),
    binary main_v51 main_cst_10 main_v52 ((fun x v => Host.reduceAdd x v reducesTo_S10x64_S10_d1 h_S_) : (⟨S10x64, .f32⟩ : BufTy).Contents (Elt F) → (⟨S_, .f32⟩ : BufTy).Contents (Elt F) → (⟨S10, .f32⟩ : BufTy).Contents (Elt F)),
    unary main_v52 main_v53 (broadcastInDim S1x1x10 ![2] bcast_S10_S1x1x10_2 : (⟨S10, .f32⟩ : BufTy).Contents (Elt F) → (⟨S1x1x10, .f32⟩ : BufTy).Contents (Elt F)),
    unary main_v50 main_v54 (broadcastInDim S256x64x10 ![0, 1, 2] bcast_S256x64x1_S256x64x10_0_1_2 : (⟨S256x64x1, .f32⟩ : BufTy).Contents (Elt F) → (⟨S256x64x10, .f32⟩ : BufTy).Contents (Elt F)),
    unary main_v53 main_v55 (broadcastInDim S256x64x10 ![0, 1, 2] bcast_S1x1x10_S256x64x10_0_1_2 : (⟨S1x1x10, .f32⟩ : BufTy).Contents (Elt F) → (⟨S256x64x10, .f32⟩ : BufTy).Contents (Elt F)),
    binary main_v54 main_v55 main_v56 (addf : (⟨S256x64x10, .f32⟩ : BufTy).Contents (Elt F) → (⟨S256x64x10, .f32⟩ : BufTy).Contents (Elt F) → (⟨S256x64x10, .f32⟩ : BufTy).Contents (Elt F)),
    binary main_v6 main_arg10 main_v57 ((fun l r => Host.dotGeneral dot_S256x64x64_S10x64_S256x64x10_2_1_01_0_n_n none l r) : (⟨S256x64x64, .f32⟩ : BufTy).Contents (Elt F) → (⟨S10x64, .f32⟩ : BufTy).Contents (Elt F) → (⟨S256x64x10, .f32⟩ : BufTy).Contents (Elt F)),
    nullary main_cst_11 (constant S_ .f32 0x40000000#32),
    unary main_cst_11 main_v58 (broadcastInDim S256x64x10 ![] bcast_S_S256x64x10 : (⟨S_, .f32⟩ : BufTy).Contents (Elt F) → (⟨S256x64x10, .f32⟩ : BufTy).Contents (Elt F)),
    binary main_v58 main_v57 main_v59 (mulf : (⟨S256x64x10, .f32⟩ : BufTy).Contents (Elt F) → (⟨S256x64x10, .f32⟩ : BufTy).Contents (Elt F) → (⟨S256x64x10, .f32⟩ : BufTy).Contents (Elt F)),
    binary main_v56 main_v59 main_v60 (subf : (⟨S256x64x10, .f32⟩ : BufTy).Contents (Elt F) → (⟨S256x64x10, .f32⟩ : BufTy).Contents (Elt F) → (⟨S256x64x10, .f32⟩ : BufTy).Contents (Elt F)),
    nullary main_cst_12 (constant S_ .f32 0x00000000#32),
    unary main_cst_12 main_v61 (broadcastInDim S256x64x10 ![] bcast_S_S256x64x10 : (⟨S_, .f32⟩ : BufTy).Contents (Elt F) → (⟨S256x64x10, .f32⟩ : BufTy).Contents (Elt F)),
    binary main_v60 main_v61 main_v62 (maximumf : (⟨S256x64x10, .f32⟩ : BufTy).Contents (Elt F) → (⟨S256x64x10, .f32⟩ : BufTy).Contents (Elt F) → (⟨S256x64x10, .f32⟩ : BufTy).Contents (Elt F)),
    unary main_v62 main_v63 (Host.sqrt : (⟨S256x64x10, .f32⟩ : BufTy).Contents (Elt F) → (⟨S256x64x10, .f32⟩ : BufTy).Contents (Elt F)),
    unary main_v63 main_v64 (Host.negf : (⟨S256x64x10, .f32⟩ : BufTy).Contents (Elt F) → (⟨S256x64x10, .f32⟩ : BufTy).Contents (Elt F)),
    nullary main_cst_13 (constant S_ .f32 0xFF800000#32),
    binary main_v64 main_cst_13 main_v65 ((fun x v => Host.reduce FloatOps.maximumf x v reducesTo_S256x64x10_S256x64_d2 h_S_) : (⟨S256x64x10, .f32⟩ : BufTy).Contents (Elt F) → (⟨S_, .f32⟩ : BufTy).Contents (Elt F) → (⟨S256x64, .f32⟩ : BufTy).Contents (Elt F)),
    nullary main_cst_14 (constant S_ .f32 0xFF800000#32),
    unary main_cst_14 main_v66 (broadcastInDim S256x64 ![] bcast_S_S256x64 : (⟨S_, .f32⟩ : BufTy).Contents (Elt F) → (⟨S256x64, .f32⟩ : BufTy).Contents (Elt F)),
    binary main_v66 main_v65 main_v67 (maximumf : (⟨S256x64, .f32⟩ : BufTy).Contents (Elt F) → (⟨S256x64, .f32⟩ : BufTy).Contents (Elt F) → (⟨S256x64, .f32⟩ : BufTy).Contents (Elt F)),
    unary main_v67 main_v68 (broadcastInDim S256x64x1 ![0, 1] bcast_S256x64_S256x64x1_0_1 : (⟨S256x64, .f32⟩ : BufTy).Contents (Elt F) → (⟨S256x64x1, .f32⟩ : BufTy).Contents (Elt F)),
    unary main_v68 main_v69 (broadcastInDim S256x64x10 ![0, 1, 2] bcast_S256x64x1_S256x64x10_0_1_2 : (⟨S256x64x1, .f32⟩ : BufTy).Contents (Elt F) → (⟨S256x64x10, .f32⟩ : BufTy).Contents (Elt F)),
    binary main_v64 main_v69 main_v70 (subf : (⟨S256x64x10, .f32⟩ : BufTy).Contents (Elt F) → (⟨S256x64x10, .f32⟩ : BufTy).Contents (Elt F) → (⟨S256x64x10, .f32⟩ : BufTy).Contents (Elt F)),
    unary main_v70 main_v71 (Host.exp : (⟨S256x64x10, .f32⟩ : BufTy).Contents (Elt F) → (⟨S256x64x10, .f32⟩ : BufTy).Contents (Elt F)),
    nullary main_cst_15 (constant S_ .f32 0x00000000#32),
    binary main_v71 main_cst_15 main_v72 ((fun x v => Host.reduceAdd x v reducesTo_S256x64x10_S256x64_d2 h_S_) : (⟨S256x64x10, .f32⟩ : BufTy).Contents (Elt F) → (⟨S_, .f32⟩ : BufTy).Contents (Elt F) → (⟨S256x64, .f32⟩ : BufTy).Contents (Elt F)),
    unary main_v72 main_v73 (broadcastInDim S256x64x1 ![0, 1] bcast_S256x64_S256x64x1_0_1 : (⟨S256x64, .f32⟩ : BufTy).Contents (Elt F) → (⟨S256x64x1, .f32⟩ : BufTy).Contents (Elt F)),
    unary main_v73 main_v74 (broadcastInDim S256x64x10 ![0, 1, 2] bcast_S256x64x1_S256x64x10_0_1_2 : (⟨S256x64x1, .f32⟩ : BufTy).Contents (Elt F) → (⟨S256x64x10, .f32⟩ : BufTy).Contents (Elt F)),
    binary main_v71 main_v74 main_v75 (Host.divf : (⟨S256x64x10, .f32⟩ : BufTy).Contents (Elt F) → (⟨S256x64x10, .f32⟩ : BufTy).Contents (Elt F) → (⟨S256x64x10, .f32⟩ : BufTy).Contents (Elt F)),
    unary main_v27 main_v76 (broadcastInDim S256x1x10 ![0, 2] bcast_S256x10_S256x1x10_0_2 : (⟨S256x10, .f32⟩ : BufTy).Contents (Elt F) → (⟨S256x1x10, .f32⟩ : BufTy).Contents (Elt F)),
    unary main_v76 main_v77 (broadcastInDim S256x64x10 ![0, 1, 2] bcast_S256x1x10_S256x64x10_0_1_2 : (⟨S256x1x10, .f32⟩ : BufTy).Contents (Elt F) → (⟨S256x64x10, .f32⟩ : BufTy).Contents (Elt F)),
    binary main_v47 main_v77 main_v78 (addf : (⟨S256x64x10, .f32⟩ : BufTy).Contents (Elt F) → (⟨S256x64x10, .f32⟩ : BufTy).Contents (Elt F) → (⟨S256x64x10, .f32⟩ : BufTy).Contents (Elt F)),
    binary main_v78 main_v75 main_v79 (addf : (⟨S256x64x10, .f32⟩ : BufTy).Contents (Elt F) → (⟨S256x64x10, .f32⟩ : BufTy).Contents (Elt F) → (⟨S256x64x10, .f32⟩ : BufTy).Contents (Elt F)),
    nullary main_cst_16 (constant S_ .f32 0x44FC4000#32),
    unary main_cst_16 main_v80 (broadcastInDim S256x64x10 ![] bcast_S_S256x64x10 : (⟨S_, .f32⟩ : BufTy).Contents (Elt F) → (⟨S256x64x10, .f32⟩ : BufTy).Contents (Elt F)),
    binary main_v79 main_v80 main_v81 (Host.divf : (⟨S256x64x10, .f32⟩ : BufTy).Contents (Elt F) → (⟨S256x64x10, .f32⟩ : BufTy).Contents (Elt F) → (⟨S256x64x10, .f32⟩ : BufTy).Contents (Elt F)) ]

set_option maxRecDepth 8192 in
set_option maxHeartbeats 4000000 in
/-- @main is that straight line: the two windows and the callees unfolded, sequencing reassociated. -/
theorem main_eq (c : Dev nD) : main (F := F) c = seq ops := by
  simp only [main, main_part0, main_part1, fn_relu.body, fn_relu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the line touches buffers of the core only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., binary_bufs_sub .., nullary_bufs_sub .., binary_bufs_sub ..,
    unary_bufs_sub .., binary_bufs_sub .., nullary_bufs_sub .., binary_bufs_sub .., unary_bufs_sub .., unary_bufs_sub ..,
    unary_bufs_sub .., binary_bufs_sub .., binary_bufs_sub .., nullary_bufs_sub .., unary_bufs_sub .., binary_bufs_sub ..,
    binary_bufs_sub .., nullary_bufs_sub .., unary_bufs_sub .., binary_bufs_sub .., unary_bufs_sub .., unary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub ..⟩

set_option maxRecDepth 8192 in
set_option maxHeartbeats 42000000 in
/-- The fold of the operations' results at the result buffer is `refOut` of the contents at the argument buffers:
    each operation's result read at its own buffer is its function of its operands' contents, at any other buffer
    what was there; the composed term is `refOut`'s by unfolding its parts (a callee's operation carries the
    identity transport between its value's type and its buffer's). -/
theorem out_eq (V : Valuation τ sig (Elt F)) :
    after ops V (main_v81 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  rfl

set_option maxRecDepth 8192 in
set_option maxHeartbeats 42000000 in
/-- No operation of the line writes argument 0's buffer: it keeps its contents. -/
theorem arg0_eq (V : Valuation τ sig (Elt F)) :
    after ops V (main_arg0 : DevRef τ sig) = V (main_arg0 : DevRef τ sig) := by
  after_results_simp

set_option maxRecDepth 8192 in
set_option maxHeartbeats 42000000 in
/-- No operation of the line writes argument 1's buffer: it keeps its contents. -/
theorem arg1_eq (V : Valuation τ sig (Elt F)) :
    after ops V (main_arg1 : DevRef τ sig) = V (main_arg1 : DevRef τ sig) := by
  after_results_simp

set_option maxRecDepth 8192 in
set_option maxHeartbeats 42000000 in
/-- No operation of the line writes argument 2's buffer: it keeps its contents. -/
theorem arg2_eq (V : Valuation τ sig (Elt F)) :
    after ops V (main_arg2 : DevRef τ sig) = V (main_arg2 : DevRef τ sig) := by
  after_results_simp

set_option maxRecDepth 8192 in
set_option maxHeartbeats 42000000 in
/-- No operation of the line writes argument 3's buffer: it keeps its contents. -/
theorem arg3_eq (V : Valuation τ sig (Elt F)) :
    after ops V (main_arg3 : DevRef τ sig) = V (main_arg3 : DevRef τ sig) := by
  after_results_simp

set_option maxRecDepth 8192 in
set_option maxHeartbeats 42000000 in
/-- No operation of the line writes argument 4's buffer: it keeps its contents. -/
theorem arg4_eq (V : Valuation τ sig (Elt F)) :
    after ops V (main_arg4 : DevRef τ sig) = V (main_arg4 : DevRef τ sig) := by
  after_results_simp

set_option maxRecDepth 8192 in
set_option maxHeartbeats 42000000 in
/-- No operation of the line writes argument 5's buffer: it keeps its contents. -/
theorem arg5_eq (V : Valuation τ sig (Elt F)) :
    after ops V (main_arg5 : DevRef τ sig) = V (main_arg5 : DevRef τ sig) := by
  after_results_simp

set_option maxRecDepth 8192 in
set_option maxHeartbeats 42000000 in
/-- No operation of the line writes argument 6's buffer: it keeps its contents. -/
theorem arg6_eq (V : Valuation τ sig (Elt F)) :
    after ops V (main_arg6 : DevRef τ sig) = V (main_arg6 : DevRef τ sig) := by
  after_results_simp

set_option maxRecDepth 8192 in
set_option maxHeartbeats 42000000 in
/-- No operation of the line writes argument 7's buffer: it keeps its contents. -/
theorem arg7_eq (V : Valuation τ sig (Elt F)) :
    after ops V (main_arg7 : DevRef τ sig) = V (main_arg7 : DevRef τ sig) := by
  after_results_simp

set_option maxRecDepth 8192 in
set_option maxHeartbeats 42000000 in
/-- No operation of the line writes argument 8's buffer: it keeps its contents. -/
theorem arg8_eq (V : Valuation τ sig (Elt F)) :
    after ops V (main_arg8 : DevRef τ sig) = V (main_arg8 : DevRef τ sig) := by
  after_results_simp

set_option maxRecDepth 8192 in
set_option maxHeartbeats 42000000 in
/-- No operation of the line writes argument 9's buffer: it keeps its contents. -/
theorem arg9_eq (V : Valuation τ sig (Elt F)) :
    after ops V (main_arg9 : DevRef τ sig) = V (main_arg9 : DevRef τ sig) := by
  after_results_simp

set_option maxRecDepth 8192 in
set_option maxHeartbeats 42000000 in
/-- No operation of the line writes argument 10's buffer: it keeps its contents. -/
theorem arg10_eq (V : Valuation τ sig (Elt F)) :
    after ops V (main_arg10 : DevRef τ sig) = V (main_arg10 : DevRef τ sig) := by
  after_results_simp

set_option maxRecDepth 8192 in
set_option maxHeartbeats 42000000 in
/-- No operation of the line writes argument 11's buffer: it keeps its contents. -/
theorem arg11_eq (V : Valuation τ sig (Elt F)) :
    after ops V (main_arg11 : DevRef τ sig) = V (main_arg11 : DevRef τ sig) := by
  after_results_simp

set_option maxRecDepth 8192 in
set_option maxHeartbeats 42000000 in
/-- No operation of the line writes argument 12's buffer: it keeps its contents. -/
theorem arg12_eq (V : Valuation τ sig (Elt F)) :
    after ops V (main_arg12 : DevRef τ sig) = V (main_arg12 : DevRef τ sig) := by
  after_results_simp

set_option maxRecDepth 8192 in
/-- On every device, for any float values, from any memory with zero counters: every weakly fair execution of the
    reference's @main terminates with its result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v81).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ)

end Cert.ReferenceIdeal.RefRun

end
-- ==== Proof.lean ====
/-
  The certificate of the category encoder kernel against its jnp reference, over the extended reals.

  Both programs gather the tokens' embedding rows and frequencies with the same host operations. For each batch row
  the result is the average, over the 2016 pairs of tokens and two more stacked rows, of three features of ten
  channels: a pair perceptron summed over the pairs `i < j` of the row's 64 tokens, a frequency perceptron of each
  token, and the softmax over ten centres of minus the token's distance to each (Proof/Spec.lean states it as
  mathematics on one batch row).

  The reference lists the 2016 pairs in two constant tables, gathers both tokens of every pair, multiplies the 128
  joined entries with the first layer and sums the perceptron's values over the list. The kernel multiplies every token
  once with the upper and once with the lower half of the first layer, forms all 64 × 64 sums block by block, zeroes
  the values where the first token does not precede the second, and sums. The two agree because a sum over 128 joined
  entries is the sum of its two halves, a product with the 0/1 mask keeps or zeroes a value whatever it is, and the two
  tables list every pair `i < j` exactly once (Proof/Tables.lean). The frequency perceptron's 65-entry product splits
  the same way; the cluster feature is computed by the same operations on both sides. The kernel's product with the
  named reciprocal of 2018 is the reference's quotient by 2018 on every extended real. No step needs the inputs to be
  finite: only commutativity and associativity of sums, `0 + x = x`, `x · 1 = x` and `x · 0 = 0` are used.

  The frames of the two kernel programs are the generated ones; the reference's run is read off its straight line of
  host operations (Proof/RefRun.lean); the kernel's result array is assembled from the blocks its 32 grid points write
  (Proof/KerValue.lean).
-/
import proofs.«147268_j1460288880936_1_alg».proof.Defs
import proofs.«147268_j1460288880936_1_alg».proof.Proof.Gen.Kernel
import proofs.«147268_j1460288880936_1_alg».proof.Proof.Gen.Kernel.Skeleton
import proofs.«147268_j1460288880936_1_alg».proof.Proof.Gen.Kernel.Launch
import proofs.«147268_j1460288880936_1_alg».proof.Proof.Gen.Kernel.Points
import proofs.«147268_j1460288880936_1_alg».proof.Proof.Gen.Kernel.Frame
import proofs.«147268_j1460288880936_1_alg».proof.Proof.Gen.KernelIdeal
import proofs.«147268_j1460288880936_1_alg».proof.Proof.Gen.KernelIdeal.Skeleton
import proofs.«147268_j1460288880936_1_alg».proof.Proof.Gen.KernelIdeal.Launch
import proofs.«147268_j1460288880936_1_alg».proof.Proof.Gen.KernelIdeal.Points
import proofs.«147268_j1460288880936_1_alg».proof.Proof.Gen.KernelIdeal.Frame
import proofs.«147268_j1460288880936_1_alg».proof.Proof.Gen.KernelIdeal.Value
import proofs.«147268_j1460288880936_1_alg».proof.Proof.Gen.ReferenceIdeal
import proofs.«147268_j1460288880936_1_alg».proof.Proof.Gen.Pre_finite_inputs
import proofs.«147268_j1460288880936_1_alg».proof.Proof.KerValue
import proofs.«147268_j1460288880936_1_alg».proof.Proof.RefValue
import proofs.«147268_j1460288880936_1_alg».proof.Proof.RefRun
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel's host operations gather the embedding rows as the reference's do. -/
theorem kerEmb_eq (a0 : IVec Cert.KernelIdeal.S256x64 32) (a1 : FVec Ideal Cert.KernelIdeal.S100000x64 .f32) :
    Cert.KernelIdeal.KerHost.kerEmb a0 a1 = Cert.ReferenceIdeal.RefTerm.refEmb (F := Ideal) a0 a1 := rfl

/-- … and the frequencies. -/
theorem kerFreqs_eq (a0 : IVec Cert.KernelIdeal.S256x64 32) (a11 : FVec Ideal Cert.KernelIdeal.S100000 .f32)
    (a12 : FVec Ideal Cert.KernelIdeal.S_ .f32) :
    Cert.KernelIdeal.KerHost.kerFreqs a0 a11 a12 = Cert.ReferenceIdeal.RefTerm.refFreqs (F := Ideal) a0 a11 a12 := rfl

/-- The kernel's result array is the reference's result term of the same arguments: index by index both are the
    encoder's row result. -/
theorem G_eq (m : (ℓ : Loc Cert.KernelIdeal.nD Cert.KernelIdeal.τ Cert.KernelIdeal.sig) → Buf (Elt Ideal) ℓ)
    (c : Dev Cert.KernelIdeal.nD) :
    Cert.KernelIdeal.KerValue.G m c = Cert.ReferenceIdeal.RefTerm.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  funext j
  refine Eq.trans ?_ (congrArg (Cert.ReferenceIdeal.RefTerm.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (eq_ix3 j)).symm
  refine Eq.trans ?_ (Cert.ReferenceIdeal.RefValue.refOut_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (j 0) (j 1) (j 2)).symm
  show Cert.KernelIdeal.KerValue.H m c (j 0) (j 1) (j 2) = _
  unfold Cert.KernelIdeal.KerValue.H
  rw [kerEmb_eq, kerFreqs_eq]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ledger's one entry: the certificate's table gives the kernel's averaging constant the value `1/2018`. -/
theorem preserves : Cert.preserves_Kernel_KernelIdeal :=
  IdealRules.named_const.statement Cert.KernelIdeal.κ "inv_2018" .f32 0x3A01E723#32 ((1 / 2018 : ℝ) : EReal) rfl

/-- Both programs end with the encoder's result array of arguments that agree. -/
theorem algebraic : Cert.algebraic_KernelIdeal_ReferenceIdeal := by
  intro m ρ m' ρ' _ hagree
  refine ⟨fun c => Cert.ReferenceIdeal.RefTerm.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans ((Cert.KernelIdeal.KerValue.final m c).trans (G_eq m c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
